-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩
abbrev S65x128 : Shape := ⟨2, ![65, 128]⟩
abbrev S128 : Shape := ⟨1, ![128]⟩
abbrev S16513x128 : Shape := ⟨2, ![16513, 128]⟩
abbrev S16641x128 : Shape := ⟨2, ![16641, 128]⟩
abbrev S769x1 : Shape := ⟨2, ![769, 1]⟩
abbrev S1 : Shape := ⟨1, ![1]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  reducesTo_S_S_d : S_.ReducesTo [] S_
  bcast_S_S65x128 : S_.BroadcastsInDim S65x128 (![] : Fin 0 → Fin S65x128.rank)
  reducesTo_S65x128_S_d0_1 : S65x128.ReducesTo [0, 1] S_
  bcast_S_S128 : S_.BroadcastsInDim S128 (![] : Fin 0 → Fin S128.rank)
  reducesTo_S128_S_d0 : S128.ReducesTo [0] S_
  bcast_S_S16513x128 : S_.BroadcastsInDim S16513x128 (![] : Fin 0 → Fin S16513x128.rank)
  reducesTo_S16513x128_S_d0_1 : S16513x128.ReducesTo [0, 1] S_
  bcast_S_S16641x128 : S_.BroadcastsInDim S16641x128 (![] : Fin 0 → Fin S16641x128.rank)
  reducesTo_S16641x128_S_d0_1 : S16641x128.ReducesTo [0, 1] S_
  bcast_S_S769x1 : S_.BroadcastsInDim S769x1 (![] : Fin 0 → Fin S769x1.rank)
  reducesTo_S769x1_S_d0_1 : S769x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S769x1 .f32) (main_arg15 : FVec F S1 .f32) (main_v67 : IVec S_ 1) : IVec S_ 1 :=
  let main_v68 : FVec F S769x1 .f32 := Host.absf main_arg14
  let main_cst_26 : FVec F S_ .f32 := constant S_ .f32 0x7F800000#32
  let main_v69 : FVec F S769x1 .f32 := broadcastInDim S769x1 ![] bcast_S_S769x1 main_cst_26
  let main_v70 : IVec S769x1 1 := cmpf .olt main_v68 main_v69
  let main_c_27 : IVec S_ 1 := constantI S_ 1 1#1
  let main_v71 : IVec S_ 1 := (fun x v => Host.reduce IntOp.andi x v reducesTo_S769x1_S_d0_1 h_S_) main_v70 main_c_27
  let main_v72 : IVec S_ 1 := andi main_v67 main_v71
  let main_v73 : FVec F S1 .f32 := Host.absf main_arg15
  let main_cst_28 : FVec F S_ .f32 := constant S_ .f32 0x7F800000#32
  let main_v74 : FVec F S1 .f32 := broadcastInDim S1 ![] bcast_S_S1 main_cst_28
  let main_v75 : IVec S1 1 := cmpf .olt main_v73 main_v74
  let main_c_29 : IVec S_ 1 := constantI S_ 1 1#1
  let main_v76 : IVec S_ 1 := (fun x v => Host.reduce IntOp.andi x v reducesTo_S1_S_d0 h_S_) main_v75 main_c_29
  let main_v77 : IVec S_ 1 := andi main_v72 main_v76
  main_v77

def fn_part3 {F : FTy → Type} [FloatOps F] (main_arg11 : FVec F S128 .f32) (main_arg12 : FVec F S16641x128 .f32) (main_arg13 : FVec F S128 .f32) (main_arg14 : FVec F S769x1 .f32) (main_arg15 : FVec F S1 .f32) (main_v47 : IVec S_ 1) (main_v50 : IVec S16641x128 1) : IVec S_ 1 :=
  let main_c_19 : IVec S_ 1 := constantI S_ 1 1#1
  let main_v51 : IVec S_ 1 := (fun x v => Host.reduce IntOp.andi x v reducesTo_S16641x128_S_d0_1 h_S_) main_v50 main_c_19
  let main_v52 : IVec S_ 1 := andi main_v47 main_v51
  let main_v53 : FVec F S128 .f32 := Host.absf main_arg11
  let main_cst_20 : FVec F S_ .f32 := constant S_ .f32 0x7F800000#32
  let main_v54 : FVec F S128 .f32 := broadcastInDim S128 ![] bcast_S_S128 main_cst_20
  let main_v55 : IVec S128 1 := cmpf .olt main_v53 main_v54
  let main_c_21 : IVec S_ 1 := constantI S_ 1 1#1
  let main_v56 : IVec S_ 1 := (fun x v => Host.reduce IntOp.andi x v reducesTo_S128_S_d0 h_S_) main_v55 main_c_21
  let main_v57 : IVec S_ 1 := andi main_v52 main_v56
  let main_v58 : FVec F S16641x128 .f32 := Host.absf main_arg12
  let main_cst_22 : FVec F S_ .f32 := constant S_ .f32 0x7F800000#32
  let main_v59 : FVec F S16641x128 .f32 := broadcastInDim S16641x128 ![] bcast_S_S16641x128 main_cst_22
  let main_v60 : IVec S16641x128 1 := cmpf .olt main_v58 main_v59
  let main_c_23 : IVec S_ 1 := constantI S_ 1 1#1
  let main_v61 : IVec S_ 1 := (fun x v => Host.reduce IntOp.andi x v reducesTo_S16641x128_S_d0_1 h_S_) main_v60 main_c_23
  let main_v62 : IVec S_ 1 := andi main_v57 main_v61
  let main_v63 : FVec F S128 .f32 := Host.absf main_arg13
  let main_cst_24 : FVec F S_ .f32 := constant S_ .f32 0x7F800000#32
  let main_v64 : FVec F S128 .f32 := broadcastInDim S128 ![] bcast_S_S128 main_cst_24
  let main_v65 : IVec S128 1 := cmpf .olt main_v63 main_v64
  let main_c_25 : IVec S_ 1 := constantI S_ 1 1#1
  let main_v66 : IVec S_ 1 := (fun x v => Host.reduce IntOp.andi x v reducesTo_S128_S_d0 h_S_) main_v65 main_c_25
  let main_v67 : IVec S_ 1 := andi main_v62 main_v66
  fn_part4 (F := F) main_arg14 main_arg15 main_v67

def fn_part2 {F : FTy → Type} [FloatOps F] (main_arg8 : FVec F S16513x128 .f32) (main_arg9 : FVec F S128 .f32) (main_arg10 : FVec F S16641x128 .f32) (main_arg11 : FVec F S128 .f32) (main_arg12 : FVec F S16641x128 .f32) (main_arg13 : FVec F S128 .f32) (main_arg14 : FVec F S769x1 .f32) (main_arg15 : FVec F S1 .f32) (main_v32 : IVec S_ 1) (main_v33 : FVec F S128 .f32) : IVec S_ 1 :=
  let main_cst_12 : FVec F S_ .f32 := constant S_ .f32 0x7F800000#32
  let main_v34 : FVec F S128 .f32 := broadcastInDim S128 ![] bcast_S_S128 main_cst_12
  let main_v35 : IVec S128 1 := cmpf .olt main_v33 main_v34
  let main_c_13 : IVec S_ 1 := constantI S_ 1 1#1
  let main_v36 : IVec S_ 1 := (fun x v => Host.reduce IntOp.andi x v reducesTo_S128_S_d0 h_S_) main_v35 main_c_13
  let main_v37 : IVec S_ 1 := andi main_v32 main_v36
  let main_v38 : FVec F S16513x128 .f32 := Host.absf main_arg8
  let main_cst_14 : FVec F S_ .f32 := constant S_ .f32 0x7F800000#32
  let main_v39 : FVec F S16513x128 .f32 := broadcastInDim S16513x128 ![] bcast_S_S16513x128 main_cst_14
  let main_v40 : IVec S16513x128 1 := cmpf .olt main_v38 main_v39
  let main_c_15 : IVec S_ 1 := constantI S_ 1 1#1
  let main_v41 : IVec S_ 1 := (fun x v => Host.reduce IntOp.andi x v reducesTo_S16513x128_S_d0_1 h_S_) main_v40 main_c_15
  let main_v42 : IVec S_ 1 := andi main_v37 main_v41
  let main_v43 : FVec F S128 .f32 := Host.absf main_arg9
  let main_cst_16 : FVec F S_ .f32 := constant S_ .f32 0x7F800000#32
  let main_v44 : FVec F S128 .f32 := broadcastInDim S128 ![] bcast_S_S128 main_cst_16
  let main_v45 : IVec S128 1 := cmpf .olt main_v43 main_v44
  let main_c_17 : IVec S_ 1 := constantI S_ 1 1#1
  let main_v46 : IVec S_ 1 := (fun x v => Host.reduce IntOp.andi x v reducesTo_S128_S_d0 h_S_) main_v45 main_c_17
  let main_v47 : IVec S_ 1 := andi main_v42 main_v46
  let main_v48 : FVec F S16641x128 .f32 := Host.absf main_arg10
  let main_cst_18 : FVec F S_ .f32 := constant S_ .f32 0x7F800000#32
  let main_v49 : FVec F S16641x128 .f32 := broadcastInDim S16641x128 ![] bcast_S_S16641x128 main_cst_18
  let main_v50 : IVec S16641x128 1 := cmpf .olt main_v48 main_v49
  fn_part3 (F := F) main_arg11 main_arg12 main_arg13 main_arg14 main_arg15 main_v47 main_v50

def fn_part1 {F : FTy → Type} [FloatOps F] (main_arg4 : FVec F S65x128 .f32) (main_arg5 : FVec F S128 .f32) (main_arg6 : FVec F S16513x128 .f32) (main_arg7 : FVec F S128 .f32) (main_arg8 : FVec F S16513x128 .f32) (main_arg9 : FVec F S128 .f32) (main_arg10 : FVec F S16641x128 .f32) (main_arg11 : FVec F S128 .f32) (main_arg12 : FVec F S16641x128 .f32) (main_arg13 : FVec F S128 .f32) (main_arg14 : FVec F S769x1 .f32) (main_arg15 : FVec F S1 .f32) (main_v12 : IVec S_ 1) (main_v15 : IVec S128 1) (main_c_5 : IVec S_ 1) : IVec S_ 1 :=
  let main_v16 : IVec S_ 1 := (fun x v => Host.reduce IntOp.andi x v reducesTo_S128_S_d0 h_S_) main_v15 main_c_5
  let main_v17 : IVec S_ 1 := andi main_v12 main_v16
  let main_v18 : FVec F S65x128 .f32 := Host.absf main_arg4
  let main_cst_6 : FVec F S_ .f32 := constant S_ .f32 0x7F800000#32
  let main_v19 : FVec F S65x128 .f32 := broadcastInDim S65x128 ![] bcast_S_S65x128 main_cst_6
  let main_v20 : IVec S65x128 1 := cmpf .olt main_v18 main_v19
  let main_c_7 : IVec S_ 1 := constantI S_ 1 1#1
  let main_v21 : IVec S_ 1 := (fun x v => Host.reduce IntOp.andi x v reducesTo_S65x128_S_d0_1 h_S_) main_v20 main_c_7
  let main_v22 : IVec S_ 1 := andi main_v17 main_v21
  let main_v23 : FVec F S128 .f32 := Host.absf main_arg5
  let main_cst_8 : FVec F S_ .f32 := constant S_ .f32 0x7F800000#32
  let main_v24 : FVec F S128 .f32 := broadcastInDim S128 ![] bcast_S_S128 main_cst_8
  let main_v25 : IVec S128 1 := cmpf .olt main_v23 main_v24
  let main_c_9 : IVec S_ 1 := constantI S_ 1 1#1
  let main_v26 : IVec S_ 1 := (fun x v => Host.reduce IntOp.andi x v reducesTo_S128_S_d0 h_S_) main_v25 main_c_9
  let main_v27 : IVec S_ 1 := andi main_v22 main_v26
  let main_v28 : FVec F S16513x128 .f32 := Host.absf main_arg6
  let main_cst_10 : FVec F S_ .f32 := constant S_ .f32 0x7F800000#32
  let main_v29 : FVec F S16513x128 .f32 := broadcastInDim S16513x128 ![] bcast_S_S16513x128 main_cst_10
  let main_v30 : IVec S16513x128 1 := cmpf .olt main_v28 main_v29
  let main_c_11 : IVec S_ 1 := constantI S_ 1 1#1
  let main_v31 : IVec S_ 1 := (fun x v => Host.reduce IntOp.andi x v reducesTo_S16513x128_S_d0_1 h_S_) main_v30 main_c_11
  let main_v32 : IVec S_ 1 := andi main_v27 main_v31
  let main_v33 : FVec F S128 .f32 := Host.absf main_arg7
  fn_part2 (F := F) main_arg8 main_arg9 main_arg10 main_arg11 main_arg12 main_arg13 main_arg14 main_arg15 main_v32 main_v33

def fn {F : FTy → Type} [FloatOps F] (main_arg0 : FVec F S8192x64 .f32) (main_arg1 : FVec F S_ .f32) (main_arg2 : FVec F S65x128 .f32) (main_arg3 : FVec F S128 .f32) (main_arg4 : FVec F S65x128 .f32) (main_arg5 : FVec F S128 .f32) (main_arg6 : FVec F S16513x128 .f32) (main_arg7 : FVec F S128 .f32) (main_arg8 : FVec F S16513x128 .f32) (main_arg9 : FVec F S128 .f32) (main_arg10 : FVec F S16641x128 .f32) (main_arg11 : FVec F S128 .f32) (main_arg12 : FVec F S16641x128 .f32) (main_arg13 : FVec F S128 .f32) (main_arg14 : FVec F S769x1 .f32) (main_arg15 : FVec F S1 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S65x128 .f32 := Host.absf main_arg2
  let main_cst_2 : FVec F S_ .f32 := constant S_ .f32 0x7F800000#32
  let main_v9 : FVec F S65x128 .f32 := broadcastInDim S65x128 ![] bcast_S_S65x128 main_cst_2
  let main_v10 : IVec S65x128 1 := cmpf .olt main_v8 main_v9
  let main_c_3 : IVec S_ 1 := constantI S_ 1 1#1
  let main_v11 : IVec S_ 1 := (fun x v => Host.reduce IntOp.andi x v reducesTo_S65x128_S_d0_1 h_S_) main_v10 main_c_3
  let main_v12 : IVec S_ 1 := andi main_v7 main_v11
  let main_v13 : FVec F S128 .f32 := Host.absf main_arg3
  let main_cst_4 : FVec F S_ .f32 := constant S_ .f32 0x7F800000#32
  let main_v14 : FVec F S128 .f32 := broadcastInDim S128 ![] bcast_S_S128 main_cst_4
  let main_v15 : IVec S128 1 := cmpf .olt main_v13 main_v14
  let main_c_5 : IVec S_ 1 := constantI S_ 1 1#1
  fn_part1 (F := F) main_arg4 main_arg5 main_arg6 main_arg7 main_arg8 main_arg9 main_arg10 main_arg11 main_arg12 main_arg13 main_arg14 main_arg15 main_v12 main_v15 main_c_5
-- ==== Kernel.lean ====
abbrev S8192x64 : Shape := ⟨2, ![8192, 64]⟩
abbrev S_ : Shape := ⟨0, ![]⟩
abbrev S65x128 : Shape := ⟨2, ![65, 128]⟩
abbrev S128 : Shape := ⟨1, ![128]⟩
abbrev S16513x128 : Shape := ⟨2, ![16513, 128]⟩
abbrev S16641x128 : Shape := ⟨2, ![16641, 128]⟩
abbrev S769x1 : Shape := ⟨2, ![769, 1]⟩
abbrev S1 : Shape := ⟨1, ![1]⟩
abbrev S64x128 : Shape := ⟨2, ![64, 128]⟩
abbrev S1x128 : Shape := ⟨2, ![1, 128]⟩
abbrev S16512x128 : Shape := ⟨2, ![16512, 128]⟩
abbrev S128x128 : Shape := ⟨2, ![128, 128]⟩
abbrev S16384x128 : Shape := ⟨2, ![16384, 128]⟩
abbrev S16640x128 : Shape := ⟨2, ![16640, 128]⟩
abbrev S768x1 : Shape := ⟨2, ![768, 1]⟩
abbrev S1x1 : Shape := ⟨2, ![1, 1]⟩
abbrev S8192x1 : Shape := ⟨2, ![8192, 1]⟩
abbrev S128x64 : Shape := ⟨2, ![128, 64]⟩
abbrev S128x1 : Shape := ⟨2, ![128, 1]⟩
abbrev S128x128x1 : Shape := ⟨3, ![128, 128, 1]⟩
abbrev S128x1x128 : Shape := ⟨3, ![128, 1, 128]⟩
abbrev S128x128x128 : Shape := ⟨3, ![128, 128, 128]⟩
abbrev S128x16384 : Shape := ⟨2, ![128, 16384]⟩
abbrev S128x768 : Shape := ⟨2, ![128, 768]⟩

abbrev nBuf : Space → Nat
  | .hbm => 89
  | .vmem => 24
  | .smem => 0
  | _ => 0

abbrev bufTy : (tb : Table) → Fin (tcTables nBuf tb) → BufTy
  | .hbm, ⟨0, _⟩ => ⟨S8192x64, .f32⟩
  | .hbm, ⟨1, _⟩ => ⟨S_, .f32⟩
  | .hbm, ⟨2, _⟩ => ⟨S65x128, .f32⟩
  | .hbm, ⟨3, _⟩ => ⟨S128, .f32⟩
  | .hbm, ⟨4, _⟩ => ⟨S65x128, .f32⟩
  | .hbm, ⟨5, _⟩ => ⟨S128, .f32⟩
  | .hbm, ⟨6, _⟩ => ⟨S16513x128, .f32⟩
  | .hbm, ⟨7, _⟩ => ⟨S128, .f32⟩
  | .hbm, ⟨8, _⟩ => ⟨S16513x128, .f32⟩
  | .hbm, ⟨9, _⟩ => ⟨S128, .f32⟩
  | .hbm, ⟨10, _⟩ => ⟨S16641x128, .f32⟩
  | .hbm, ⟨11, _⟩ => ⟨S128, .f32⟩
  | .hbm, ⟨12, _⟩ => ⟨S16641x128, .f32⟩
  | .hbm, ⟨13, _⟩ => ⟨S128, .f32⟩
  | .hbm, ⟨14, _⟩ => ⟨S769x1, .f32⟩
  | .hbm, ⟨15, _⟩ => ⟨S1, .f32⟩
  | .hbm, ⟨16, _⟩ => ⟨S64x128, .f32⟩
  | .hbm, ⟨17, _⟩ => ⟨S64x128, .f32⟩
  | .hbm, ⟨18, _⟩ => ⟨S1x128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S1x128, .f32⟩
  | .hbm, ⟨24, _⟩ => ⟨S1x128, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S1x128, .f32⟩
  | .hbm, ⟨30, _⟩ => ⟨S16512x128, .f32⟩
  | .hbm, ⟨31, _⟩ => ⟨S16512x128, .f32⟩
  | .hbm, ⟨32, _⟩ => ⟨S1x128, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S1x128, .f32⟩
  | .hbm, ⟨38, _⟩ => ⟨S1x128, .f32⟩
  | .hbm, ⟨39, _⟩ => ⟨S128, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S1x128, .f32⟩
  | .hbm, ⟨44, _⟩ => ⟨S128x128, .f32⟩
  | .hbm, ⟨45, _⟩ => ⟨S16384x128, .f32⟩
  | .hbm, ⟨46, _⟩ => ⟨S128x128, .f32⟩
  | .hbm, ⟨47, _⟩ => ⟨S16384x128, .f32⟩
  | .hbm, ⟨48, _⟩ => ⟨S16640x128, .f32⟩
  | .hbm, ⟨49, _⟩ => ⟨S16640x128, .f32⟩
  | .hbm, ⟨50, _⟩ => ⟨S1x128, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S128, .f32⟩
  | .hbm, ⟨55, _⟩ => ⟨S1x128, .f32⟩
  | .hbm, ⟨56, _⟩ => ⟨S1x128, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S1x128, .f32⟩
  | .hbm, ⟨62, _⟩ => ⟨S128x128, .f32⟩
  | .hbm, ⟨63, _⟩ => ⟨S128x128, .f32⟩
  | .hbm, ⟨64, _⟩ => ⟨S16384x128, .f32⟩
  | .hbm, ⟨65, _⟩ => ⟨S128x128, .f32⟩
  | .hbm, ⟨66, _⟩ => ⟨S128x128, .f32⟩
  | .hbm, ⟨67, _⟩ => ⟨S16384x128, .f32⟩
  | .hbm, ⟨68, _⟩ => ⟨S768x1, .f32⟩
  | .hbm, ⟨69, _⟩ => ⟨S1x1, .f32⟩
  | .hbm, ⟨70, _⟩ => ⟨S1, .f32⟩
  | .hbm, ⟨71, _⟩ => ⟨S1, .f32⟩
  | .hbm, ⟨72, _⟩ => ⟨S1, .f32⟩
  | .hbm, ⟨73, _⟩ => ⟨S1, .f32⟩
  | .hbm, ⟨74, _⟩ => ⟨S1x1, .f32⟩
  | .hbm, ⟨75, _⟩ => ⟨S64x128, .bf16⟩
  | .hbm, ⟨76, _⟩ => ⟨S64x128, .bf16⟩
  | .hbm, ⟨77, _⟩ => ⟨S128x128, .bf16⟩
  | .hbm, ⟨78, _⟩ => ⟨S16384x128, .bf16⟩
  | .hbm, ⟨79, _⟩ => ⟨S128x128, .bf16⟩
  | .hbm, ⟨80, _⟩ => ⟨S16384x128, .bf16⟩
  | .hbm, ⟨81, _⟩ => ⟨S128x128, .bf16⟩
  | .hbm, ⟨82, _⟩ => ⟨S128x128, .bf16⟩
  | .hbm, ⟨83, _⟩ => ⟨S16384x128, .bf16⟩
  | .hbm, ⟨84, _⟩ => ⟨S128x128, .bf16⟩
  | .hbm, ⟨85, _⟩ => ⟨S128x128, .bf16⟩
  | .hbm, ⟨86, _⟩ => ⟨S16384x128, .bf16⟩
  | .hbm, ⟨87, _⟩ => ⟨S768x1, .bf16⟩
  | .hbm, ⟨88, _⟩ => ⟨S8192x1, .f32⟩
  | .local _ .vmem, ⟨0, _⟩ => ⟨S128x64, .f32⟩
  | .local _ .vmem, ⟨1, _⟩ => ⟨S128x64, .f32⟩
  | .local _ .vmem, ⟨2, _⟩ => ⟨S64x128, .bf16⟩
  | .local _ .vmem, ⟨3, _⟩ => ⟨S64x128, .bf16⟩
  | .local _ .vmem, ⟨4, _⟩ => ⟨S1x128, .f32⟩
  | .local _ .vmem, ⟨5, _⟩ => ⟨S1x128, .f32⟩
  | .local _ .vmem, ⟨6, _⟩ => ⟨S128x128, .bf16⟩
  | .local _ .vmem, ⟨7, _⟩ => ⟨S16384x128, .bf16⟩
  | .local _ .vmem, ⟨8, _⟩ => ⟨S1x128, .f32⟩
  | .local _ .vmem, ⟨9, _⟩ => ⟨S128x128, .bf16⟩
  | .local _ .vmem, ⟨10, _⟩ => ⟨S16384x128, .bf16⟩
  | .local _ .vmem, ⟨11, _⟩ => ⟨S1x128, .f32⟩
  | .local _ .vmem, ⟨12, _⟩ => ⟨S128x128, .bf16⟩
  | .local _ .vmem, ⟨13, _⟩ => ⟨S128x128, .bf16⟩
  | .local _ .vmem, ⟨14, _⟩ => ⟨S16384x128, .bf16⟩
  | .local _ .vmem, ⟨15, _⟩ => ⟨S1x128, .f32⟩
  | .local _ .vmem, ⟨16, _⟩ => ⟨S128x128, .bf16⟩
  | .local _ .vmem, ⟨17, _⟩ => ⟨S128x128, .bf16⟩
  | .local _ .vmem, ⟨18, _⟩ => ⟨S16384x128, .bf16⟩
  | .local _ .vmem, ⟨19, _⟩ => ⟨S1x128, .f32⟩
  | .local _ .vmem, ⟨20, _⟩ => ⟨S768x1, .bf16⟩
  | .local _ .vmem, ⟨21, _⟩ => ⟨S1x1, .f32⟩
  | .local _ .vmem, ⟨22, _⟩ => ⟨S128x1, .f32⟩
  | .local _ .vmem, ⟨23, _⟩ => ⟨S128x1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg21_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem21_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16384x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16384x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16384x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16384x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S768x1 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S128x1 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  slices_S65x128_S64x128_1_0 : S65x128.Slices ![1, 0] S64x128
  slices_S65x128_S1x128_0_0 : S65x128.Slices ![0, 0] S1x128
  shapeCasts_S1x128_S128 : S1x128.ShapeCasts S128
  bcast_S_S128 : S_.BroadcastsInDim S128 (![] : Fin 0 → Fin S128.rank)
  shapeCasts_S128_S1x128 : S128.ShapeCasts S1x128
  slices_S16513x128_S16512x128_1_0 : S16513x128.Slices ![1, 0] S16512x128
  slices_S16513x128_S1x128_0_0 : S16513x128.Slices ![0, 0] S1x128
  slices_S16512x128_S128x128_0_0 : S16512x128.Slices ![0, 0] S128x128
  slices_S16512x128_S16384x128_128_0 : S16512x128.Slices ![128, 0] S16384x128
  slices_S16641x128_S16640x128_1_0 : S16641x128.Slices ![1, 0] S16640x128
  slices_S16641x128_S1x128_0_0 : S16641x128.Slices ![0, 0] S1x128
  slices_S16640x128_S128x128_0_0 : S16640x128.Slices ![0, 0] S128x128
  slices_S16640x128_S128x128_128_0 : S16640x128.Slices ![128, 0] S128x128
  slices_S16640x128_S16384x128_256_0 : S16640x128.Slices ![256, 0] S16384x128
  slices_S769x1_S768x1_1_0 : S769x1.Slices ![1, 0] S768x1
  slices_S769x1_S1x1_0_0 : S769x1.Slices ![0, 0] S1x1
  shapeCasts_S1x1_S1 : S1x1.ShapeCasts S1
  bcast_S_S1 : S_.BroadcastsInDim S1 (![] : Fin 0 → Fin S1.rank)
  shapeCasts_S1_S1x1 : S1.ShapeCasts S1x1
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  shapeCasts_S128x128_S128x128x1 : S128x128.ShapeCasts S128x128x1
  shapeCasts_S128x128_S128x1x128 : S128x128.ShapeCasts S128x1x128
  broadcasts_S128x128x1_S128x128x128 : S128x128x1.Broadcasts S128x128x128
  broadcasts_S128x1x128_S128x128x128 : S128x1x128.Broadcasts S128x128x128
  shapeCasts_S128x128x128_S128x16384 : S128x128x128.ShapeCasts S128x16384
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  concatenates_S128x128_S128x128_S128x128_S128x128_S128x128_S128x128_S128x768_d1 : Shape.Concatenates [S128x128, S128x128, S128x128, S128x128, S128x128, S128x128] S128x768 1
  inb_S768x1_S768x1_0_0 : ∀ a, (![0, 0] : Fin 2 → Nat) a + S768x1.size a ≤ S768x1.size a
  h_S768x1 : 0 < S768x1.numel
  shapeCasts_S768x1_S768x1 : S768x1.ShapeCasts S768x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  dot_S128x64_S64x128_S128x128_1_0_0_1_n_n_wf : DotDims.WF S128x64 S64x128 S128x128 [1] [0] [0] [1] [] []
  dot_S128x128_S128x128_S128x128_1_0_0_1_n_n_wf : DotDims.WF S128x128 S128x128 S128x128 [1] [0] [0] [1] [] []
  dot_S128x16384_S16384x128_S128x128_1_0_0_1_n_n_wf : DotDims.WF S128x16384 S16384x128 S128x128 [1] [0] [0] [1] [] []
  dot_S128x768_S768x1_S128x1_1_0_0_1_n_n_wf : DotDims.WF S128x768 S768x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S8192x64.size a
  hwx0_0 : ∀ i : grid0.Coords, EltTy.bits .f32 = 32 ∨ (Rect.block (s := S8192x64) S128x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .bf16 = 32 ∨ (Rect.block (s := S64x128) S64x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16384x128.size a ≤ S16384x128.size a
  hwx0_6 : ∀ i : grid0.Coords, EltTy.bits .bf16 = 32 ∨ (Rect.block (s := S16384x128) S16384x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16384x128.size a ≤ S16384x128.size a
  hwx0_9 : ∀ i : grid0.Coords, EltTy.bits .bf16 = 32 ∨ (Rect.block (s := S16384x128) S16384x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .bf16 = 32 ∨ (Rect.block (s := S128x128) S128x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .bf16 = 32 ∨ (Rect.block (s := S128x128) S128x128.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S16384x128.size a ≤ S16384x128.size a
  hwx0_13 : ∀ i : grid0.Coords, EltTy.bits .bf16 = 32 ∨ (Rect.block (s := S16384x128) S16384x128.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x128.size a ≤ S128x128.size a
  hwx0_15 : ∀ i : grid0.Coords, EltTy.bits .bf16 = 32 ∨ (Rect.block (s := S128x128) S128x128.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128x128.size a ≤ S128x128.size a
  hwx0_16 : ∀ i : grid0.Coords, EltTy.bits .bf16 = 32 ∨ (Rect.block (s := S128x128) S128x128.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S16384x128.size a ≤ S16384x128.size a
  hwx0_17 : ∀ i : grid0.Coords, EltTy.bits .bf16 = 32 ∨ (Rect.block (s := S16384x128) S16384x128.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x128.size a ≤ S1x128.size a
  hwx0_18 : ∀ i : grid0.Coords, EltTy.bits .f32 = 32 ∨ (Rect.block (s := S1x128) S1x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S768x1.size a ≤ S768x1.size a
  hwx0_19 : ∀ i : grid0.Coords, EltTy.bits .bf16 = 32 ∨ (Rect.block (s := S768x1) S768x1.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x1.size a ≤ S1x1.size a
  hwx0_20 : ∀ i : grid0.Coords, EltTy.bits .f32 = 32 ∨ (Rect.block (s := S1x1) S1x1.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S128x1.size a ≤ S8192x1.size a
  hwx0_21 : ∀ i : grid0.Coords, EltTy.bits .f32 = 32 ∨ (Rect.block (s := S8192x1) S128x1.size (cc0_transform_21 i) (hinb0_21 i)).WholeWords (EltTy.packing .f32)

variable [Facts₀]

def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x16384_S16384x128_S128x128_1_0_0_1_n_n : DotDims S128x16384 S16384x128 S128x128 where
  lhsContracting := [1]
  rhsContracting := [0]
  lhsNonContracting := [0]
  rhsNonContracting := [1]
  lhsBatch := []
  rhsBatch := []
  wf := dot_S128x16384_S16384x128_S128x128_1_0_0_1_n_n_wf
def dot_S128x768_S768x1_S128x1_1_0_0_1_n_n : DotDims S128x768 S768x1 S128x1 where
  lhsContracting := [1]
  rhsContracting := [0]
  lhsNonContracting := [0]
  rhsNonContracting := [1]
  lhsBatch := []
  rhsBatch := []
  wf := dot_S128x768_S768x1_S128x1_1_0_0_1_n_n_wf

abbrev win0_0 : Pipeline.Window sig grid0 :=
  Pipeline.Window.ofSpec (Memref.whole main_arg0) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v59) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v60) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v61) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v62) S16384x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v63) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v64) S16384x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v27) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v65) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v66) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v67) S16384x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v39) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v68) S128x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v69) S128x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v70) S16384x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v45) S1x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v71) S768x1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v58) S1x1.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v72) S128x1.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S65x128 : Shape := ⟨2, ![65, 128]⟩
abbrev S128 : Shape := ⟨1, ![128]⟩
abbrev S16513x128 : Shape := ⟨2, ![16513, 128]⟩
abbrev S16641x128 : Shape := ⟨2, ![16641, 128]⟩
abbrev S769x1 : Shape := ⟨2, ![769, 1]⟩
abbrev S1 : Shape := ⟨1, ![1]⟩
abbrev S8192x1 : Shape := ⟨2, ![8192, 1]⟩
abbrev S8192x65 : Shape := ⟨2, ![8192, 65]⟩
abbrev S8192x128 : Shape := ⟨2, ![8192, 128]⟩
abbrev S1x128 : Shape := ⟨2, ![1, 128]⟩
abbrev S8192x129 : Shape := ⟨2, ![8192, 129]⟩
abbrev S8192x128x1 : Shape := ⟨3, ![8192, 128, 1]⟩
abbrev S8192x1x128 : Shape := ⟨3, ![8192, 1, 128]⟩
abbrev S8192x128x128 : Shape := ⟨3, ![8192, 128, 128]⟩
abbrev S8192x16384 : Shape := ⟨2, ![8192, 16384]⟩
abbrev S8192x16513 : Shape := ⟨2, ![8192, 16513]⟩
abbrev S8192x257 : Shape := ⟨2, ![8192, 257]⟩
abbrev S8192x256 : Shape := ⟨2, ![8192, 256]⟩
abbrev S8192x16641 : Shape := ⟨2, ![8192, 16641]⟩
abbrev S8192x385 : Shape := ⟨2, ![8192, 385]⟩
abbrev S8192x384 : Shape := ⟨2, ![8192, 384]⟩
abbrev S8192x769 : Shape := ⟨2, ![8192, 769]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S_, .f32⟩
  | .hbm, ⟨2, _⟩ => ⟨S65x128, .f32⟩
  | .hbm, ⟨3, _⟩ => ⟨S128, .f32⟩
  | .hbm, ⟨4, _⟩ => ⟨S65x128, .f32⟩
  | .hbm, ⟨5, _⟩ => ⟨S128, .f32⟩
  | .hbm, ⟨6, _⟩ => ⟨S16513x128, .f32⟩
  | .hbm, ⟨7, _⟩ => ⟨S128, .f32⟩
  | .hbm, ⟨8, _⟩ => ⟨S16513x128, .f32⟩
  | .hbm, ⟨9, _⟩ => ⟨S128, .f32⟩
  | .hbm, ⟨10, _⟩ => ⟨S16641x128, .f32⟩
  | .hbm, ⟨11, _⟩ => ⟨S128, .f32⟩
  | .hbm, ⟨12, _⟩ => ⟨S16641x128, .f32⟩
  | .hbm, ⟨13, _⟩ => ⟨S128, .f32⟩
  | .hbm, ⟨14, _⟩ => ⟨S769x1, .f32⟩
  | .hbm, ⟨15, _⟩ => ⟨S1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x65, .f32⟩
  | .hbm, ⟨21, _⟩ => ⟨S8192x128, .f32⟩
  | .hbm, ⟨22, _⟩ => ⟨S1x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S1x128, .f32⟩
  | .hbm, ⟨27, _⟩ => ⟨S8192x128, .f32⟩
  | .hbm, ⟨28, _⟩ => ⟨S8192x128, .f32⟩
  | .hbm, ⟨29, _⟩ => ⟨S8192x129, .f32⟩
  | .hbm, ⟨30, _⟩ => ⟨S8192x128x1, .f32⟩
  | .hbm, ⟨31, _⟩ => ⟨S8192x1x128, .f32⟩
  | .hbm, ⟨32, _⟩ => ⟨S8192x128x128, .f32⟩
  | .hbm, ⟨33, _⟩ => ⟨S8192x128x128, .f32⟩
  | .hbm, ⟨34, _⟩ => ⟨S8192x128x128, .f32⟩
  | .hbm, ⟨35, _⟩ => ⟨S8192x16384, .f32⟩
  | .hbm, ⟨36, _⟩ => ⟨S8192x16513, .f32⟩
  | .hbm, ⟨37, _⟩ => ⟨S8192x128, .f32⟩
  | .hbm, ⟨38, _⟩ => ⟨S1x128, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S1x128, .f32⟩
  | .hbm, ⟨43, _⟩ => ⟨S8192x128, .f32⟩
  | .hbm, ⟨44, _⟩ => ⟨S8192x128, .f32⟩
  | .hbm, ⟨45, _⟩ => ⟨S8192x257, .f32⟩
  | .hbm, ⟨46, _⟩ => ⟨S8192x256, .f32⟩
  | .hbm, ⟨47, _⟩ => ⟨S8192x128x1, .f32⟩
  | .hbm, ⟨48, _⟩ => ⟨S8192x1x128, .f32⟩
  | .hbm, ⟨49, _⟩ => ⟨S8192x128x128, .f32⟩
  | .hbm, ⟨50, _⟩ => ⟨S8192x128x128, .f32⟩
  | .hbm, ⟨51, _⟩ => ⟨S8192x128x128, .f32⟩
  | .hbm, ⟨52, _⟩ => ⟨S8192x16384, .f32⟩
  | .hbm, ⟨53, _⟩ => ⟨S8192x16641, .f32⟩
  | .hbm, ⟨54, _⟩ => ⟨S8192x128, .f32⟩
  | .hbm, ⟨55, _⟩ => ⟨S1x128, .f32⟩
  | .hbm, ⟨56, _⟩ => ⟨S8192x128, .f32⟩
  | .hbm, ⟨57, _⟩ => ⟨S8192x128, .f32⟩
  | .hbm, ⟨58, _⟩ => ⟨S8192x128, .f32⟩
  | .hbm, ⟨59, _⟩ => ⟨S1x128, .f32⟩
  | .hbm, ⟨60, _⟩ => ⟨S8192x128, .f32⟩
  | .hbm, ⟨61, _⟩ => ⟨S8192x128, .f32⟩
  | .hbm, ⟨62, _⟩ => ⟨S8192x385, .f32⟩
  | .hbm, ⟨63, _⟩ => ⟨S8192x384, .f32⟩
  | .hbm, ⟨64, _⟩ => ⟨S8192x769, .f32⟩
  | .hbm, ⟨65, _⟩ => ⟨S8192x1, .f32⟩
  | .hbm, ⟨66, _⟩ => ⟨S1x1, .f32⟩
  | .hbm, ⟨67, _⟩ => ⟨S8192x1, .f32⟩
  | .hbm, ⟨68, _⟩ => ⟨S8192x1, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]

class Facts₀ : Prop where
  bcast_S_S8192x1 : S_.BroadcastsInDim S8192x1 (![] : Fin 0 → Fin S8192x1.rank)
  concatenates_S8192x1_S8192x64_S8192x65_d1 : Shape.Concatenates [S8192x1, S8192x64] S8192x65 1
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  concatenates_S8192x1_S8192x128_S8192x129_d1 : Shape.Concatenates [S8192x1, S8192x128] S8192x129 1
  bcast_S8192x128_S8192x128x1_0_1 : S8192x128.BroadcastsInDim S8192x128x1 (![0, 1] : Fin 2 → Fin S8192x128x1.rank)
  bcast_S8192x128_S8192x1x128_0_2 : S8192x128.BroadcastsInDim S8192x1x128 (![0, 2] : Fin 2 → Fin S8192x1x128.rank)
  bcast_S8192x128x1_S8192x128x128_0_1_2 : S8192x128x1.BroadcastsInDim S8192x128x128 (![0, 1, 2] : Fin 3 → Fin S8192x128x128.rank)
  bcast_S8192x1x128_S8192x128x128_0_1_2 : S8192x1x128.BroadcastsInDim S8192x128x128 (![0, 1, 2] : Fin 3 → Fin S8192x128x128.rank)
  shapeCasts_S8192x128x128_S8192x16384 : S8192x128x128.ShapeCasts S8192x16384
  concatenates_S8192x129_S8192x16384_S8192x16513_d1 : Shape.Concatenates [S8192x129, S8192x16384] S8192x16513 1
  concatenates_S8192x129_S8192x128_S8192x257_d1 : Shape.Concatenates [S8192x129, S8192x128] S8192x257 1
  concatenates_S8192x128_S8192x128_S8192x256_d1 : Shape.Concatenates [S8192x128, S8192x128] S8192x256 1
  concatenates_S8192x257_S8192x16384_S8192x16641_d1 : Shape.Concatenates [S8192x257, S8192x16384] S8192x16641 1
  concatenates_S8192x257_S8192x128_S8192x385_d1 : Shape.Concatenates [S8192x257, S8192x128] S8192x385 1
  concatenates_S8192x256_S8192x128_S8192x384_d1 : Shape.Concatenates [S8192x256, S8192x128] S8192x384 1
  concatenates_S8192x385_S8192x384_S8192x769_d1 : Shape.Concatenates [S8192x385, S8192x384] S8192x769 1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  dot_S8192x65_S65x128_S8192x128_1_0_0_1_n_n_wf : DotDims.WF S8192x65 S65x128 S8192x128 [1] [0] [0] [1] [] []
  dot_S8192x16513_S16513x128_S8192x128_1_0_0_1_n_n_wf : DotDims.WF S8192x16513 S16513x128 S8192x128 [1] [0] [0] [1] [] []
  dot_S8192x16641_S16641x128_S8192x128_1_0_0_1_n_n_wf : DotDims.WF S8192x16641 S16641x128 S8192x128 [1] [0] [0] [1] [] []
  dot_S8192x769_S769x1_S8192x1_1_0_0_1_n_n_wf : DotDims.WF S8192x769 S769x1 S8192x1 [1] [0] [0] [1] [] []

variable [Facts₀]

def dot_S8192x65_S65x128_S8192x128_1_0_0_1_n_n : DotDims S8192x65 S65x128 S8192x128 where
  lhsContracting := [1]
  rhsContracting := [0]
  lhsNonContracting := [0]
  rhsNonContracting := [1]
  lhsBatch := []
  rhsBatch := []
  wf := dot_S8192x65_S65x128_S8192x128_1_0_0_1_n_n_wf
def dot_S8192x16513_S16513x128_S8192x128_1_0_0_1_n_n : DotDims S8192x16513 S16513x128 S8192x128 where
  lhsContracting := [1]
  rhsContracting := [0]
  lhsNonContracting := [0]
  rhsNonContracting := [1]
  lhsBatch := []
  rhsBatch := []
  wf := dot_S8192x16513_S16513x128_S8192x128_1_0_0_1_n_n_wf
def dot_S8192x16641_S16641x128_S8192x128_1_0_0_1_n_n : DotDims S8192x16641 S16641x128 S8192x128 where
  lhsContracting := [1]
  rhsContracting := [0]
  lhsNonContracting := [0]
  rhsNonContracting := [1]
  lhsBatch := []
  rhsBatch := []
  wf := dot_S8192x16641_S16641x128_S8192x128_1_0_0_1_n_n_wf
def dot_S8192x769_S769x1_S8192x1_1_0_0_1_n_n : DotDims S8192x769 S769x1 S8192x1 where
  lhsContracting := [1]
  rhsContracting := [0]
  lhsNonContracting := [0]
  rhsNonContracting := [1]
  lhsBatch := []
  rhsBatch := []
  wf := dot_S8192x769_S769x1_S8192x1_1_0_0_1_n_n_wf

class Facts : Prop extends Facts₀ where

variable [Facts]
-- ==== Proof.Spec.lean ====
/-
  The polynomial network both programs compute, written once for one batch row.

  A row `x` of 64 extended reals goes through three layers, each with a nonvanishing branch `f` and a vanishing
  branch `g` over its own weights:
    f₁ = x·A₁ + c₁,
    f₂ = f₁·A₂ + (f₁ ⊗ f₁)·B₂ + c₂,
    f₃ = f₁·A₃ + f₂·A₃' + (f₁ ⊗ f₂)·B₃ + c₃,
  `g` likewise (its outer products are those of the `f` branch), and the result is the six feature vectors
  against one weight column plus a constant: `[f₁ f₂ f₃ g₁ g₂ g₃]·w + c`. Here `u ⊗ v` is the outer product
  flattened row-major to 16384 entries, entry `q` being `u (q / 128) * v (q % 128)`.

  The operands `A`, `B`, `c` are what remains of the network's weight matrices once the constant first input
  coordinate `bias0` is folded away: each weight matrix `W` (its first row the weights of that constant coordinate)
  gives the blocks of its remaining rows (`rowsFrom`) and the constant `b + bias0 · W₀` (`foldBias`).
  Only associativity and commutativity of `+` on the extended reals and `1 * a = a` are ever used: sums are grouped
  as written here, and nothing is distributed.
-/
import Idealize.ShloMosaic.Lib.ValueIdx
import Mathlib.Algebra.BigOperators.Fin

noncomputable section

namespace Cert.PolyNet

open Idealize.ShloMosaic Idealize.ShloMosaic.ValueIdx

/-- A matrix, a vector and a scalar of extended reals, indexed as arrays of literal shapes are. -/
abbrev Mat (a b : ℕ) : Type := (⟨2, ![a, b]⟩ : Shape).Idx → EReal
abbrev Row (a : ℕ) : Type := (⟨1, ![a]⟩ : Shape).Idx → EReal
abbrev Scal : Type := (⟨0, ![]⟩ : Shape).Idx → EReal

/-! ## One output coordinate of a layer: one, two or three dot products and a constant, grouped left to right -/

def aff1 {n : ℕ} (v w : Fin n → EReal) (c : EReal) : EReal := (∑ k, v k * w k) + c

def aff2 {n₁ n₂ : ℕ} (v₁ w₁ : Fin n₁ → EReal) (v₂ w₂ : Fin n₂ → EReal) (c : EReal) : EReal :=
  ((∑ k, v₁ k * w₁ k) + ∑ k, v₂ k * w₂ k) + c

def aff3 {n₁ n₂ n₃ : ℕ} (v₁ w₁ : Fin n₁ → EReal) (v₂ w₂ : Fin n₂ → EReal) (v₃ w₃ : Fin n₃ → EReal) (c : EReal) :
    EReal :=
  (((∑ k, v₁ k * w₁ k) + ∑ k, v₂ k * w₂ k) + ∑ k, v₃ k * w₃ k) + c

/-- The outer product of two 128-vectors, flattened row-major. -/
def outer (u v : Fin 128 → EReal) (q : Fin 16384) : EReal :=
  u ⟨q.val / 128, by have := q.isLt; omega⟩ * v ⟨q.val % 128, Nat.mod_lt _ (by norm_num)⟩

/-- Column `j` of a matrix, as a function of the row coordinate. -/
def col {a b : ℕ} (W : Mat a b) (j : Fin b) (k : Fin a) : EReal := W (ix2 k j)

/-- Six 128-vectors laid end to end against one 768-vector, plus a constant: one sum per vector, grouped left to right. -/
def proj6 (f₁ f₂ f₃ g₁ g₂ g₃ : Fin 128 → EReal) (w : Fin 768 → EReal) (c : EReal) : EReal :=
  ((((((∑ k : Fin 128, f₁ k * w ⟨k.val, by have := k.isLt; omega⟩)
    + ∑ k : Fin 128, f₂ k * w ⟨128 + k.val, by have := k.isLt; omega⟩)
    + ∑ k : Fin 128, f₃ k * w ⟨256 + k.val, by have := k.isLt; omega⟩)
    + ∑ k : Fin 128, g₁ k * w ⟨384 + k.val, by have := k.isLt; omega⟩)
    + ∑ k : Fin 128, g₂ k * w ⟨512 + k.val, by have := k.isLt; omega⟩)
    + ∑ k : Fin 128, g₃ k * w ⟨640 + k.val, by have := k.isLt; omega⟩) + c

/-! ## The network on one row, from the operands as the layers use them -/

/-- The result for the row `x`: the operands in the order
    `A₁ A₁' c₁ c₁' | A₂ B₂ c₂ | A₂' B₂' c₂' | A₃ A₃₂ B₃ c₃ | A₃' A₃₂' B₃' c₃' | w c` (primes: the `g` branch). -/
def rowNet (x : Fin 64 → EReal)
    (A₁ A₁' : Mat 64 128) (c₁ c₁' : Mat 1 128)
    (A₂ : Mat 128 128) (B₂ : Mat 16384 128) (c₂ : Mat 1 128)
    (A₂' : Mat 128 128) (B₂' : Mat 16384 128) (c₂' : Mat 1 128)
    (A₃ A₃₂ : Mat 128 128) (B₃ : Mat 16384 128) (c₃ : Mat 1 128)
    (A₃' A₃₂' : Mat 128 128) (B₃' : Mat 16384 128) (c₃' : Mat 1 128)
    (w : Mat 768 1) (c : Mat 1 1) : EReal :=
  let f₁ : Fin 128 → EReal := fun j => aff1 x (col A₁ j) (c₁ (ix2 0 j))
  let g₁ : Fin 128 → EReal := fun j => aff1 x (col A₁' j) (c₁' (ix2 0 j))
  let f₂ : Fin 128 → EReal := fun j => aff2 f₁ (col A₂ j) (outer f₁ f₁) (col B₂ j) (c₂ (ix2 0 j))
  let g₂ : Fin 128 → EReal := fun j => aff2 f₁ (col A₂' j) (outer f₁ f₁) (col B₂' j) (c₂' (ix2 0 j))
  let f₃ : Fin 128 → EReal := fun j => aff3 f₁ (col A₃ j) f₂ (col A₃₂ j) (outer f₁ f₂) (col B₃ j) (c₃ (ix2 0 j))
  let g₃ : Fin 128 → EReal := fun j => aff3 f₁ (col A₃' j) f₂ (col A₃₂' j) (outer f₁ f₂) (col B₃' j) (c₃' (ix2 0 j))
  proj6 f₁ f₂ f₃ g₁ g₂ g₃ (col w 0) (c (ix2 0 0))

/-! ## The operands, from the network's weights -/

/-- Rows `a, …, a + l - 1` of a matrix. -/
def rowsFrom {n m : ℕ} (a l : ℕ) (h : a + l ≤ n) (W : Mat n m) : Mat l m := fun y =>
  W (ix2 ⟨a + (y 0).val, by have h0 : (y 0).val < l := (y 0).isLt; omega⟩ (y 1))

/-- The bias with the constant input coordinate's contribution folded in: `b j + bias0 * W 0 j`, as a one-row matrix. -/
def foldBias {n m : ℕ} (hn : 0 < n) (b₀ : Scal) (W : Mat n m) (b : Row m) : Mat 1 m := fun y =>
  b (ix1 (y 1)) + b₀ ix0 * W (ix2 ⟨0, hn⟩ (y 1))

/-- The network's result array, from the arguments in the programs' order. -/
def net (X : Mat 8192 64) (b₀ : Scal) (Wf₁ : Mat 65 128) (bf₁ : Row 128) (Wg₁ : Mat 65 128) (bg₁ : Row 128)
    (Wf₂ : Mat 16513 128) (bf₂ : Row 128) (Wg₂ : Mat 16513 128) (bg₂ : Row 128)
    (Wf₃ : Mat 16641 128) (bf₃ : Row 128) (Wg₃ : Mat 16641 128) (bg₃ : Row 128)
    (Wfc : Mat 769 1) (bfc : Row 1) : Mat 8192 1 := fun i =>
  rowNet (fun k => X (ix2 (i 0) k))
    (rowsFrom 1 64 (by norm_num) Wf₁) (rowsFrom 1 64 (by norm_num) Wg₁)
    (foldBias (by norm_num) b₀ Wf₁ bf₁) (foldBias (by norm_num) b₀ Wg₁ bg₁)
    (rowsFrom 1 128 (by norm_num) Wf₂) (rowsFrom 129 16384 (by norm_num) Wf₂) (foldBias (by norm_num) b₀ Wf₂ bf₂)
    (rowsFrom 1 128 (by norm_num) Wg₂) (rowsFrom 129 16384 (by norm_num) Wg₂) (foldBias (by norm_num) b₀ Wg₂ bg₂)
    (rowsFrom 1 128 (by norm_num) Wf₃) (rowsFrom 129 128 (by norm_num) Wf₃) (rowsFrom 257 16384 (by norm_num) Wf₃)
    (foldBias (by norm_num) b₀ Wf₃ bf₃)
    (rowsFrom 1 128 (by norm_num) Wg₃) (rowsFrom 129 128 (by norm_num) Wg₃) (rowsFrom 257 16384 (by norm_num) Wg₃)
    (foldBias (by norm_num) b₀ Wg₃ bg₃)
    (rowsFrom 1 768 (by norm_num) Wfc) (foldBias (by norm_num) b₀ Wfc bfc)

/-! ## Sums over a vector laid out as two pieces -/

/-- A sum over `n = a + b` coordinates is the sum over the first `a` plus the sum over the last `b`. -/
theorem sum_split {n : ℕ} (a b : ℕ) (h : a + b = n) (f : Fin n → EReal) :
    ∑ k : Fin n, f k = (∑ k : Fin a, f ⟨k.val, by have := k.isLt; omega⟩)
      + ∑ k : Fin b, f ⟨a + k.val, by have := k.isLt; omega⟩ := by
  subst h
  rw [Fin.sum_univ_add]
  rfl

/-- The dot product of a vector that is two pieces end to end: the two pieces' dot products with the matching
    stretches of the other vector. -/
theorem dot_concat {n : ℕ} (a b : ℕ) (h : a + b = n) (v w : Fin n → EReal) (A wa : Fin a → EReal) (B wb : Fin b → EReal)
    (hA : ∀ (k : Fin a) (hk : k.val < n), v ⟨k.val, hk⟩ = A k)
    (hB : ∀ (k : Fin b) (hk : a + k.val < n), v ⟨a + k.val, hk⟩ = B k)
    (hwa : ∀ (k : Fin a) (hk : k.val < n), w ⟨k.val, hk⟩ = wa k)
    (hwb : ∀ (k : Fin b) (hk : a + k.val < n), w ⟨a + k.val, hk⟩ = wb k) :
    ∑ k : Fin n, v k * w k = (∑ k : Fin a, A k * wa k) + ∑ k : Fin b, B k * wb k := by
  rw [sum_split a b h]
  congr 1
  · exact Finset.sum_congr rfl fun k _ => by rw [hA, hwa]
  · exact Finset.sum_congr rfl fun k _ => by rw [hB, hwb]

end Cert.PolyNet

end
-- ==== Proof.LibRowOps.lean ====
/-
  Row-wise readings of the operations a row-parallel kernel body is made of, at an index written with the
  coordinate constructors: a plain `M × K` by `K × N` matrix product into a zero accumulator read at `(p, q)` is the
  sum over `k` of the left operand's row `p` times the right operand's column `q`; a sum (a maximum) along the
  second axis of an `[a, b]` array read at row `p` is the sum (the fold of `max`) of that row's entries.
-/
import Idealize.ShloMosaic.Lib.ValueIdx
import Idealize.ShloMosaic.PureOps.Ideal.Laws

namespace Cert.LibRowOps

open Idealize.ShloMosaic Idealize.ShloMosaic.ValueIdx

/-! ## A plain matrix product -/

section Plain
variable (M K N : ℕ)

theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_contr (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_contr (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an `[M, K]` by a `[K, N]` array accumulated into zero, at `(p, q)`: the sum over the contracted
    coordinate of row `p` of the left factor times column `q` of the right one. -/
theorem matmul_plain_zero_apply {φ₁ φ₂ : FTy} (l : FVec Ideal ⟨2, ![M, K]⟩ φ₁) (r : FVec Ideal ⟨2, ![K, N]⟩ φ₂)
    (p : Fin M) (q : Fin N) :
    FloatOps.matmul (DotDims.plain M K N) none l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row M K N _ _
      | ⟨1, _⟩ => exact (plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_contr M K N _ _).trans hk
      | ⟨1, _⟩ => exact plain_rhs_col M K N _ _)
  rw [el, er]

end Plain

/-! ## Reductions along the rows of a matrix -/

section Rows
variable {a b : ℕ} {φ : FTy}

/-- Over row `p` of the reduced vector, the source index with coordinate `k` put back on the dropped axis is `(p, k)`. -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A sum along the second axis, at row `p`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A maximum along the second axis, at row `p`: the fold of `max`, from the accumulator's value, over the row's entries. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (Finset.fold max (Ideal.ofBits φ acc) · Finset.univ) (funext fun k => congrArg src (lift_row h p k)))

end Rows

end Cert.LibRowOps
-- ==== Proof.KernelBody.lean ====
/-
  The kernel's body, read one row at a time: row `p` of the block it stores is the network of Proof/Spec.lean on row `p`
  of its first operand's block, with the other twenty operands' blocks as the layers' weights and constants.
-/
import proofs.«133583_j90297392431134_1_alg».proof.Proof.Gen.KernelIdeal.Frame
import proofs.«133583_j90297392431134_1_alg».proof.Proof.Spec
import proofs.«133583_j90297392431134_1_alg».proof.Proof.LibRowOps
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx

/-! ## The operations the body is made of, read at one index -/

private theorem hz : (![0, 0] : Fin 2 → Nat) = fun _ => 0 :=
  funext fun a => by match a with | ⟨0, _⟩ => rfl | ⟨1, _⟩ => rfl

/-- The four matrix products into a zero accumulator, at `(p, j)`: row `p` of the left factor against column `j` of
    the right one. -/
private theorem mm64 (l : FVec Ideal S128x64 .bf16) (r : FVec Ideal S64x128 .bf16) (p j : Fin 128) :
    matmul dot_S128x64_S64x128_S128x128_1_0_0_1_n_n none l r (constant (F := Ideal) S128x128 .f32 0x00000000#32) (ix2 p j)
      = ∑ k : Fin 64, l (ix2 p k) * r (ix2 k j) :=
  Cert.LibRowOps.matmul_plain_zero_apply 128 64 128 l r p j

private theorem mm128 (l : FVec Ideal S128x128 .bf16) (r : FVec Ideal S128x128 .bf16) (p j : Fin 128) :
    matmul dot_S128x128_S128x128_S128x128_1_0_0_1_n_n none l r (constant (F := Ideal) S128x128 .f32 0x00000000#32) (ix2 p j)
      = ∑ k : Fin 128, l (ix2 p k) * r (ix2 k j) :=
  Cert.LibRowOps.matmul_plain_zero_apply 128 128 128 l r p j

private theorem mm16384 (l : FVec Ideal S128x16384 .bf16) (r : FVec Ideal S16384x128 .bf16) (p j : Fin 128) :
    matmul dot_S128x16384_S16384x128_S128x128_1_0_0_1_n_n none l r (constant (F := Ideal) S128x128 .f32 0x00000000#32) (ix2 p j)
      = ∑ k : Fin 16384, l (ix2 p k) * r (ix2 k j) :=
  Cert.LibRowOps.matmul_plain_zero_apply 128 16384 128 l r p j

private theorem mm768 (l : FVec Ideal S128x768 .bf16) (r : FVec Ideal S768x1 .bf16) (p : Fin 128) (j : Fin 1) :
    matmul dot_S128x768_S768x1_S128x1_1_0_0_1_n_n none l r (constant (F := Ideal) S128x1 .f32 0x00000000#32) (ix2 p j)
      = ∑ k : Fin 768, l (ix2 p k) * r (ix2 k j) :=
  Cert.LibRowOps.matmul_plain_zero_apply 128 768 1 l r p j

/-- A one-row array spread over 128 rows reads its one row. -/
private theorem bc128 (v : FVec Ideal S1x128 .f32) (p j : Fin 128) :
    broadcastTo S128x128 v broadcasts_S1x128_S128x128 (ix2 p j) = v (ix2 0 j) := by
  refine broadcastTo_apply v _ (ix2 p j) (ix2 0 j) ?_
  intro a
  match a with
  | ⟨0, _⟩ => rfl
  | ⟨1, _⟩ => rfl

/-- A one-entry array spread over 128 rows reads its one entry. -/
private theorem bc1 (v : FVec Ideal S1x1 .f32) (p : Fin 128) (j : Fin 1) :
    broadcastTo S128x1 v broadcasts_S1x1_S128x1 (ix2 p j) = v (ix2 0 0) := by
  refine broadcastTo_apply v _ (ix2 p j) (ix2 0 0) ?_
  intro a
  match a with
  | ⟨0, _⟩ => rfl
  | ⟨1, _⟩ => rfl

/-! ## The first layer -/

private theorem pay3_apply (v0 : Vec Ideal S128x64 .f32) (v2 : Vec Ideal S64x128 .bf16) (v5 : Vec Ideal S1x128 .f32) (p j : Fin 128) :
    k0_pay3 (F := Ideal) v0 v2 v5 (ix2 p j)
      = PolyNet.aff1 (fun k => v0 (ix2 p k)) (PolyNet.col v2 j) (v5 (ix2 0 j)) := by
  unfold k0_pay3 k0_pay2
  rw [shapeCast_self, shapeCast_self, addf_apply, mm64, bc128]
  rfl

private theorem pay4_apply (v0 : Vec Ideal S128x64 .f32) (v2 : Vec Ideal S64x128 .bf16) (v5 : Vec Ideal S1x128 .f32) (p j : Fin 128) :
    k0_pay4 (F := Ideal) v0 v2 v5 (ix2 p j)
      = PolyNet.aff1 (fun k => v0 (ix2 p k)) (PolyNet.col v2 j) (v5 (ix2 0 j)) :=
  pay3_apply v0 v2 v5 p j

private theorem pay5_apply (v0 : Vec Ideal S128x64 .f32) (v9 : Vec Ideal S64x128 .bf16) (v12 : Vec Ideal S1x128 .f32) (p j : Fin 128) :
    k0_pay5 (F := Ideal) v0 v9 v12 (ix2 p j)
      = PolyNet.aff1 (fun k => v0 (ix2 p k)) (PolyNet.col v9 j) (v12 (ix2 0 j)) := by
  unfold k0_pay5 k0_pay2
  rw [shapeCast_self, shapeCast_self, truncf_apply, addf_apply, mm64, bc128]
  rfl

/-! ## The flattened outer product -/

private theorem pay10_apply (u v : FVec Ideal S128x128 .f32) (p : Fin 128) (q : Fin 16384) :
    k0_pay10 (F := Ideal) u v (ix2 p q) = PolyNet.outer (fun k => u (ix2 p k)) (fun k => v (ix2 p k)) q := by
  have ha : q.val / 128 < 128 := by have := q.isLt; omega
  have hb : q.val % 128 < 128 := Nat.mod_lt _ (by norm_num)
  unfold k0_pay10
  rw [truncf_apply]
  refine (shapeCast_apply _ _ (ix2 p q) (ix3 p ⟨q.val / 128, ha⟩ ⟨q.val % 128, hb⟩) ?_).trans ?_
  · rw [Shape.rowMajor_val_three, Shape.rowMajor_val_two]
    show (p.val * 128 + q.val / 128) * 128 + q.val % 128 = p.val * 16384 + q.val
    omega
  rw [mulf_apply]
  unfold PolyNet.outer
  refine congrArg₂ (· * ·) ?_ ?_
  · refine (broadcastTo_apply _ _ _ (ix3 p ⟨q.val / 128, ha⟩ 0) ?_).trans ?_
    · intro a
      match a with
      | ⟨0, _⟩ => rfl
      | ⟨1, _⟩ => rfl
      | ⟨2, _⟩ => rfl
    refine shapeCast_apply u _ _ (ix2 p ⟨q.val / 128, ha⟩) ?_
    rw [Shape.rowMajor_val_three, Shape.rowMajor_val_two]
    show p.val * 128 + q.val / 128 = (p.val * 128 + q.val / 128) * 1 + 0
    omega
  · refine (broadcastTo_apply _ _ _ (ix3 p 0 ⟨q.val % 128, hb⟩) ?_).trans ?_
    · intro a
      match a with
      | ⟨0, _⟩ => rfl
      | ⟨1, _⟩ => rfl
      | ⟨2, _⟩ => rfl
    refine shapeCast_apply v _ _ (ix2 p ⟨q.val % 128, hb⟩) ?_
    rw [Shape.rowMajor_val_three, Shape.rowMajor_val_two]
    show p.val * 128 + q.val % 128 = (p.val * 1 + 0) * 128 + q.val % 128
    omega

private theorem pay6_apply (v0 : Vec Ideal S128x64 .f32) (v2 : Vec Ideal S64x128 .bf16) (v5 : Vec Ideal S1x128 .f32) (p : Fin 128) (q : Fin 16384) :
    k0_pay6 (F := Ideal) v0 v2 v5 (ix2 p q)
      = PolyNet.outer (fun k => k0_pay3 (F := Ideal) v0 v2 v5 (ix2 p k)) (fun k => k0_pay3 (F := Ideal) v0 v2 v5 (ix2 p k)) q :=
  pay10_apply (k0_pay3 (F := Ideal) v0 v2 v5) (k0_pay3 (F := Ideal) v0 v2 v5) p q

/-! ## The second layer -/

private theorem pay9_apply (v16 : FVec Ideal S128x128 .bf16) (v24 : FVec Ideal S128x16384 .bf16) (v36 : Vec Ideal S128x128 .bf16) (v39 : Vec Ideal S16384x128 .bf16) (v43 : Vec Ideal S1x128 .f32) (p j : Fin 128) :
    k0_pay9 (F := Ideal) v16 v24 v36 v39 v43 (ix2 p j)
      = PolyNet.aff2 (fun k => v16 (ix2 p k)) (PolyNet.col v36 j) (fun k => v24 (ix2 p k)) (PolyNet.col v39 j) (v43 (ix2 0 j)) := by
  unfold k0_pay9
  rw [shapeCast_self, shapeCast_self, shapeCast_self, truncf_apply, addf_apply, addf_apply, mm128, mm16384, bc128]
  rfl

private theorem pay7_apply (v0 : Vec Ideal S128x64 .f32) (v2 : Vec Ideal S64x128 .bf16) (v5 : Vec Ideal S1x128 .f32) (v25 : Vec Ideal S128x128 .bf16) (v28 : Vec Ideal S16384x128 .bf16) (v32 : Vec Ideal S1x128 .f32) (p j : Fin 128) :
    k0_pay7 (F := Ideal) v0 v2 v5 v25 v28 v32 (ix2 p j)
      = PolyNet.aff2 (fun k => k0_pay4 (F := Ideal) v0 v2 v5 (ix2 p k)) (PolyNet.col v25 j)
          (fun k => k0_pay6 (F := Ideal) v0 v2 v5 (ix2 p k)) (PolyNet.col v28 j) (v32 (ix2 0 j)) :=
  pay9_apply (k0_pay4 (F := Ideal) v0 v2 v5) (k0_pay6 (F := Ideal) v0 v2 v5) v25 v28 v32 p j

/-! ## The third layer -/

private theorem pay12_apply (v16 : FVec Ideal S128x128 .bf16) (v71 : Vec Ideal S128x128 .bf16) (p j : Fin 128) :
    k0_pay12 (F := Ideal) v16 v71 (ix2 p j) = ∑ k : Fin 128, v16 (ix2 p k) * PolyNet.col v71 j k := by
  unfold k0_pay12
  rw [shapeCast_self, mm128]
  rfl

private theorem pay11_apply (v8 : FVec Ideal S128x128 .f32) (v16 : FVec Ideal S128x128 .bf16) (v35 : FVec Ideal S128x128 .f32) (v56 : Vec Ideal S128x128 .bf16) (v59 : Vec Ideal S128x128 .bf16) (v63 : Vec Ideal S16384x128 .bf16) (v67 : Vec Ideal S1x128 .f32) (p j : Fin 128) :
    k0_pay11 (F := Ideal) v8 v16 v35 v56 v59 v63 v67 (ix2 p j)
      = PolyNet.aff3 (fun k => v16 (ix2 p k)) (PolyNet.col v56 j) (fun k => v35 (ix2 p k)) (PolyNet.col v59 j)
          (PolyNet.outer (fun k => v8 (ix2 p k)) (fun k => v35 (ix2 p k))) (PolyNet.col v63 j) (v67 (ix2 0 j)) := by
  unfold k0_pay11
  rw [shapeCast_self, shapeCast_self, shapeCast_self, shapeCast_self, addf_apply, addf_apply, addf_apply, mm128, mm128, mm16384, bc128]
  simp only [pay10_apply]
  rfl

/-! ## The six feature blocks laid side by side -/

private theorem cat0 (a b c d e f : FVec Ideal S128x128 .bf16) (p k : Fin 128) (hk : k.val < 768) :
    concatenate S128x768 1 [⟨S128x128, a⟩, ⟨S128x128, b⟩, ⟨S128x128, c⟩, ⟨S128x128, d⟩, ⟨S128x128, e⟩, ⟨S128x128, f⟩]
        concatenates_S128x128_S128x128_S128x128_S128x128_S128x128_S128x128_S128x768_d1 (ix2 p ⟨k.val, hk⟩)
      = a (ix2 p k) := by
  refine concatenate_apply_piece (t := S128x768) 1 _ _ _ 0 ?_ S128x128 a rfl rfl 0 rfl (ix2 p k) ?_ ?_
  · show (0 : ℕ) < 6
    decide
  · intro t ht
    match t with
    | ⟨0, _⟩ => rfl
    | ⟨1, _⟩ => exact absurd rfl ht
  · exact Nat.zero_add _

private theorem cat1 (a b c d e f : FVec Ideal S128x128 .bf16) (p k : Fin 128) (hk : 128 + k.val < 768) :
    concatenate S128x768 1 [⟨S128x128, a⟩, ⟨S128x128, b⟩, ⟨S128x128, c⟩, ⟨S128x128, d⟩, ⟨S128x128, e⟩, ⟨S128x128, f⟩]
        concatenates_S128x128_S128x128_S128x128_S128x128_S128x128_S128x128_S128x768_d1 (ix2 p ⟨128 + k.val, hk⟩)
      = b (ix2 p k) := by
  refine concatenate_apply_piece (t := S128x768) 1 _ _ _ 1 ?_ S128x128 b rfl rfl 128 rfl (ix2 p k) ?_ ?_
  · show (1 : ℕ) < 6
    decide
  · intro t ht
    match t with
    | ⟨0, _⟩ => rfl
    | ⟨1, _⟩ => exact absurd rfl ht
  · exact rfl

private theorem cat2 (a b c d e f : FVec Ideal S128x128 .bf16) (p k : Fin 128) (hk : 256 + k.val < 768) :
    concatenate S128x768 1 [⟨S128x128, a⟩, ⟨S128x128, b⟩, ⟨S128x128, c⟩, ⟨S128x128, d⟩, ⟨S128x128, e⟩, ⟨S128x128, f⟩]
        concatenates_S128x128_S128x128_S128x128_S128x128_S128x128_S128x128_S128x768_d1 (ix2 p ⟨256 + k.val, hk⟩)
      = c (ix2 p k) := by
  refine concatenate_apply_piece (t := S128x768) 1 _ _ _ 2 ?_ S128x128 c rfl rfl 256 rfl (ix2 p k) ?_ ?_
  · show (2 : ℕ) < 6
    decide
  · intro t ht
    match t with
    | ⟨0, _⟩ => rfl
    | ⟨1, _⟩ => exact absurd rfl ht
  · exact rfl

private theorem cat3 (a b c d e f : FVec Ideal S128x128 .bf16) (p k : Fin 128) (hk : 384 + k.val < 768) :
    concatenate S128x768 1 [⟨S128x128, a⟩, ⟨S128x128, b⟩, ⟨S128x128, c⟩, ⟨S128x128, d⟩, ⟨S128x128, e⟩, ⟨S128x128, f⟩]
        concatenates_S128x128_S128x128_S128x128_S128x128_S128x128_S128x128_S128x768_d1 (ix2 p ⟨384 + k.val, hk⟩)
      = d (ix2 p k) := by
  refine concatenate_apply_piece (t := S128x768) 1 _ _ _ 3 ?_ S128x128 d rfl rfl 384 rfl (ix2 p k) ?_ ?_
  · show (3 : ℕ) < 6
    decide
  · intro t ht
    match t with
    | ⟨0, _⟩ => rfl
    | ⟨1, _⟩ => exact absurd rfl ht
  · exact rfl

private theorem cat4 (a b c d e f : FVec Ideal S128x128 .bf16) (p k : Fin 128) (hk : 512 + k.val < 768) :
    concatenate S128x768 1 [⟨S128x128, a⟩, ⟨S128x128, b⟩, ⟨S128x128, c⟩, ⟨S128x128, d⟩, ⟨S128x128, e⟩, ⟨S128x128, f⟩]
        concatenates_S128x128_S128x128_S128x128_S128x128_S128x128_S128x128_S128x768_d1 (ix2 p ⟨512 + k.val, hk⟩)
      = e (ix2 p k) := by
  refine concatenate_apply_piece (t := S128x768) 1 _ _ _ 4 ?_ S128x128 e rfl rfl 512 rfl (ix2 p k) ?_ ?_
  · show (4 : ℕ) < 6
    decide
  · intro t ht
    match t with
    | ⟨0, _⟩ => rfl
    | ⟨1, _⟩ => exact absurd rfl ht
  · exact rfl

private theorem cat5 (a b c d e f : FVec Ideal S128x128 .bf16) (p k : Fin 128) (hk : 640 + k.val < 768) :
    concatenate S128x768 1 [⟨S128x128, a⟩, ⟨S128x128, b⟩, ⟨S128x128, c⟩, ⟨S128x128, d⟩, ⟨S128x128, e⟩, ⟨S128x128, f⟩]
        concatenates_S128x128_S128x128_S128x128_S128x128_S128x128_S128x128_S128x768_d1 (ix2 p ⟨640 + k.val, hk⟩)
      = f (ix2 p k) := by
  refine concatenate_apply_piece (t := S128x768) 1 _ _ _ 5 ?_ S128x128 f rfl rfl 640 rfl (ix2 p k) ?_ ?_
  · show (5 : ℕ) < 6
    decide
  · intro t ht
    match t with
    | ⟨0, _⟩ => rfl
    | ⟨1, _⟩ => exact absurd rfl ht
  · exact rfl

/-- A sum over 768 coordinates, as six sums over 128, grouped left to right. -/
private theorem sum6 (g : Fin 768 → EReal) :
    ∑ k : Fin 768, g k
      = (((((∑ k : Fin 128, g ⟨k.val, by have := k.isLt; omega⟩)
        + ∑ k : Fin 128, g ⟨128 + k.val, by have := k.isLt; omega⟩)
        + ∑ k : Fin 128, g ⟨256 + k.val, by have := k.isLt; omega⟩)
        + ∑ k : Fin 128, g ⟨384 + k.val, by have := k.isLt; omega⟩)
        + ∑ k : Fin 128, g ⟨512 + k.val, by have := k.isLt; omega⟩)
        + ∑ k : Fin 128, g ⟨640 + k.val, by have := k.isLt; omega⟩ := by
  rw [PolyNet.sum_split 640 128 rfl g,
    PolyNet.sum_split 512 128 rfl (fun k : Fin 640 => g ⟨k.val, by have := k.isLt; omega⟩),
    PolyNet.sum_split 384 128 rfl (fun k : Fin 512 => g ⟨k.val, by have := k.isLt; omega⟩),
    PolyNet.sum_split 256 128 rfl (fun k : Fin 384 => g ⟨k.val, by have := k.isLt; omega⟩),
    PolyNet.sum_split 128 128 rfl (fun k : Fin 256 => g ⟨k.val, by have := k.isLt; omega⟩)]

/-! ## The last partial product, the projection, and the whole row -/

private theorem pay1_apply (v16 v17 v47 v48 : FVec Ideal S128x128 .bf16) (v55 : FVec Ideal S128x16384 .bf16) (v70 v73 : FVec Ideal S128x128 .f32) (v74 : Vec Ideal S128x128 .bf16) (v78 : Vec Ideal S16384x128 .bf16) (v82 : Vec Ideal S1x128 .f32) (v89 : Vec Ideal S768x1 .bf16) (v92 : Vec Ideal S1x1 .f32) (p : Fin 128) :
    k0_pay1 (F := Ideal) v16 v17 v47 v48 v55 v70 v73 v74 v78 v82 v89 v92 (ix2 p 0)
      = PolyNet.proj6 (fun k => v16 (ix2 p k)) (fun k => v47 (ix2 p k)) (fun k => v70 (ix2 p k))
          (fun k => v17 (ix2 p k)) (fun k => v48 (ix2 p k))
          (fun j => ((v73 (ix2 p j) + ∑ k : Fin 128, v47 (ix2 p k) * PolyNet.col v74 j k)
            + ∑ k : Fin 16384, v55 (ix2 p k) * PolyNet.col v78 j k) + v82 (ix2 0 j))
          (PolyNet.col v89 0) (v92 (ix2 0 0)) := by
  unfold k0_pay1
  simp only [shapeCast_self]
  rw [addf_apply, mm768, bc1, sum6]
  simp only [cat0, cat1, cat2, cat3, cat4, cat5, shapeCast_self, truncf_apply, addf_apply, mm128, mm16384, bc128]
  rfl

/-- Row `p` of the output block the body leaves, from the input blocks. -/
theorem out_apply (x0 : Vec Ideal S128x64 .f32) (x1 : Vec Ideal S64x128 .bf16) (x2 : Vec Ideal S64x128 .bf16) (x3 : Vec Ideal S1x128 .f32) (x4 : Vec Ideal S1x128 .f32) (x5 : Vec Ideal S128x128 .bf16) (x6 : Vec Ideal S16384x128 .bf16) (x7 : Vec Ideal S1x128 .f32) (x8 : Vec Ideal S128x128 .bf16) (x9 : Vec Ideal S16384x128 .bf16) (x10 : Vec Ideal S1x128 .f32) (x11 : Vec Ideal S128x128 .bf16) (x12 : Vec Ideal S128x128 .bf16) (x13 : Vec Ideal S16384x128 .bf16) (x14 : Vec Ideal S1x128 .f32) (x15 : Vec Ideal S128x128 .bf16) (x16 : Vec Ideal S128x128 .bf16) (x17 : Vec Ideal S16384x128 .bf16) (x18 : Vec Ideal S1x128 .f32) (x19 : Vec Ideal S768x1 .bf16) (x20 : Vec Ideal S1x1 .f32) (p : Fin 128) :
    out0_21 (F := Ideal) x0 x1 x2 x3 x4 x5 x6 x7 x8 x9 x10 x11 x12 x13 x14 x15 x16 x17 x18 x19 x20 (ix2 p 0)
      = PolyNet.rowNet (fun k => x0 (ix2 p k)) x1 x2 x3 x4 x5 x6 x7 x8 x9 x10 x11 x12 x13 x14 x15 x16 x17 x18 x19 x20 := by
  unfold out0_21
  rw [View.canon_unit_zero hz]
  simp only [View.ld_unit_zero (S := S128x64) hz, View.ld_unit_zero (S := S64x128) hz, View.ld_unit_zero (S := S1x128) hz,
    View.ld_unit_zero (S := S128x128) hz, View.ld_unit_zero (S := S16384x128) hz, View.ld_unit_zero (S := S768x1) hz,
    View.ld_unit_zero (S := S1x1) hz]
  -- the six feature vectors of row `p`, as the network of the specification names them
  let x : Fin 64 → EReal := fun k => x0 (ix2 p k)
  let f₁ : Fin 128 → EReal := fun j => PolyNet.aff1 x (PolyNet.col x1 j) (x3 (ix2 0 j))
  let g₁ : Fin 128 → EReal := fun j => PolyNet.aff1 x (PolyNet.col x2 j) (x4 (ix2 0 j))
  let f₂ : Fin 128 → EReal := fun j => PolyNet.aff2 f₁ (PolyNet.col x5 j) (PolyNet.outer f₁ f₁) (PolyNet.col x6 j) (x7 (ix2 0 j))
  let g₂ : Fin 128 → EReal := fun j => PolyNet.aff2 f₁ (PolyNet.col x8 j) (PolyNet.outer f₁ f₁) (PolyNet.col x9 j) (x10 (ix2 0 j))
  let f₃ : Fin 128 → EReal := fun j =>
    PolyNet.aff3 f₁ (PolyNet.col x11 j) f₂ (PolyNet.col x12 j) (PolyNet.outer f₁ f₂) (PolyNet.col x13 j) (x14 (ix2 0 j))
  let g₃ : Fin 128 → EReal := fun j =>
    PolyNet.aff3 f₁ (PolyNet.col x15 j) f₂ (PolyNet.col x16 j) (PolyNet.outer f₁ f₂) (PolyNet.col x17 j) (x18 (ix2 0 j))
  have key : PolyNet.rowNet (fun k => x0 (ix2 p k)) x1 x2 x3 x4 x5 x6 x7 x8 x9 x10 x11 x12 x13 x14 x15 x16 x17 x18 x19 x20
      = PolyNet.proj6 f₁ f₂ f₃ g₁ g₂ g₃ (PolyNet.col x19 0) (x20 (ix2 0 0)) := rfl
  -- each block's row `p` is the vector of that name
  have h3 : (fun k => k0_pay3 (F := Ideal) x0 x1 x3 (ix2 p k)) = f₁ := funext fun k => pay3_apply x0 x1 x3 p k
  have h4 : (fun k => k0_pay4 (F := Ideal) x0 x1 x3 (ix2 p k)) = f₁ := h3
  have h5 : (fun k => k0_pay5 (F := Ideal) x0 x2 x4 (ix2 p k)) = g₁ := funext fun k => pay5_apply x0 x2 x4 p k
  have h6 : (fun q => k0_pay6 (F := Ideal) x0 x1 x3 (ix2 p q)) = PolyNet.outer f₁ f₁ := by
    funext q
    rw [pay6_apply, h3]
  have h7 : (fun k => k0_pay7 (F := Ideal) x0 x1 x3 x5 x6 x7 (ix2 p k)) = f₂ := by
    funext j
    rw [pay7_apply, h4, h6]
  have h8 : (fun k => k0_pay8 (F := Ideal) (k0_pay7 (F := Ideal) x0 x1 x3 x5 x6 x7) (ix2 p k)) = f₂ := h7
  have h9 : (fun k => k0_pay9 (F := Ideal) (k0_pay4 (F := Ideal) x0 x1 x3) (k0_pay6 (F := Ideal) x0 x1 x3) x8 x9 x10 (ix2 p k)) = g₂ := by
    funext j
    rw [pay9_apply, h4, h6]
  have h10 : (fun q => k0_pay10 (F := Ideal) (k0_pay3 (F := Ideal) x0 x1 x3) (k0_pay7 (F := Ideal) x0 x1 x3 x5 x6 x7) (ix2 p q))
      = PolyNet.outer f₁ f₂ := by
    funext q
    rw [pay10_apply, h3, h7]
  have h11 : (fun k => k0_pay11 (F := Ideal) (k0_pay3 (F := Ideal) x0 x1 x3) (k0_pay4 (F := Ideal) x0 x1 x3)
      (k0_pay7 (F := Ideal) x0 x1 x3 x5 x6 x7) x11 x12 x13 x14 (ix2 p k)) = f₃ := by
    funext j
    rw [pay11_apply, h4, h7, h3]
  rw [key, pay1_apply, h4, h8, h11, h5, h9]
  congr 1
  funext j
  rw [pay12_apply]
  simp only [congrFun h4, congrFun h8, congrFun h10]
  rfl

end Cert.KernelIdeal.Body

end
-- ==== Proof.KernelIndex.lean ====
/-
  Which block of each operand a grid point stages: the first operand and the result move with the point (point `t`
  stages block `(t, 0)`: rows `128 t …`), every other operand is one block, its whole array, staged at every point.
-/
import proofs.«133583_j90297392431134_1_alg».proof.Proof.Gen.KernelIdeal.Frame

noncomputable section

namespace Cert.KernelIdeal.Blocks

open Cert.KernelIdeal Cert.KernelIdeal.Gen Idealize.ShloMosaic

/-- The first operand and the result move with the grid point: point `t` stages block `(t, 0)` of each. -/
theorem moving_idx : ∀ t : Fin cfg0.N, win0_0.index t (0 : Fin 2) = t.val ∧ win0_0.index t (1 : Fin 2) = 0
    ∧ win0_21.index t (0 : Fin 2) = t.val ∧ win0_21.index t (1 : Fin 2) = 0 :=
  (by decide +kernel : ∀ t : Fin grid0.N, _)

/-- Every other operand is staged whole at every point: block `(0, 0)`. -/
theorem const_idx : ∀ (t : Fin cfg0.N) (a : Fin 2), win0_1.index t a = 0 ∧ win0_2.index t a = 0 ∧ win0_3.index t a = 0 ∧ win0_4.index t a = 0 ∧ win0_5.index t a = 0 ∧ win0_6.index t a = 0 ∧ win0_7.index t a = 0 ∧ win0_8.index t a = 0 ∧ win0_9.index t a = 0 ∧ win0_10.index t a = 0 ∧ win0_11.index t a = 0 ∧ win0_12.index t a = 0 ∧ win0_13.index t a = 0 ∧ win0_14.index t a = 0 ∧ win0_15.index t a = 0 ∧ win0_16.index t a = 0 ∧ win0_17.index t a = 0 ∧ win0_18.index t a = 0 ∧ win0_19.index t a = 0 ∧ win0_20.index t a = 0 :=
  (by decide +kernel : ∀ (t : Fin grid0.N) (a : Fin 2), _)

end Cert.KernelIdeal.Blocks

end
-- ==== Proof.KernelOperands.lean ====
/-
  What the region finds in each of its twenty host-made operands: the rows of a weight matrix below its first
  (a slice, then a change of float format, which is the identity on extended reals), or a bias with the constant input
  coordinate's weights folded in (`b + bias0 * W₀`, reshaped to one row).
-/
import proofs.«133583_j90297392431134_1_alg».proof.Proof.Gen.KernelIdeal.Frame
import proofs.«133583_j90297392431134_1_alg».proof.Proof.Spec
import Idealize.ShloMosaic.Lib.Pipeline.Value
import Idealize.ShloMosaic.Lib.ValueLayout
import Idealize.ShloMosaic.Lib.StableHlo.Run

noncomputable section

namespace Cert.KernelIdeal.Operands

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## The two shapes of operand, read at an index -/

/-- Rows `a, …` of a matrix, converted to a narrower float format: on extended reals the conversion is the identity,
    and the slice reads row `a + p`. -/
private theorem rows_convert {n l k : ℕ} (a : ℕ) (hal : a + l ≤ n) (W : PolyNet.Mat n k)
    (h : (⟨2, ![n, k]⟩ : Shape).Slices ![a, 0] ⟨2, ![l, k]⟩) (hb : FTy.bits .bf16 < FTy.bits .f32) :
    (truncf (F := Ideal) (φ := .f32) .bf16 (extractStridedSlice ⟨2, ![l, k]⟩ ![a, 0] W h) hb : (⟨2, ![l, k]⟩ : Shape).Idx → EReal)
      = PolyNet.rowsFrom a l hal W := by
  funext y
  obtain ⟨p, q, rfl⟩ : ∃ p q, y = ix2 p q := ⟨y 0, y 1, eq_ix2 y⟩
  have hp := p.isLt
  exact slice2_axis0_apply a W h p q ⟨a + p.val, by omega⟩ rfl

/-- Rows `b, …` of rows `a, …` of a matrix are its rows `a + b, …`. -/
private theorem rows_rows_convert {n n' l k : ℕ} (a b ab : ℕ) (hab : ab = a + b) (hal : ab + l ≤ n) (W : PolyNet.Mat n k)
    (h₁ : (⟨2, ![n, k]⟩ : Shape).Slices ![a, 0] ⟨2, ![n', k]⟩) (h₂ : (⟨2, ![n', k]⟩ : Shape).Slices ![b, 0] ⟨2, ![l, k]⟩)
    (hb : FTy.bits .bf16 < FTy.bits .f32) :
    (truncf (F := Ideal) (φ := .f32) .bf16
        (extractStridedSlice ⟨2, ![l, k]⟩ ![b, 0] (extractStridedSlice ⟨2, ![n', k]⟩ ![a, 0] W h₁) h₂) hb
          : (⟨2, ![l, k]⟩ : Shape).Idx → EReal)
      = PolyNet.rowsFrom ab l hal W := by
  funext y
  obtain ⟨p, q, rfl⟩ : ∃ p q, y = ix2 p q := ⟨y 0, y 1, eq_ix2 y⟩
  have hp := p.isLt
  have hn' : b + l ≤ n' := by
    have := h₂.2 0
    simpa using this
  show extractStridedSlice ⟨2, ![l, k]⟩ ![b, 0] (extractStridedSlice ⟨2, ![n', k]⟩ ![a, 0] W h₁) h₂ (ix2 p q) = _
  refine (slice2_axis0_apply b _ h₂ p q ⟨b + p.val, by omega⟩ rfl).trans ?_
  exact slice2_axis0_apply a W h₁ ⟨b + p.val, by omega⟩ q ⟨ab + p.val, by omega⟩ (by show ab + p.val = a + (b + p.val); omega)

/-- The bias with the constant coordinate's weights folded in, as the host operations build it: the first row of the
    weights as a vector, times the broadcast constant, plus the bias, viewed as one row. -/
private theorem fold_bias {n k : ℕ} (hn : 0 < n) (b₀ : PolyNet.Scal) (W : PolyNet.Mat n k) (b : PolyNet.Row k)
    (hs : (⟨2, ![n, k]⟩ : Shape).Slices ![0, 0] ⟨2, ![1, k]⟩) (hc₁ : (⟨2, ![1, k]⟩ : Shape).ShapeCasts ⟨1, ![k]⟩)
    (hbc : (⟨0, ![]⟩ : Shape).BroadcastsInDim ⟨1, ![k]⟩ (![] : Fin 0 → Fin 1)) (hc₂ : (⟨1, ![k]⟩ : Shape).ShapeCasts ⟨2, ![1, k]⟩) :
    (shapeCast ⟨2, ![1, k]⟩
        (addf (F := Ideal) (φ := .f32) b
          (mulf (F := Ideal) (φ := .f32) (broadcastInDim ⟨1, ![k]⟩ ![] hbc b₀)
            (shapeCast ⟨1, ![k]⟩ (extractStridedSlice ⟨2, ![1, k]⟩ ![0, 0] W hs) hc₁))) hc₂
          : (⟨2, ![1, k]⟩ : Shape).Idx → EReal)
      = PolyNet.foldBias hn b₀ W b := by
  funext y
  obtain ⟨u, q, rfl⟩ : ∃ u q, y = ix2 u q := ⟨y 0, y 1, eq_ix2 y⟩
  rw [shapeCast_a_1a_apply]
  show b (ix1 q) + broadcastInDim ⟨1, ![k]⟩ ![] hbc b₀ (ix1 q)
      * shapeCast ⟨1, ![k]⟩ (extractStridedSlice ⟨2, ![1, k]⟩ ![0, 0] W hs) hc₁ (ix1 q) = _
  rw [shapeCast_1a_a_apply, slice2_axis0_apply 0 W hs 0 q ⟨0, hn⟩ rfl,
    broadcastInDim_apply _ hbc b₀ (ix1 q) ix0 (fun a => a.elim0)]
  rfl

theorem V_v59 (c : Dev nD) : (V m c main_v59 : S64x128.Idx → EReal) = PolyNet.rowsFrom 1 64 (by norm_num) (m ((c : Thread nD τ).loc main_arg2)) := by
  have e : (V m c main_v59 : S64x128.Idx → EReal)
      = (truncf (F := Ideal) (φ := .f32) .bf16
          (extractStridedSlice S64x128 ![1, 0] (m ((c : Thread nD τ).loc main_arg2)) slices_S65x128_S64x128_1_0) bitsLt_bf16_f32 : S64x128.Idx → EReal) := by
    dsimp only [Gen.V, Gen.hostOps0]
    after_results_simp
    all_goals rfl
  exact e.trans (rows_convert 1 _ _ _ _)

theorem V_v60 (c : Dev nD) : (V m c main_v60 : S64x128.Idx → EReal) = PolyNet.rowsFrom 1 64 (by norm_num) (m ((c : Thread nD τ).loc main_arg4)) := by
  have e : (V m c main_v60 : S64x128.Idx → EReal)
      = (truncf (F := Ideal) (φ := .f32) .bf16
          (extractStridedSlice S64x128 ![1, 0] (m ((c : Thread nD τ).loc main_arg4)) slices_S65x128_S64x128_1_0) bitsLt_bf16_f32 : S64x128.Idx → EReal) := by
    dsimp only [Gen.V, Gen.hostOps0]
    after_results_simp
    all_goals rfl
  exact e.trans (rows_convert 1 _ _ _ _)

theorem V_v7 (c : Dev nD) : (V m c main_v7 : S1x128.Idx → EReal) = PolyNet.foldBias (by norm_num) (m ((c : Thread nD τ).loc main_arg1)) (m ((c : Thread nD τ).loc main_arg2)) (m ((c : Thread nD τ).loc main_arg3)) := by
  have e : (V m c main_v7 : S1x128.Idx → EReal)
      = (shapeCast S1x128
          (addf (F := Ideal) (φ := .f32) (m ((c : Thread nD τ).loc main_arg3))
            (mulf (F := Ideal) (φ := .f32) (broadcastInDim S128 ![] bcast_S_S128 (m ((c : Thread nD τ).loc main_arg1)))
              (shapeCast S128 (extractStridedSlice S1x128 ![0, 0] (m ((c : Thread nD τ).loc main_arg2)) slices_S65x128_S1x128_0_0) shapeCasts_S1x128_S128)))
          shapeCasts_S128_S1x128 : S1x128.Idx → EReal) := by
    dsimp only [Gen.V, Gen.hostOps0]
    after_results_simp
    all_goals rfl
  exact e.trans (fold_bias _ _ _ _ _ _ _ _)

theorem V_v13 (c : Dev nD) : (V m c main_v13 : S1x128.Idx → EReal) = PolyNet.foldBias (by norm_num) (m ((c : Thread nD τ).loc main_arg1)) (m ((c : Thread nD τ).loc main_arg4)) (m ((c : Thread nD τ).loc main_arg5)) := by
  have e : (V m c main_v13 : S1x128.Idx → EReal)
      = (shapeCast S1x128
          (addf (F := Ideal) (φ := .f32) (m ((c : Thread nD τ).loc main_arg5))
            (mulf (F := Ideal) (φ := .f32) (broadcastInDim S128 ![] bcast_S_S128 (m ((c : Thread nD τ).loc main_arg1)))
              (shapeCast S128 (extractStridedSlice S1x128 ![0, 0] (m ((c : Thread nD τ).loc main_arg4)) slices_S65x128_S1x128_0_0) shapeCasts_S1x128_S128)))
          shapeCasts_S128_S1x128 : S1x128.Idx → EReal) := by
    dsimp only [Gen.V, Gen.hostOps0]
    after_results_simp
    all_goals rfl
  exact e.trans (fold_bias _ _ _ _ _ _ _ _)

theorem V_v61 (c : Dev nD) : (V m c main_v61 : S128x128.Idx → EReal) = PolyNet.rowsFrom 1 128 (by norm_num) (m ((c : Thread nD τ).loc main_arg6)) := by
  have e : (V m c main_v61 : S128x128.Idx → EReal)
      = (truncf (F := Ideal) (φ := .f32) .bf16
          (extractStridedSlice S128x128 ![0, 0]
            (extractStridedSlice S16512x128 ![1, 0] (m ((c : Thread nD τ).loc main_arg6)) slices_S16513x128_S16512x128_1_0)
            slices_S16512x128_S128x128_0_0) bitsLt_bf16_f32 : S128x128.Idx → EReal) := by
    dsimp only [Gen.V, Gen.hostOps0]
    after_results_simp
    all_goals rfl
  exact e.trans (rows_rows_convert 1 0 1 rfl _ _ _ _ _)

theorem V_v62 (c : Dev nD) : (V m c main_v62 : S16384x128.Idx → EReal) = PolyNet.rowsFrom 129 16384 (by norm_num) (m ((c : Thread nD τ).loc main_arg6)) := by
  have e : (V m c main_v62 : S16384x128.Idx → EReal)
      = (truncf (F := Ideal) (φ := .f32) .bf16
          (extractStridedSlice S16384x128 ![128, 0]
            (extractStridedSlice S16512x128 ![1, 0] (m ((c : Thread nD τ).loc main_arg6)) slices_S16513x128_S16512x128_1_0)
            slices_S16512x128_S16384x128_128_0) bitsLt_bf16_f32 : S16384x128.Idx → EReal) := by
    dsimp only [Gen.V, Gen.hostOps0]
    after_results_simp
    all_goals rfl
  exact e.trans (rows_rows_convert 1 128 129 rfl _ _ _ _ _)

theorem V_v21 (c : Dev nD) : (V m c main_v21 : S1x128.Idx → EReal) = PolyNet.foldBias (by norm_num) (m ((c : Thread nD τ).loc main_arg1)) (m ((c : Thread nD τ).loc main_arg6)) (m ((c : Thread nD τ).loc main_arg7)) := by
  have e : (V m c main_v21 : S1x128.Idx → EReal)
      = (shapeCast S1x128
          (addf (F := Ideal) (φ := .f32) (m ((c : Thread nD τ).loc main_arg7))
            (mulf (F := Ideal) (φ := .f32) (broadcastInDim S128 ![] bcast_S_S128 (m ((c : Thread nD τ).loc main_arg1)))
              (shapeCast S128 (extractStridedSlice S1x128 ![0, 0] (m ((c : Thread nD τ).loc main_arg6)) slices_S16513x128_S1x128_0_0) shapeCasts_S1x128_S128)))
          shapeCasts_S128_S1x128 : S1x128.Idx → EReal) := by
    dsimp only [Gen.V, Gen.hostOps0]
    after_results_simp
    all_goals rfl
  exact e.trans (fold_bias _ _ _ _ _ _ _ _)

theorem V_v63 (c : Dev nD) : (V m c main_v63 : S128x128.Idx → EReal) = PolyNet.rowsFrom 1 128 (by norm_num) (m ((c : Thread nD τ).loc main_arg8)) := by
  have e : (V m c main_v63 : S128x128.Idx → EReal)
      = (truncf (F := Ideal) (φ := .f32) .bf16
          (extractStridedSlice S128x128 ![0, 0]
            (extractStridedSlice S16512x128 ![1, 0] (m ((c : Thread nD τ).loc main_arg8)) slices_S16513x128_S16512x128_1_0)
            slices_S16512x128_S128x128_0_0) bitsLt_bf16_f32 : S128x128.Idx → EReal) := by
    dsimp only [Gen.V, Gen.hostOps0]
    after_results_simp
    all_goals rfl
  exact e.trans (rows_rows_convert 1 0 1 rfl _ _ _ _ _)

theorem V_v64 (c : Dev nD) : (V m c main_v64 : S16384x128.Idx → EReal) = PolyNet.rowsFrom 129 16384 (by norm_num) (m ((c : Thread nD τ).loc main_arg8)) := by
  have e : (V m c main_v64 : S16384x128.Idx → EReal)
      = (truncf (F := Ideal) (φ := .f32) .bf16
          (extractStridedSlice S16384x128 ![128, 0]
            (extractStridedSlice S16512x128 ![1, 0] (m ((c : Thread nD τ).loc main_arg8)) slices_S16513x128_S16512x128_1_0)
            slices_S16512x128_S16384x128_128_0) bitsLt_bf16_f32 : S16384x128.Idx → EReal) := by
    dsimp only [Gen.V, Gen.hostOps0]
    after_results_simp
    all_goals rfl
  exact e.trans (rows_rows_convert 1 128 129 rfl _ _ _ _ _)

theorem V_v27 (c : Dev nD) : (V m c main_v27 : S1x128.Idx → EReal) = PolyNet.foldBias (by norm_num) (m ((c : Thread nD τ).loc main_arg1)) (m ((c : Thread nD τ).loc main_arg8)) (m ((c : Thread nD τ).loc main_arg9)) := by
  have e : (V m c main_v27 : S1x128.Idx → EReal)
      = (shapeCast S1x128
          (addf (F := Ideal) (φ := .f32) (m ((c : Thread nD τ).loc main_arg9))
            (mulf (F := Ideal) (φ := .f32) (broadcastInDim S128 ![] bcast_S_S128 (m ((c : Thread nD τ).loc main_arg1)))
              (shapeCast S128 (extractStridedSlice S1x128 ![0, 0] (m ((c : Thread nD τ).loc main_arg8)) slices_S16513x128_S1x128_0_0) shapeCasts_S1x128_S128)))
          shapeCasts_S128_S1x128 : S1x128.Idx → EReal) := by
    dsimp only [Gen.V, Gen.hostOps0]
    after_results_simp
    all_goals rfl
  exact e.trans (fold_bias _ _ _ _ _ _ _ _)

theorem V_v65 (c : Dev nD) : (V m c main_v65 : S128x128.Idx → EReal) = PolyNet.rowsFrom 1 128 (by norm_num) (m ((c : Thread nD τ).loc main_arg10)) := by
  have e : (V m c main_v65 : S128x128.Idx → EReal)
      = (truncf (F := Ideal) (φ := .f32) .bf16
          (extractStridedSlice S128x128 ![0, 0]
            (extractStridedSlice S16640x128 ![1, 0] (m ((c : Thread nD τ).loc main_arg10)) slices_S16641x128_S16640x128_1_0)
            slices_S16640x128_S128x128_0_0) bitsLt_bf16_f32 : S128x128.Idx → EReal) := by
    dsimp only [Gen.V, Gen.hostOps0]
    after_results_simp
    all_goals rfl
  exact e.trans (rows_rows_convert 1 0 1 rfl _ _ _ _ _)

theorem V_v66 (c : Dev nD) : (V m c main_v66 : S128x128.Idx → EReal) = PolyNet.rowsFrom 129 128 (by norm_num) (m ((c : Thread nD τ).loc main_arg10)) := by
  have e : (V m c main_v66 : S128x128.Idx → EReal)
      = (truncf (F := Ideal) (φ := .f32) .bf16
          (extractStridedSlice S128x128 ![128, 0]
            (extractStridedSlice S16640x128 ![1, 0] (m ((c : Thread nD τ).loc main_arg10)) slices_S16641x128_S16640x128_1_0)
            slices_S16640x128_S128x128_128_0) bitsLt_bf16_f32 : S128x128.Idx → EReal) := by
    dsimp only [Gen.V, Gen.hostOps0]
    after_results_simp
    all_goals rfl
  exact e.trans (rows_rows_convert 1 128 129 rfl _ _ _ _ _)

theorem V_v67 (c : Dev nD) : (V m c main_v67 : S16384x128.Idx → EReal) = PolyNet.rowsFrom 257 16384 (by norm_num) (m ((c : Thread nD τ).loc main_arg10)) := by
  have e : (V m c main_v67 : S16384x128.Idx → EReal)
      = (truncf (F := Ideal) (φ := .f32) .bf16
          (extractStridedSlice S16384x128 ![256, 0]
            (extractStridedSlice S16640x128 ![1, 0] (m ((c : Thread nD τ).loc main_arg10)) slices_S16641x128_S16640x128_1_0)
            slices_S16640x128_S16384x128_256_0) bitsLt_bf16_f32 : S16384x128.Idx → EReal) := by
    dsimp only [Gen.V, Gen.hostOps0]
    after_results_simp
    all_goals rfl
  exact e.trans (rows_rows_convert 1 256 257 rfl _ _ _ _ _)

theorem V_v39 (c : Dev nD) : (V m c main_v39 : S1x128.Idx → EReal) = PolyNet.foldBias (by norm_num) (m ((c : Thread nD τ).loc main_arg1)) (m ((c : Thread nD τ).loc main_arg10)) (m ((c : Thread nD τ).loc main_arg11)) := by
  have e : (V m c main_v39 : S1x128.Idx → EReal)
      = (shapeCast S1x128
          (addf (F := Ideal) (φ := .f32) (m ((c : Thread nD τ).loc main_arg11))
            (mulf (F := Ideal) (φ := .f32) (broadcastInDim S128 ![] bcast_S_S128 (m ((c : Thread nD τ).loc main_arg1)))
              (shapeCast S128 (extractStridedSlice S1x128 ![0, 0] (m ((c : Thread nD τ).loc main_arg10)) slices_S16641x128_S1x128_0_0) shapeCasts_S1x128_S128)))
          shapeCasts_S128_S1x128 : S1x128.Idx → EReal) := by
    dsimp only [Gen.V, Gen.hostOps0]
    after_results_simp
    all_goals rfl
  exact e.trans (fold_bias _ _ _ _ _ _ _ _)

theorem V_v68 (c : Dev nD) : (V m c main_v68 : S128x128.Idx → EReal) = PolyNet.rowsFrom 1 128 (by norm_num) (m ((c : Thread nD τ).loc main_arg12)) := by
  have e : (V m c main_v68 : S128x128.Idx → EReal)
      = (truncf (F := Ideal) (φ := .f32) .bf16
          (extractStridedSlice S128x128 ![0, 0]
            (extractStridedSlice S16640x128 ![1, 0] (m ((c : Thread nD τ).loc main_arg12)) slices_S16641x128_S16640x128_1_0)
            slices_S16640x128_S128x128_0_0) bitsLt_bf16_f32 : S128x128.Idx → EReal) := by
    dsimp only [Gen.V, Gen.hostOps0]
    after_results_simp
    all_goals rfl
  exact e.trans (rows_rows_convert 1 0 1 rfl _ _ _ _ _)

theorem V_v69 (c : Dev nD) : (V m c main_v69 : S128x128.Idx → EReal) = PolyNet.rowsFrom 129 128 (by norm_num) (m ((c : Thread nD τ).loc main_arg12)) := by
  have e : (V m c main_v69 : S128x128.Idx → EReal)
      = (truncf (F := Ideal) (φ := .f32) .bf16
          (extractStridedSlice S128x128 ![128, 0]
            (extractStridedSlice S16640x128 ![1, 0] (m ((c : Thread nD τ).loc main_arg12)) slices_S16641x128_S16640x128_1_0)
            slices_S16640x128_S128x128_128_0) bitsLt_bf16_f32 : S128x128.Idx → EReal) := by
    dsimp only [Gen.V, Gen.hostOps0]
    after_results_simp
    all_goals rfl
  exact e.trans (rows_rows_convert 1 128 129 rfl _ _ _ _ _)

theorem V_v70 (c : Dev nD) : (V m c main_v70 : S16384x128.Idx → EReal) = PolyNet.rowsFrom 257 16384 (by norm_num) (m ((c : Thread nD τ).loc main_arg12)) := by
  have e : (V m c main_v70 : S16384x128.Idx → EReal)
      = (truncf (F := Ideal) (φ := .f32) .bf16
          (extractStridedSlice S16384x128 ![256, 0]
            (extractStridedSlice S16640x128 ![1, 0] (m ((c : Thread nD τ).loc main_arg12)) slices_S16641x128_S16640x128_1_0)
            slices_S16640x128_S16384x128_256_0) bitsLt_bf16_f32 : S16384x128.Idx → EReal) := by
    dsimp only [Gen.V, Gen.hostOps0]
    after_results_simp
    all_goals rfl
  exact e.trans (rows_rows_convert 1 256 257 rfl _ _ _ _ _)

theorem V_v45 (c : Dev nD) : (V m c main_v45 : S1x128.Idx → EReal) = PolyNet.foldBias (by norm_num) (m ((c : Thread nD τ).loc main_arg1)) (m ((c : Thread nD τ).loc main_arg12)) (m ((c : Thread nD τ).loc main_arg13)) := by
  have e : (V m c main_v45 : S1x128.Idx → EReal)
      = (shapeCast S1x128
          (addf (F := Ideal) (φ := .f32) (m ((c : Thread nD τ).loc main_arg13))
            (mulf (F := Ideal) (φ := .f32) (broadcastInDim S128 ![] bcast_S_S128 (m ((c : Thread nD τ).loc main_arg1)))
              (shapeCast S128 (extractStridedSlice S1x128 ![0, 0] (m ((c : Thread nD τ).loc main_arg12)) slices_S16641x128_S1x128_0_0) shapeCasts_S1x128_S128)))
          shapeCasts_S128_S1x128 : S1x128.Idx → EReal) := by
    dsimp only [Gen.V, Gen.hostOps0]
    after_results_simp
    all_goals rfl
  exact e.trans (fold_bias _ _ _ _ _ _ _ _)

theorem V_v71 (c : Dev nD) : (V m c main_v71 : S768x1.Idx → EReal) = PolyNet.rowsFrom 1 768 (by norm_num) (m ((c : Thread nD τ).loc main_arg14)) := by
  have e : (V m c main_v71 : S768x1.Idx → EReal)
      = (truncf (F := Ideal) (φ := .f32) .bf16
          (extractStridedSlice S768x1 ![1, 0] (m ((c : Thread nD τ).loc main_arg14)) slices_S769x1_S768x1_1_0) bitsLt_bf16_f32 : S768x1.Idx → EReal) := by
    dsimp only [Gen.V, Gen.hostOps0]
    after_results_simp
    all_goals rfl
  exact e.trans (rows_convert 1 _ _ _ _)

theorem V_v58 (c : Dev nD) : (V m c main_v58 : S1x1.Idx → EReal) = PolyNet.foldBias (by norm_num) (m ((c : Thread nD τ).loc main_arg1)) (m ((c : Thread nD τ).loc main_arg14)) (m ((c : Thread nD τ).loc main_arg15)) := by
  have e : (V m c main_v58 : S1x1.Idx → EReal)
      = (shapeCast S1x1
          (addf (F := Ideal) (φ := .f32) (m ((c : Thread nD τ).loc main_arg15))
            (mulf (F := Ideal) (φ := .f32) (broadcastInDim S1 ![] bcast_S_S1 (m ((c : Thread nD τ).loc main_arg1)))
              (shapeCast S1 (extractStridedSlice S1x1 ![0, 0] (m ((c : Thread nD τ).loc main_arg14)) slices_S769x1_S1x1_0_0) shapeCasts_S1x1_S1)))
          shapeCasts_S1_S1x1 : S1x1.Idx → EReal) := by
    dsimp only [Gen.V, Gen.hostOps0]
    after_results_simp
    all_goals rfl
  exact e.trans (fold_bias _ _ _ _ _ _ _ _)

end Cert.KernelIdeal.Operands

end
-- ==== Proof.KernelBlocks1.lean ====
/-
  The operands' blocks as the body finds them, part 1 of 3: an operand staged whole reads as its array, which the host
  prologue made from the arguments (Proof/KernelOperands.lean).
-/
import proofs.«133583_j90297392431134_1_alg».proof.Proof.KernelIndex
import proofs.«133583_j90297392431134_1_alg».proof.Proof.KernelOperands

noncomputable section

namespace Cert.KernelIdeal.Blocks

open Cert.KernelIdeal Cert.KernelIdeal.Gen Idealize.ShloMosaic Idealize.ShloMosaic.TcCoe Idealize.SL.Sem
  Idealize.ShloMosaic.ValueIdx

variable (m : (ℓ : Loc nD τ sig) → Buf (Elt Ideal) ℓ)

set_option hygiene false in
/-- An operand staged whole reads as its array: the block's coordinate is `0 * size + 1 * y`. -/
local macro "read_whole " b:ident ", " w:num ", " n0:num ", " n1:num : tactic =>
  `(tactic| (funext y
             show V m c $b (((cfg0.win $w).blk t).view.emb y) = V m c $b y
             refine congrArg (V m c $b) (funext fun a => Fin.ext ?_)
             match a with
             | ⟨0, _⟩ =>
               show (cfg0.win $w).index t (0 : Fin 2) * $n0 + 1 * (y 0).val = (y 0).val
               have h0 := const_idx t (0 : Fin 2)
               simp only [h0]; omega
             | ⟨1, _⟩ =>
               show (cfg0.win $w).index t (1 : Fin 2) * $n1 + 1 * (y 1).val = (y 1).val
               have h1 := const_idx t (1 : Fin 2)
               simp only [h1]; omega))

theorem operand1 (c : Dev nD) (t : Fin cfg0.N) : (iblk m c 1 t : Vec Ideal S64x128 .bf16) = PolyNet.rowsFrom 1 64 (by norm_num) (m ((c : Thread nD τ).loc main_arg2)) := by
  refine Eq.trans ?_ (Operands.V_v59 m c)
  read_whole main_v59, 1, 64, 128

theorem operand2 (c : Dev nD) (t : Fin cfg0.N) : (iblk m c 2 t : Vec Ideal S64x128 .bf16) = PolyNet.rowsFrom 1 64 (by norm_num) (m ((c : Thread nD τ).loc main_arg4)) := by
  refine Eq.trans ?_ (Operands.V_v60 m c)
  read_whole main_v60, 2, 64, 128

theorem operand3 (c : Dev nD) (t : Fin cfg0.N) : (iblk m c 3 t : Vec Ideal S1x128 .f32) = PolyNet.foldBias (by norm_num) (m ((c : Thread nD τ).loc main_arg1)) (m ((c : Thread nD τ).loc main_arg2)) (m ((c : Thread nD τ).loc main_arg3)) := by
  refine Eq.trans ?_ (Operands.V_v7 m c)
  read_whole main_v7, 3, 1, 128

theorem operand4 (c : Dev nD) (t : Fin cfg0.N) : (iblk m c 4 t : Vec Ideal S1x128 .f32) = PolyNet.foldBias (by norm_num) (m ((c : Thread nD τ).loc main_arg1)) (m ((c : Thread nD τ).loc main_arg4)) (m ((c : Thread nD τ).loc main_arg5)) := by
  refine Eq.trans ?_ (Operands.V_v13 m c)
  read_whole main_v13, 4, 1, 128

theorem operand5 (c : Dev nD) (t : Fin cfg0.N) : (iblk m c 5 t : Vec Ideal S128x128 .bf16) = PolyNet.rowsFrom 1 128 (by norm_num) (m ((c : Thread nD τ).loc main_arg6)) := by
  refine Eq.trans ?_ (Operands.V_v61 m c)
  read_whole main_v61, 5, 128, 128

theorem operand6 (c : Dev nD) (t : Fin cfg0.N) : (iblk m c 6 t : Vec Ideal S16384x128 .bf16) = PolyNet.rowsFrom 129 16384 (by norm_num) (m ((c : Thread nD τ).loc main_arg6)) := by
  refine Eq.trans ?_ (Operands.V_v62 m c)
  read_whole main_v62, 6, 16384, 128

theorem operand7 (c : Dev nD) (t : Fin cfg0.N) : (iblk m c 7 t : Vec Ideal S1x128 .f32) = PolyNet.foldBias (by norm_num) (m ((c : Thread nD τ).loc main_arg1)) (m ((c : Thread nD τ).loc main_arg6)) (m ((c : Thread nD τ).loc main_arg7)) := by
  refine Eq.trans ?_ (Operands.V_v21 m c)
  read_whole main_v21, 7, 1, 128

end Cert.KernelIdeal.Blocks

end
-- ==== Proof.KernelBlocks2.lean ====
/-
  The operands' blocks as the body finds them, part 2 of 3: an operand staged whole reads as its array, which the host
  prologue made from the arguments (Proof/KernelOperands.lean).
-/
import proofs.«133583_j90297392431134_1_alg».proof.Proof.KernelIndex
import proofs.«133583_j90297392431134_1_alg».proof.Proof.KernelOperands

noncomputable section

namespace Cert.KernelIdeal.Blocks

open Cert.KernelIdeal Cert.KernelIdeal.Gen Idealize.ShloMosaic Idealize.ShloMosaic.TcCoe Idealize.SL.Sem
  Idealize.ShloMosaic.ValueIdx

variable (m : (ℓ : Loc nD τ sig) → Buf (Elt Ideal) ℓ)

set_option hygiene false in
/-- An operand staged whole reads as its array: the block's coordinate is `0 * size + 1 * y`. -/
local macro "read_whole " b:ident ", " w:num ", " n0:num ", " n1:num : tactic =>
  `(tactic| (funext y
             show V m c $b (((cfg0.win $w).blk t).view.emb y) = V m c $b y
             refine congrArg (V m c $b) (funext fun a => Fin.ext ?_)
             match a with
             | ⟨0, _⟩ =>
               show (cfg0.win $w).index t (0 : Fin 2) * $n0 + 1 * (y 0).val = (y 0).val
               have h0 := const_idx t (0 : Fin 2)
               simp only [h0]; omega
             | ⟨1, _⟩ =>
               show (cfg0.win $w).index t (1 : Fin 2) * $n1 + 1 * (y 1).val = (y 1).val
               have h1 := const_idx t (1 : Fin 2)
               simp only [h1]; omega))

theorem operand8 (c : Dev nD) (t : Fin cfg0.N) : (iblk m c 8 t : Vec Ideal S128x128 .bf16) = PolyNet.rowsFrom 1 128 (by norm_num) (m ((c : Thread nD τ).loc main_arg8)) := by
  refine Eq.trans ?_ (Operands.V_v63 m c)
  read_whole main_v63, 8, 128, 128

theorem operand9 (c : Dev nD) (t : Fin cfg0.N) : (iblk m c 9 t : Vec Ideal S16384x128 .bf16) = PolyNet.rowsFrom 129 16384 (by norm_num) (m ((c : Thread nD τ).loc main_arg8)) := by
  refine Eq.trans ?_ (Operands.V_v64 m c)
  read_whole main_v64, 9, 16384, 128

theorem operand10 (c : Dev nD) (t : Fin cfg0.N) : (iblk m c 10 t : Vec Ideal S1x128 .f32) = PolyNet.foldBias (by norm_num) (m ((c : Thread nD τ).loc main_arg1)) (m ((c : Thread nD τ).loc main_arg8)) (m ((c : Thread nD τ).loc main_arg9)) := by
  refine Eq.trans ?_ (Operands.V_v27 m c)
  read_whole main_v27, 10, 1, 128

theorem operand11 (c : Dev nD) (t : Fin cfg0.N) : (iblk m c 11 t : Vec Ideal S128x128 .bf16) = PolyNet.rowsFrom 1 128 (by norm_num) (m ((c : Thread nD τ).loc main_arg10)) := by
  refine Eq.trans ?_ (Operands.V_v65 m c)
  read_whole main_v65, 11, 128, 128

theorem operand12 (c : Dev nD) (t : Fin cfg0.N) : (iblk m c 12 t : Vec Ideal S128x128 .bf16) = PolyNet.rowsFrom 129 128 (by norm_num) (m ((c : Thread nD τ).loc main_arg10)) := by
  refine Eq.trans ?_ (Operands.V_v66 m c)
  read_whole main_v66, 12, 128, 128

theorem operand13 (c : Dev nD) (t : Fin cfg0.N) : (iblk m c 13 t : Vec Ideal S16384x128 .bf16) = PolyNet.rowsFrom 257 16384 (by norm_num) (m ((c : Thread nD τ).loc main_arg10)) := by
  refine Eq.trans ?_ (Operands.V_v67 m c)
  read_whole main_v67, 13, 16384, 128

theorem operand14 (c : Dev nD) (t : Fin cfg0.N) : (iblk m c 14 t : Vec Ideal S1x128 .f32) = PolyNet.foldBias (by norm_num) (m ((c : Thread nD τ).loc main_arg1)) (m ((c : Thread nD τ).loc main_arg10)) (m ((c : Thread nD τ).loc main_arg11)) := by
  refine Eq.trans ?_ (Operands.V_v39 m c)
  read_whole main_v39, 14, 1, 128

end Cert.KernelIdeal.Blocks

end
-- ==== Proof.KernelBlocks3.lean ====
/-
  The operands' blocks as the body finds them, part 3 of 3: an operand staged whole reads as its array, which the host
  prologue made from the arguments (Proof/KernelOperands.lean).
-/
import proofs.«133583_j90297392431134_1_alg».proof.Proof.KernelIndex
import proofs.«133583_j90297392431134_1_alg».proof.Proof.KernelOperands

noncomputable section

namespace Cert.KernelIdeal.Blocks

open Cert.KernelIdeal Cert.KernelIdeal.Gen Idealize.ShloMosaic Idealize.ShloMosaic.TcCoe Idealize.SL.Sem
  Idealize.ShloMosaic.ValueIdx

variable (m : (ℓ : Loc nD τ sig) → Buf (Elt Ideal) ℓ)

set_option hygiene false in
/-- An operand staged whole reads as its array: the block's coordinate is `0 * size + 1 * y`. -/
local macro "read_whole " b:ident ", " w:num ", " n0:num ", " n1:num : tactic =>
  `(tactic| (funext y
             show V m c $b (((cfg0.win $w).blk t).view.emb y) = V m c $b y
             refine congrArg (V m c $b) (funext fun a => Fin.ext ?_)
             match a with
             | ⟨0, _⟩ =>
               show (cfg0.win $w).index t (0 : Fin 2) * $n0 + 1 * (y 0).val = (y 0).val
               have h0 := const_idx t (0 : Fin 2)
               simp only [h0]; omega
             | ⟨1, _⟩ =>
               show (cfg0.win $w).index t (1 : Fin 2) * $n1 + 1 * (y 1).val = (y 1).val
               have h1 := const_idx t (1 : Fin 2)
               simp only [h1]; omega))

theorem operand15 (c : Dev nD) (t : Fin cfg0.N) : (iblk m c 15 t : Vec Ideal S128x128 .bf16) = PolyNet.rowsFrom 1 128 (by norm_num) (m ((c : Thread nD τ).loc main_arg12)) := by
  refine Eq.trans ?_ (Operands.V_v68 m c)
  read_whole main_v68, 15, 128, 128

theorem operand16 (c : Dev nD) (t : Fin cfg0.N) : (iblk m c 16 t : Vec Ideal S128x128 .bf16) = PolyNet.rowsFrom 129 128 (by norm_num) (m ((c : Thread nD τ).loc main_arg12)) := by
  refine Eq.trans ?_ (Operands.V_v69 m c)
  read_whole main_v69, 16, 128, 128

theorem operand17 (c : Dev nD) (t : Fin cfg0.N) : (iblk m c 17 t : Vec Ideal S16384x128 .bf16) = PolyNet.rowsFrom 257 16384 (by norm_num) (m ((c : Thread nD τ).loc main_arg12)) := by
  refine Eq.trans ?_ (Operands.V_v70 m c)
  read_whole main_v70, 17, 16384, 128

theorem operand18 (c : Dev nD) (t : Fin cfg0.N) : (iblk m c 18 t : Vec Ideal S1x128 .f32) = PolyNet.foldBias (by norm_num) (m ((c : Thread nD τ).loc main_arg1)) (m ((c : Thread nD τ).loc main_arg12)) (m ((c : Thread nD τ).loc main_arg13)) := by
  refine Eq.trans ?_ (Operands.V_v45 m c)
  read_whole main_v45, 18, 1, 128

theorem operand19 (c : Dev nD) (t : Fin cfg0.N) : (iblk m c 19 t : Vec Ideal S768x1 .bf16) = PolyNet.rowsFrom 1 768 (by norm_num) (m ((c : Thread nD τ).loc main_arg14)) := by
  refine Eq.trans ?_ (Operands.V_v71 m c)
  read_whole main_v71, 19, 768, 1

theorem operand20 (c : Dev nD) (t : Fin cfg0.N) : (iblk m c 20 t : Vec Ideal S1x1 .f32) = PolyNet.foldBias (by norm_num) (m ((c : Thread nD τ).loc main_arg1)) (m ((c : Thread nD τ).loc main_arg14)) (m ((c : Thread nD τ).loc main_arg15)) := by
  refine Eq.trans ?_ (Operands.V_v58 m c)
  read_whole main_v58, 20, 1, 1

/-- Row `p` of the first operand's block at point `t` is row `128 t + p` of the first argument. -/
theorem operand0 (c : Dev nD) (t : Fin cfg0.N) (p : Fin 128) (k : Fin 64) (h : t.val * 128 + p.val < 8192) :
    iblk m c 0 t (ix2 p k) = m ((c : Thread nD τ).loc main_arg0) (ix2 ⟨t.val * 128 + p.val, h⟩ k) := by
  show V m c main_arg0 (((cfg0.win 0).blk t).view.emb (ix2 p k)) = _
  rw [V_main_arg0]
  refine congrArg _ (funext fun a => Fin.ext ?_)
  obtain ⟨e0, e1, -, -⟩ := moving_idx t
  match a with
  | ⟨0, _⟩ => show win0_0.index t (0 : Fin 2) * 128 + 1 * p.val = t.val * 128 + p.val; rw [e0]; omega
  | ⟨1, _⟩ => show win0_0.index t (1 : Fin 2) * 64 + 1 * k.val = k.val; rw [e1]; omega

end Cert.KernelIdeal.Blocks

end
-- ==== Proof.KernelCover.lean ====
/-
  The result array's 64 blocks of 128 rows cover it: row `r` lies in the block of grid point `r / 128`.
-/
import proofs.«133583_j90297392431134_1_alg».proof.Proof.KernelIndex
import Idealize.ShloMosaic.Lib.Pipeline.Value

noncomputable section

namespace Cert.KernelIdeal.Blocks

open Cert.KernelIdeal Cert.KernelIdeal.Gen Idealize.ShloMosaic Idealize.ShloMosaic.TcCoe Idealize.SL.Sem

/-- An index of the result array is in point `t`'s block iff its row is one of the block's 128. -/
theorem mem_blk (t : Fin cfg0.N) (i : S8192x1.Idx) :
    i ∈ ((cfg0.win 21).blk t).view.set ↔ ∀ a : Fin 2, win0_21.index t a * S128x1.size a ≤ (i a).val ∧ (i a).val < win0_21.index t a * S128x1.size a + S128x1.size a := by
  show i ∈ ((View.whole main_v72).slice (win0_21.rect t)).set ↔ _
  rw [View.set_slice_whole, Rect.mem_set_unit]
  exact Iff.rfl

/-- Row `r` is in the block of point `r / 128`: the 64 blocks cover the array. -/
theorem cover (i : S8192x1.Idx) : ∃ t : Fin cfg0.N, (cfg0.win 21).flush t = true ∧ i ∈ ((cfg0.win 21).blk t).view.set := by
  have hi0 : (i 0).val < 8192 := (i 0).isLt
  have hi1 : (i 1).val < 1 := (i 1).isLt
  refine ⟨⟨(i 0).val / 128, by show (i 0).val / 128 < 64; omega⟩, flush0_21 _, ?_⟩
  rw [mem_blk]
  obtain ⟨-, -, e2, e3⟩ := moving_idx ⟨(i 0).val / 128, by show (i 0).val / 128 < 64; omega⟩
  intro a
  match a with
  | ⟨0, _⟩ =>
    show win0_21.index _ (0 : Fin 2) * 128 ≤ (i 0).val ∧ (i 0).val < win0_21.index _ (0 : Fin 2) * 128 + 128
    rw [e2]; show (i 0).val / 128 * 128 ≤ (i 0).val ∧ (i 0).val < (i 0).val / 128 * 128 + 128; omega
  | ⟨1, _⟩ =>
    show win0_21.index _ (1 : Fin 2) * 1 ≤ (i 1).val ∧ (i 1).val < win0_21.index _ (1 : Fin 2) * 1 + 1
    rw [e3]; omega

end Cert.KernelIdeal.Blocks

end
-- ==== Proof.KernelValue.lean ====
/-
  The kernel's result array is the network of Proof/Spec.lean of the argument arrays: grid point `t` writes back rows
  `128 t, …, 128 t + 127`, each the network on that row of the first argument (the body, Proof/KernelBody.lean, on the
  operands the region finds, Proof/KernelOperands.lean), and the 64 blocks cover the 8192 rows.
-/
import proofs.«133583_j90297392431134_1_alg».proof.Proof.Gen.KernelIdeal.Value
import proofs.«133583_j90297392431134_1_alg».proof.Proof.KernelBody
import proofs.«133583_j90297392431134_1_alg».proof.Proof.KernelBlocks1
import proofs.«133583_j90297392431134_1_alg».proof.Proof.KernelBlocks2
import proofs.«133583_j90297392431134_1_alg».proof.Proof.KernelBlocks3
import proofs.«133583_j90297392431134_1_alg».proof.Proof.KernelCover

noncomputable section

namespace Cert.KernelIdeal.NetValue

open Cert.KernelIdeal Cert.KernelIdeal.Gen Idealize.ShloMosaic Idealize.ShloMosaic.TcCoe Idealize.SL.Sem
  Idealize.ShloMosaic.ValueIdx
open Idealize.ShloMosaic.Pipeline (Dat)
open Cert.KernelIdeal.Blocks

variable (m : (ℓ : Loc nD τ sig) → Buf (Elt Ideal) ℓ) (ρ : Dev nD → PrngReg)

/-- The network of core `c`'s argument arrays. -/
abbrev netOf (c : Dev nD) : S8192x1.Idx → EReal :=
  PolyNet.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-! ## What a grid point writes back, and the whole array -/

/-- Point `t` writes back block `t` of the network of the argument arrays. -/
theorem flushed_eq (c : Dev nD) (t : Fin cfg0.N) :
    (dats m 0 c).flushed 21 t = ((cfg0.win 21).blk t).view.read (Elt Ideal) (netOf m c) := by
  rw [Value.flushed21]
  funext y
  have ht : t.val < 64 := t.isLt
  have hp : (y 0).val < 128 := (y 0).isLt
  have hy : y = ix2 (⟨(y 0).val, hp⟩ : Fin 128) (0 : Fin 1) := by
    funext a
    match a with
    | ⟨0, _⟩ => rfl
    | ⟨1, _⟩ => exact Fin.ext (by have h1 : (y 1).val < 1 := (y 1).isLt; show (y 1).val = 0; omega)
  show out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) y
      = netOf m c (((cfg0.win 21).blk t).view.emb y)
  obtain ⟨-, -, e2, e3⟩ := moving_idx t
  have hemb : ((cfg0.win 21).blk t).view.emb y = ix2 (⟨t.val * 128 + (y 0).val, by omega⟩ : Fin 8192) (0 : Fin 1) := by
    funext a
    match a with
    | ⟨0, _⟩ => exact Fin.ext (by show win0_21.index t (0 : Fin 2) * 128 + 1 * (y 0).val = t.val * 128 + (y 0).val; rw [e2]; omega)
    | ⟨1, _⟩ => exact Fin.ext (by have h1 : (y 1).val < 1 := (y 1).isLt; show win0_21.index t (1 : Fin 2) * 1 + 1 * (y 1).val = 0; rw [e3]; omega)
  rw [hemb]
  refine (congrArg _ hy).trans ?_
  refine (Body.out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) ⟨(y 0).val, hp⟩).trans ?_
  rw [operand1 m c t, operand2 m c t, operand3 m c t, operand4 m c t, operand5 m c t, operand6 m c t, operand7 m c t, operand8 m c t, operand9 m c t, operand10 m c t, operand11 m c t, operand12 m c t, operand13 m c t, operand14 m c t, operand15 m c t, operand16 m c t, operand17 m c t, operand18 m c t, operand19 m c t, operand20 m c t]
  show _ = PolyNet.rowNet _ _ _ _ _ _ _ _ _ _ _ _ _ _ _ _ _ _ _ _ _
  congr 1
  funext k
  exact operand0 m c t ⟨(y 0).val, hp⟩ k (by omega)

/-- The result array after the run. -/
theorem final (c : Dev nD) : (dats m 0 c).arrAt 21 cfg0.N = netOf m c :=
  (dats m 0 c).arrAt_eq_of_cover 21 (netOf m c) (fun t _ => flushed_eq m c t) cover

/-- The kernel's run, its result array named. -/
theorem run : θ_run defs (onTc (τ := τ) (main (F := Ideal))) ⟨m, fun _ => 0, ρ⟩ fun r => ∀ c : Dev nD,
      r.2.mem ((c : Thread nD τ).loc main_v72) = netOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final m c), (h c).2⟩) (Value.run_blocks m ρ)

end Cert.KernelIdeal.NetValue

end
-- ==== Proof.RefStages.lean ====
/-
  The reference's computation, named stage by stage: the constant input column `1 * bias0`, a bias spread over the
  batch, layer 1, the head `[1 * bias0, u]` that every later layer's input begins with, the flattened outer product,
  layers 2 and 3, the final projection, and the whole result as their composition. Each is the reference's own
  operations, in its order; nothing is rearranged here.
-/
import proofs.«133583_j90297392431134_1_alg».proof.Proof.Gen.ReferenceIdeal

noncomputable section

namespace Cert.ReferenceIdeal.Stages

open Cert.ReferenceIdeal Cert.ReferenceIdeal.Gen Idealize.ShloMosaic

variable {F : FTy → Type} [FloatOps F]

/-- The constant input column: `1 * bias0` in every row. -/
def ones (b₀ : FVec F S_ .f32) : FVec F S8192x1 .f32 :=
  mulf (broadcastInDim S8192x1 ![] bcast_S_S8192x1 (constant S_ .f32 0x3F800000#32)) (broadcastInDim S8192x1 ![] bcast_S_S8192x1 b₀)

/-- A 128-vector spread over the batch. -/
def bias128 (b : FVec F S128 .f32) : FVec F S8192x128 .f32 :=
  broadcastInDim S8192x128 ![0, 1] bcast_S1x128_S8192x128_0_1 (broadcastInDim S1x128 ![1] bcast_S128_S1x128_1 b)

/-- Layer 1: `[1 * bias0, X] · W + b`. -/
def lay1 (X : FVec F S8192x64 .f32) (b₀ : FVec F S_ .f32) (W : FVec F S65x128 .f32) (b : FVec F S128 .f32) :
    FVec F S8192x128 .f32 :=
  addf (Host.dotGeneral dot_S8192x65_S65x128_S8192x128_1_0_0_1_n_n none
      (concatenate S8192x65 1 [⟨S8192x1, ones b₀⟩, ⟨S8192x64, X⟩] concatenates_S8192x1_S8192x64_S8192x65_d1) W)
    (bias128 b)

/-- `[1 * bias0, u]`: what every later layer's input begins with. -/
def head (b₀ : FVec F S_ .f32) (u : FVec F S8192x128 .f32) : FVec F S8192x129 .f32 :=
  concatenate S8192x129 1 [⟨S8192x1, ones b₀⟩, ⟨S8192x128, u⟩] concatenates_S8192x1_S8192x128_S8192x129_d1

/-- The outer product of each row of `u` with the same row of `v`, flattened row-major. -/
def outerArr (u v : FVec F S8192x128 .f32) : FVec F S8192x16384 .f32 :=
  shapeCast S8192x16384
    (mulf (broadcastInDim S8192x128x128 ![0, 1, 2] bcast_S8192x128x1_S8192x128x128_0_1_2
            (broadcastInDim S8192x128x1 ![0, 1] bcast_S8192x128_S8192x128x1_0_1 u))
          (broadcastInDim S8192x128x128 ![0, 1, 2] bcast_S8192x1x128_S8192x128x128_0_1_2
            (broadcastInDim S8192x1x128 ![0, 2] bcast_S8192x128_S8192x1x128_0_2 v)))
    shapeCasts_S8192x128x128_S8192x16384

/-- Layer 2: `[1 * bias0, u, o] · W + b`. -/
def lay2 (b₀ : FVec F S_ .f32) (u : FVec F S8192x128 .f32) (o : FVec F S8192x16384 .f32) (W : FVec F S16513x128 .f32)
    (b : FVec F S128 .f32) : FVec F S8192x128 .f32 :=
  addf (Host.dotGeneral dot_S8192x16513_S16513x128_S8192x128_1_0_0_1_n_n none
      (concatenate S8192x16513 1 [⟨S8192x129, head b₀ u⟩, ⟨S8192x16384, o⟩] concatenates_S8192x129_S8192x16384_S8192x16513_d1) W)
    (bias128 b)

/-- `[1 * bias0, u, v]`. -/
def head2 (b₀ : FVec F S_ .f32) (u v : FVec F S8192x128 .f32) : FVec F S8192x257 .f32 :=
  concatenate S8192x257 1 [⟨S8192x129, head b₀ u⟩, ⟨S8192x128, v⟩] concatenates_S8192x129_S8192x128_S8192x257_d1

/-- Layer 3: `[1 * bias0, u, v, o] · W + b`. -/
def lay3 (b₀ : FVec F S_ .f32) (u v : FVec F S8192x128 .f32) (o : FVec F S8192x16384 .f32) (W : FVec F S16641x128 .f32)
    (b : FVec F S128 .f32) : FVec F S8192x128 .f32 :=
  addf (Host.dotGeneral dot_S8192x16641_S16641x128_S8192x128_1_0_0_1_n_n none
      (concatenate S8192x16641 1 [⟨S8192x257, head2 b₀ u v⟩, ⟨S8192x16384, o⟩] concatenates_S8192x257_S8192x16384_S8192x16641_d1) W)
    (bias128 b)

/-- The two vanishing-branch outputs of layers 1 and 2, end to end. -/
def gpair (g₁ g₂ : FVec F S8192x128 .f32) : FVec F S8192x256 .f32 :=
  concatenate S8192x256 1 [⟨S8192x128, g₁⟩, ⟨S8192x128, g₂⟩] concatenates_S8192x128_S8192x128_S8192x256_d1

/-- The final projection: `[[1 * bias0, f₁, f₂, f₃], [g₁, g₂, g₃]] · W + b`, from the two concatenated halves. -/
def proj (fs : FVec F S8192x385 .f32) (gs : FVec F S8192x384 .f32) (W : FVec F S769x1 .f32) (b : FVec F S1 .f32) :
    FVec F S8192x1 .f32 :=
  addf (Host.dotGeneral dot_S8192x769_S769x1_S8192x1_1_0_0_1_n_n none
      (concatenate S8192x769 1 [⟨S8192x385, fs⟩, ⟨S8192x384, gs⟩] concatenates_S8192x385_S8192x384_S8192x769_d1) W)
    (broadcastInDim S8192x1 ![0, 1] bcast_S1x1_S8192x1_0_1 (broadcastInDim S1x1 ![1] bcast_S1_S1x1_1 b))

/-- `[1 * bias0, f₁, f₂, f₃]`. -/
def fcat (b₀ : FVec F S_ .f32) (f₁ f₂ f₃ : FVec F S8192x128 .f32) : FVec F S8192x385 .f32 :=
  concatenate S8192x385 1 [⟨S8192x257, head2 b₀ f₁ f₂⟩, ⟨S8192x128, f₃⟩] concatenates_S8192x257_S8192x128_S8192x385_d1

/-- `[g₁, g₂, g₃]`. -/
def gcat (g₁ g₂ g₃ : FVec F S8192x128 .f32) : FVec F S8192x384 .f32 :=
  concatenate S8192x384 1 [⟨S8192x256, gpair g₁ g₂⟩, ⟨S8192x128, g₃⟩] concatenates_S8192x256_S8192x128_S8192x384_d1

/-- The reference's result, from its arguments in order. -/
def whole (X : FVec F S8192x64 .f32) (b₀ : FVec F S_ .f32) (Wf₁ : FVec F S65x128 .f32) (bf₁ : FVec F S128 .f32)
    (Wg₁ : FVec F S65x128 .f32) (bg₁ : FVec F S128 .f32) (Wf₂ : FVec F S16513x128 .f32) (bf₂ : FVec F S128 .f32)
    (Wg₂ : FVec F S16513x128 .f32) (bg₂ : FVec F S128 .f32) (Wf₃ : FVec F S16641x128 .f32) (bf₃ : FVec F S128 .f32)
    (Wg₃ : FVec F S16641x128 .f32) (bg₃ : FVec F S128 .f32) (Wfc : FVec F S769x1 .f32) (bfc : FVec F S1 .f32) :
    FVec F S8192x1 .f32 :=
  let f₁ := lay1 X b₀ Wf₁ bf₁
  let g₁ := lay1 X b₀ Wg₁ bg₁
  let f₂ := lay2 b₀ f₁ (outerArr f₁ f₁) Wf₂ bf₂
  let g₂ := lay2 b₀ f₁ (outerArr f₁ f₁) Wg₂ bg₂
  let f₃ := lay3 b₀ f₁ f₂ (outerArr f₁ f₂) Wf₃ bf₃
  let g₃ := lay3 b₀ f₁ f₂ (outerArr f₁ f₂) Wg₃ bg₃
  proj (fcat b₀ f₁ f₂ f₃) (gcat g₁ g₂ g₃) Wfc bfc

end Cert.ReferenceIdeal.Stages

end
-- ==== Proof.RefRun.lean ====
/-
  The reference's run, read back in four stretches of its operation list: each stretch's results are the stage
  functions of Proof/RefStages.lean of what the stretch finds, and the arguments pass through every stretch unchanged;
  composed, the result buffer ends at `Stages.whole` of the arguments' launch contents.

  Stretch A (the constant column and layer 1 twice) hands on the column `1 * bias0`, both layer-1 outputs and the
  later layers' weights; stretch B (the head, the outer square of layer 1's first output, layer 2 twice) hands on the
  head, both layer-2 outputs and what A left for later; stretch C (the longer head, the pair of second-branch outputs,
  the outer product of the first outputs of layers 1 and 2, layer 3 twice) hands on the two partial rows and both
  layer-3 outputs; stretch D (the two full rows, their concatenation, the projection) writes the result. A buffer a
  stretch does not write keeps its contents across it. The composition substitutes each stretch's readings of the one
  before, innermost last: what remains is the stage functions nested exactly as `Stages.whole` nests them.
-/
import proofs.«133583_j90297392431134_1_alg».proof.Proof.RefOps
import proofs.«133583_j90297392431134_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operation list in four stretches -/

/-- Operations 1–13: the column `1 * bias0`, the layer-1 input `[1 * bias0, X]`, and layer 1 with each of its two
    weight–bias pairs. -/
abbrev opsA : List (HloOp τ sig (Elt F)) :=
  [ nullary main_cst (constant S_ .f32 0x3F800000#32),
    unary main_cst main_v0 (broadcastInDim S8192x1 ![] bcast_S_S8192x1 : (⟨S_, .f32⟩ : BufTy).Contents (Elt F) → (⟨S8192x1, .f32⟩ : BufTy).Contents (Elt F)),
    unary main_arg1 main_v1 (broadcastInDim S8192x1 ![] bcast_S_S8192x1 : (⟨S_, .f32⟩ : BufTy).Contents (Elt F) → (⟨S8192x1, .f32⟩ : BufTy).Contents (Elt F)),
    binary main_v0 main_v1 main_v2 (mulf : (⟨S8192x1, .f32⟩ : BufTy).Contents (Elt F) → (⟨S8192x1, .f32⟩ : BufTy).Contents (Elt F) → (⟨S8192x1, .f32⟩ : BufTy).Contents (Elt F)),
    binary main_v2 main_arg0 main_v3 ((fun a b => concatenate S8192x65 1 [⟨S8192x1, a⟩, ⟨S8192x64, b⟩] concatenates_S8192x1_S8192x64_S8192x65_d1) : (⟨S8192x1, .f32⟩ : BufTy).Contents (Elt F) → (⟨S8192x64, .f32⟩ : BufTy).Contents (Elt F) → (⟨S8192x65, .f32⟩ : BufTy).Contents (Elt F)),
    binary main_v3 main_arg4 main_v4 ((fun l r => Host.dotGeneral dot_S8192x65_S65x128_S8192x128_1_0_0_1_n_n none l r) : (⟨S8192x65, .f32⟩ : BufTy).Contents (Elt F) → (⟨S65x128, .f32⟩ : BufTy).Contents (Elt F) → (⟨S8192x128, .f32⟩ : BufTy).Contents (Elt F)),
    unary main_arg5 main_v5 (broadcastInDim S1x128 ![1] bcast_S128_S1x128_1 : (⟨S128, .f32⟩ : BufTy).Contents (Elt F) → (⟨S1x128, .f32⟩ : BufTy).Contents (Elt F)),
    unary main_v5 main_v6 (broadcastInDim S8192x128 ![0, 1] bcast_S1x128_S8192x128_0_1 : (⟨S1x128, .f32⟩ : BufTy).Contents (Elt F) → (⟨S8192x128, .f32⟩ : BufTy).Contents (Elt F)),
    binary main_v4 main_v6 main_v7 (addf : (⟨S8192x128, .f32⟩ : BufTy).Contents (Elt F) → (⟨S8192x128, .f32⟩ : BufTy).Contents (Elt F) → (⟨S8192x128, .f32⟩ : BufTy).Contents (Elt F)),
    binary main_v3 main_arg2 main_v8 ((fun l r => Host.dotGeneral dot_S8192x65_S65x128_S8192x128_1_0_0_1_n_n none l r) : (⟨S8192x65, .f32⟩ : BufTy).Contents (Elt F) → (⟨S65x128, .f32⟩ : BufTy).Contents (Elt F) → (⟨S8192x128, .f32⟩ : BufTy).Contents (Elt F)),
    unary main_arg3 main_v9 (broadcastInDim S1x128 ![1] bcast_S128_S1x128_1 : (⟨S128, .f32⟩ : BufTy).Contents (Elt F) → (⟨S1x128, .f32⟩ : BufTy).Contents (Elt F)),
    unary main_v9 main_v10 (broadcastInDim S8192x128 ![0, 1] bcast_S1x128_S8192x128_0_1 : (⟨S1x128, .f32⟩ : BufTy).Contents (Elt F) → (⟨S8192x128, .f32⟩ : BufTy).Contents (Elt F)),
    binary main_v8 main_v10 main_v11 (addf : (⟨S8192x128, .f32⟩ : BufTy).Contents (Elt F) → (⟨S8192x128, .f32⟩ : BufTy).Contents (Elt F) → (⟨S8192x128, .f32⟩ : BufTy).Contents (Elt F)) ]

/-- Operations 14–29: the head `[1 * bias0, f₁]`, the flattened outer square of `f₁`, the layer-2 input, and layer 2
    with each of its two weight–bias pairs. -/
abbrev opsB : List (HloOp τ sig (Elt F)) :=
  [ binary main_v2 main_v11 main_v12 ((fun a b => concatenate S8192x129 1 [⟨S8192x1, a⟩, ⟨S8192x128, b⟩] concatenates_S8192x1_S8192x128_S8192x129_d1) : (⟨S8192x1, .f32⟩ : BufTy).Contents (Elt F) → (⟨S8192x128, .f32⟩ : BufTy).Contents (Elt F) → (⟨S8192x129, .f32⟩ : BufTy).Contents (Elt F)),
    unary main_v11 main_v13 (broadcastInDim S8192x128x1 ![0, 1] bcast_S8192x128_S8192x128x1_0_1 : (⟨S8192x128, .f32⟩ : BufTy).Contents (Elt F) → (⟨S8192x128x1, .f32⟩ : BufTy).Contents (Elt F)),
    unary main_v11 main_v14 (broadcastInDim S8192x1x128 ![0, 2] bcast_S8192x128_S8192x1x128_0_2 : (⟨S8192x128, .f32⟩ : BufTy).Contents (Elt F) → (⟨S8192x1x128, .f32⟩ : BufTy).Contents (Elt F)),
    unary main_v13 main_v15 (broadcastInDim S8192x128x128 ![0, 1, 2] bcast_S8192x128x1_S8192x128x128_0_1_2 : (⟨S8192x128x1, .f32⟩ : BufTy).Contents (Elt F) → (⟨S8192x128x128, .f32⟩ : BufTy).Contents (Elt F)),
    unary main_v14 main_v16 (broadcastInDim S8192x128x128 ![0, 1, 2] bcast_S8192x1x128_S8192x128x128_0_1_2 : (⟨S8192x1x128, .f32⟩ : BufTy).Contents (Elt F) → (⟨S8192x128x128, .f32⟩ : BufTy).Contents (Elt F)),
    binary main_v15 main_v16 main_v17 (mulf : (⟨S8192x128x128, .f32⟩ : BufTy).Contents (Elt F) → (⟨S8192x128x128, .f32⟩ : BufTy).Contents (Elt F) → (⟨S8192x128x128, .f32⟩ : BufTy).Contents (Elt F)),
    reshape main_v17 main_v18 rfl shapeCasts_S8192x128x128_S8192x16384,
    binary main_v12 main_v18 main_v19 ((fun a b => concatenate S8192x16513 1 [⟨S8192x129, a⟩, ⟨S8192x16384, b⟩] concatenates_S8192x129_S8192x16384_S8192x16513_d1) : (⟨S8192x129, .f32⟩ : BufTy).Contents (Elt F) → (⟨S8192x16384, .f32⟩ : BufTy).Contents (Elt F) → (⟨S8192x16513, .f32⟩ : BufTy).Contents (Elt F)),
    binary main_v19 main_arg6 main_v20 ((fun l r => Host.dotGeneral dot_S8192x16513_S16513x128_S8192x128_1_0_0_1_n_n none l r) : (⟨S8192x16513, .f32⟩ : BufTy).Contents (Elt F) → (⟨S16513x128, .f32⟩ : BufTy).Contents (Elt F) → (⟨S8192x128, .f32⟩ : BufTy).Contents (Elt F)),
    unary main_arg7 main_v21 (broadcastInDim S1x128 ![1] bcast_S128_S1x128_1 : (⟨S128, .f32⟩ : BufTy).Contents (Elt F) → (⟨S1x128, .f32⟩ : BufTy).Contents (Elt F)),
    unary main_v21 main_v22 (broadcastInDim S8192x128 ![0, 1] bcast_S1x128_S8192x128_0_1 : (⟨S1x128, .f32⟩ : BufTy).Contents (Elt F) → (⟨S8192x128, .f32⟩ : BufTy).Contents (Elt F)),
    binary main_v20 main_v22 main_v23 (addf : (⟨S8192x128, .f32⟩ : BufTy).Contents (Elt F) → (⟨S8192x128, .f32⟩ : BufTy).Contents (Elt F) → (⟨S8192x128, .f32⟩ : BufTy).Contents (Elt F)),
    binary main_v19 main_arg8 main_v24 ((fun l r => Host.dotGeneral dot_S8192x16513_S16513x128_S8192x128_1_0_0_1_n_n none l r) : (⟨S8192x16513, .f32⟩ : BufTy).Contents (Elt F) → (⟨S16513x128, .f32⟩ : BufTy).Contents (Elt F) → (⟨S8192x128, .f32⟩ : BufTy).Contents (Elt F)),
    unary main_arg9 main_v25 (broadcastInDim S1x128 ![1] bcast_S128_S1x128_1 : (⟨S128, .f32⟩ : BufTy).Contents (Elt F) → (⟨S1x128, .f32⟩ : BufTy).Contents (Elt F)),
    unary main_v25 main_v26 (broadcastInDim S8192x128 ![0, 1] bcast_S1x128_S8192x128_0_1 : (⟨S1x128, .f32⟩ : BufTy).Contents (Elt F) → (⟨S8192x128, .f32⟩ : BufTy).Contents (Elt F)),
    binary main_v24 main_v26 main_v27 (addf : (⟨S8192x128, .f32⟩ : BufTy).Contents (Elt F) → (⟨S8192x128, .f32⟩ : BufTy).Contents (Elt F) → (⟨S8192x128, .f32⟩ : BufTy).Contents (Elt F)) ]

/-- Operations 30–46: the head `[1 * bias0, f₁, f₂]`, the pair `[g₁, g₂]`, the flattened outer product of `f₁` and
    `f₂`, the layer-3 input, and layer 3 with each of its two weight–bias pairs. -/
abbrev opsC : List (HloOp τ sig (Elt F)) :=
  [ binary main_v12 main_v23 main_v28 ((fun a b => concatenate S8192x257 1 [⟨S8192x129, a⟩, ⟨S8192x128, b⟩] concatenates_S8192x129_S8192x128_S8192x257_d1) : (⟨S8192x129, .f32⟩ : BufTy).Contents (Elt F) → (⟨S8192x128, .f32⟩ : BufTy).Contents (Elt F) → (⟨S8192x257, .f32⟩ : BufTy).Contents (Elt F)),
    binary main_v7 main_v27 main_v29 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)),
    unary main_v11 main_v30 (broadcastInDim S8192x128x1 ![0, 1] bcast_S8192x128_S8192x128x1_0_1 : (⟨S8192x128, .f32⟩ : BufTy).Contents (Elt F) → (⟨S8192x128x1, .f32⟩ : BufTy).Contents (Elt F)),
    unary main_v23 main_v31 (broadcastInDim S8192x1x128 ![0, 2] bcast_S8192x128_S8192x1x128_0_2 : (⟨S8192x128, .f32⟩ : BufTy).Contents (Elt F) → (⟨S8192x1x128, .f32⟩ : BufTy).Contents (Elt F)),
    unary main_v30 main_v32 (broadcastInDim S8192x128x128 ![0, 1, 2] bcast_S8192x128x1_S8192x128x128_0_1_2 : (⟨S8192x128x1, .f32⟩ : BufTy).Contents (Elt F) → (⟨S8192x128x128, .f32⟩ : BufTy).Contents (Elt F)),
    unary main_v31 main_v33 (broadcastInDim S8192x128x128 ![0, 1, 2] bcast_S8192x1x128_S8192x128x128_0_1_2 : (⟨S8192x1x128, .f32⟩ : BufTy).Contents (Elt F) → (⟨S8192x128x128, .f32⟩ : BufTy).Contents (Elt F)),
    binary main_v32 main_v33 main_v34 (mulf : (⟨S8192x128x128, .f32⟩ : BufTy).Contents (Elt F) → (⟨S8192x128x128, .f32⟩ : BufTy).Contents (Elt F) → (⟨S8192x128x128, .f32⟩ : BufTy).Contents (Elt F)),
    reshape main_v34 main_v35 rfl shapeCasts_S8192x128x128_S8192x16384,
    binary main_v28 main_v35 main_v36 ((fun a b => concatenate S8192x16641 1 [⟨S8192x257, a⟩, ⟨S8192x16384, b⟩] concatenates_S8192x257_S8192x16384_S8192x16641_d1) : (⟨S8192x257, .f32⟩ : BufTy).Contents (Elt F) → (⟨S8192x16384, .f32⟩ : BufTy).Contents (Elt F) → (⟨S8192x16641, .f32⟩ : BufTy).Contents (Elt F)),
    binary main_v36 main_arg10 main_v37 ((fun l r => Host.dotGeneral dot_S8192x16641_S16641x128_S8192x128_1_0_0_1_n_n none l r) : (⟨S8192x16641, .f32⟩ : BufTy).Contents (Elt F) → (⟨S16641x128, .f32⟩ : BufTy).Contents (Elt F) → (⟨S8192x128, .f32⟩ : BufTy).Contents (Elt F)),
    unary main_arg11 main_v38 (broadcastInDim S1x128 ![1] bcast_S128_S1x128_1 : (⟨S128, .f32⟩ : BufTy).Contents (Elt F) → (⟨S1x128, .f32⟩ : BufTy).Contents (Elt F)),
    unary main_v38 main_v39 (broadcastInDim S8192x128 ![0, 1] bcast_S1x128_S8192x128_0_1 : (⟨S1x128, .f32⟩ : BufTy).Contents (Elt F) → (⟨S8192x128, .f32⟩ : BufTy).Contents (Elt F)),
    binary main_v37 main_v39 main_v40 (addf : (⟨S8192x128, .f32⟩ : BufTy).Contents (Elt F) → (⟨S8192x128, .f32⟩ : BufTy).Contents (Elt F) → (⟨S8192x128, .f32⟩ : BufTy).Contents (Elt F)),
    binary main_v36 main_arg12 main_v41 ((fun l r => Host.dotGeneral dot_S8192x16641_S16641x128_S8192x128_1_0_0_1_n_n none l r) : (⟨S8192x16641, .f32⟩ : BufTy).Contents (Elt F) → (⟨S16641x128, .f32⟩ : BufTy).Contents (Elt F) → (⟨S8192x128, .f32⟩ : BufTy).Contents (Elt F)),
    unary main_arg13 main_v42 (broadcastInDim S1x128 ![1] bcast_S128_S1x128_1 : (⟨S128, .f32⟩ : BufTy).Contents (Elt F) → (⟨S1x128, .f32⟩ : BufTy).Contents (Elt F)),
    unary main_v42 main_v43 (broadcastInDim S8192x128 ![0, 1] bcast_S1x128_S8192x128_0_1 : (⟨S1x128, .f32⟩ : BufTy).Contents (Elt F) → (⟨S8192x128, .f32⟩ : BufTy).Contents (Elt F)),
    binary main_v41 main_v43 main_v44 (addf : (⟨S8192x128, .f32⟩ : BufTy).Contents (Elt F) → (⟨S8192x128, .f32⟩ : BufTy).Contents (Elt F) → (⟨S8192x128, .f32⟩ : BufTy).Contents (Elt F)) ]

/-- Operations 47–53: the rows `[1 * bias0, f₁, f₂, f₃]` and `[g₁, g₂, g₃]`, their concatenation, and the projection. -/
abbrev opsD : List (HloOp τ sig (Elt F)) :=
  [ binary main_v28 main_v40 main_v45 ((fun a b => concatenate S8192x385 1 [⟨S8192x257, a⟩, ⟨S8192x128, b⟩] concatenates_S8192x257_S8192x128_S8192x385_d1) : (⟨S8192x257, .f32⟩ : BufTy).Contents (Elt F) → (⟨S8192x128, .f32⟩ : BufTy).Contents (Elt F) → (⟨S8192x385, .f32⟩ : BufTy).Contents (Elt F)),
    binary main_v29 main_v44 main_v46 ((fun a b => concatenate S8192x384 1 [⟨S8192x256, a⟩, ⟨S8192x128, b⟩] concatenates_S8192x256_S8192x128_S8192x384_d1) : (⟨S8192x256, .f32⟩ : BufTy).Contents (Elt F) → (⟨S8192x128, .f32⟩ : BufTy).Contents (Elt F) → (⟨S8192x384, .f32⟩ : BufTy).Contents (Elt F)),
    binary main_v45 main_v46 main_v47 ((fun a b => concatenate S8192x769 1 [⟨S8192x385, a⟩, ⟨S8192x384, b⟩] concatenates_S8192x385_S8192x384_S8192x769_d1) : (⟨S8192x385, .f32⟩ : BufTy).Contents (Elt F) → (⟨S8192x384, .f32⟩ : BufTy).Contents (Elt F) → (⟨S8192x769, .f32⟩ : BufTy).Contents (Elt F)),
    binary main_v47 main_arg14 main_v48 ((fun l r => Host.dotGeneral dot_S8192x769_S769x1_S8192x1_1_0_0_1_n_n none l r) : (⟨S8192x769, .f32⟩ : BufTy).Contents (Elt F) → (⟨S769x1, .f32⟩ : BufTy).Contents (Elt F) → (⟨S8192x1, .f32⟩ : BufTy).Contents (Elt F)),
    unary main_arg15 main_v49 (broadcastInDim S1x1 ![1] bcast_S1_S1x1_1 : (⟨S1, .f32⟩ : BufTy).Contents (Elt F) → (⟨S1x1, .f32⟩ : BufTy).Contents (Elt F)),
    unary main_v49 main_v50 (broadcastInDim S8192x1 ![0, 1] bcast_S1x1_S8192x1_0_1 : (⟨S1x1, .f32⟩ : BufTy).Contents (Elt F) → (⟨S8192x1, .f32⟩ : BufTy).Contents (Elt F)),
    binary main_v48 main_v50 main_v51 (addf : (⟨S8192x1, .f32⟩ : BufTy).Contents (Elt F) → (⟨S8192x1, .f32⟩ : BufTy).Contents (Elt F) → (⟨S8192x1, .f32⟩ : BufTy).Contents (Elt F)) ]

/-- The reference's operations are the four stretches in a row. -/
theorem ops_split : (Ops.ops : List (HloOp τ sig (Elt F))) = opsA ++ (opsB ++ (opsC ++ opsD)) := rfl

/-- The contents after two lines in a row: the second line's, from the first line's. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-! ## What each stretch leaves alone -/

/-- The buffers each stretch writes: one per operation, in order. -/
abbrev wA : List (Ref sig .tc) := [main_cst, main_v0, main_v1, main_v2, main_v3, main_v4, main_v5, main_v6, main_v7, main_v8, main_v9, main_v10, main_v11]
abbrev wB : List (Ref sig .tc) := [main_v12, main_v13, main_v14, main_v15, main_v16, main_v17, main_v18, main_v19, main_v20, main_v21, main_v22, main_v23, main_v24, main_v25, main_v26, main_v27]
abbrev wC : List (Ref sig .tc) := [main_v28, main_v29, main_v30, main_v31, main_v32, main_v33, main_v34, main_v35, main_v36, main_v37, main_v38, main_v39, main_v40, main_v41, main_v42, main_v43, main_v44]
abbrev wD : List (Ref sig .tc) := [main_v45, main_v46, main_v47, main_v48, main_v49, main_v50, main_v51]

/-- A single buffer of a list is within the list's buffers. -/
private theorem single_sub {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-- Stretch A leaves every buffer it does not write as it found it. -/
theorem keepA {r : Ref sig .tc} (hr : r ∉ (wA : List (Ref sig .tc))) (W : Valuation τ sig (Elt F)) :
    after opsA W (Proc.devRef .tc r) = W (Proc.devRef .tc r) :=
  after_of_writes_sub opsA W ⟨single_sub (by decide), single_sub (by decide), single_sub (by decide), single_sub (by decide), single_sub (by decide), single_sub (by decide), single_sub (by decide), single_sub (by decide), single_sub (by decide), single_sub (by decide), single_sub (by decide), single_sub (by decide), single_sub (by decide)⟩ hr

/-- Stretch B leaves every buffer it does not write as it found it. -/
theorem keepB {r : Ref sig .tc} (hr : r ∉ (wB : List (Ref sig .tc))) (W : Valuation τ sig (Elt F)) :
    after opsB W (Proc.devRef .tc r) = W (Proc.devRef .tc r) :=
  after_of_writes_sub opsB W ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩ hr

/-- Stretch C leaves every buffer it does not write as it found it. -/
theorem keepC {r : Ref sig .tc} (hr : r ∉ (wC : List (Ref sig .tc))) (W : Valuation τ sig (Elt F)) :
    after opsC W (Proc.devRef .tc r) = W (Proc.devRef .tc r) :=
  after_of_writes_sub opsC W ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩ hr

/-- Stretch D leaves every buffer it does not write as it found it. -/
theorem keepD {r : Ref sig .tc} (hr : r ∉ (wD : List (Ref sig .tc))) (W : Valuation τ sig (Elt F)) :
    after opsD W (Proc.devRef .tc r) = W (Proc.devRef .tc r) :=
  after_of_writes_sub opsD W ⟨single_sub (by decide), single_sub (by decide), single_sub (by decide), single_sub (by decide), single_sub (by decide), single_sub (by decide), single_sub (by decide)⟩ hr

/-! ## What each stretch computes, from what it finds -/

/-- Stretch A leaves the column `1 * bias0` in `main_v2`. -/
theorem A_v2 (W : Valuation τ sig (Elt F)) :
    after opsA W (Proc.devRef .tc main_v2) = Stages.ones (W (Proc.devRef .tc main_arg1)) := by
  after_results <;> rfl

/-- Stretch A leaves layer 1 under the second weight–bias pair in `main_v7`. -/
theorem A_v7 (W : Valuation τ sig (Elt F)) :
    after opsA W (Proc.devRef .tc main_v7)
      = Stages.lay1 (W (Proc.devRef .tc main_arg0)) (W (Proc.devRef .tc main_arg1)) (W (Proc.devRef .tc main_arg4)) (W (Proc.devRef .tc main_arg5)) := by
  after_results <;> rfl

/-- Stretch A leaves layer 1 under the first weight–bias pair in `main_v11`. -/
theorem A_v11 (W : Valuation τ sig (Elt F)) :
    after opsA W (Proc.devRef .tc main_v11)
      = Stages.lay1 (W (Proc.devRef .tc main_arg0)) (W (Proc.devRef .tc main_arg1)) (W (Proc.devRef .tc main_arg2)) (W (Proc.devRef .tc main_arg3)) := by
  after_results <;> rfl

/-- Stretch B leaves the head, of the column and the layer-1 output it finds, in `main_v12`. -/
theorem B_v12 (W : Valuation τ sig (Elt F)) :
    after opsB W (Proc.devRef .tc main_v12)
      = (concatenate S8192x129 1 [⟨S8192x1, (W (Proc.devRef .tc main_v2))⟩, ⟨S8192x128, (W (Proc.devRef .tc main_v11))⟩] concatenates_S8192x1_S8192x128_S8192x129_d1) := by
  after_results <;> rfl

/-- Stretch B leaves layer 2 under the first weight–bias pair in `main_v23`. -/
theorem B_v23 (W : Valuation τ sig (Elt F)) :
    after opsB W (Proc.devRef .tc main_v23)
      = addf (Host.dotGeneral dot_S8192x16513_S16513x128_S8192x128_1_0_0_1_n_n none
        (concatenate S8192x16513 1 [⟨S8192x129, (concatenate S8192x129 1 [⟨S8192x1, (W (Proc.devRef .tc main_v2))⟩, ⟨S8192x128, (W (Proc.devRef .tc main_v11))⟩] concatenates_S8192x1_S8192x128_S8192x129_d1)⟩, ⟨S8192x16384, Stages.outerArr (W (Proc.devRef .tc main_v11)) (W (Proc.devRef .tc main_v11))⟩] concatenates_S8192x129_S8192x16384_S8192x16513_d1) (W (Proc.devRef .tc main_arg6)))
      (Stages.bias128 (W (Proc.devRef .tc main_arg7))) := by
  after_results <;> rfl

/-- Stretch B leaves layer 2 under the second weight–bias pair in `main_v27`. -/
theorem B_v27 (W : Valuation τ sig (Elt F)) :
    after opsB W (Proc.devRef .tc main_v27)
      = addf (Host.dotGeneral dot_S8192x16513_S16513x128_S8192x128_1_0_0_1_n_n none
        (concatenate S8192x16513 1 [⟨S8192x129, (concatenate S8192x129 1 [⟨S8192x1, (W (Proc.devRef .tc main_v2))⟩, ⟨S8192x128, (W (Proc.devRef .tc main_v11))⟩] concatenates_S8192x1_S8192x128_S8192x129_d1)⟩, ⟨S8192x16384, Stages.outerArr (W (Proc.devRef .tc main_v11)) (W (Proc.devRef .tc main_v11))⟩] concatenates_S8192x129_S8192x16384_S8192x16513_d1) (W (Proc.devRef .tc main_arg8)))
      (Stages.bias128 (W (Proc.devRef .tc main_arg9))) := by
  after_results <;> rfl

/-- Stretch C leaves the longer head, of the head and the layer-2 output it finds, in `main_v28`. -/
theorem C_v28 (W : Valuation τ sig (Elt F)) :
    after opsC W (Proc.devRef .tc main_v28)
      = (concatenate S8192x257 1 [⟨S8192x129, (W (Proc.devRef .tc main_v12))⟩, ⟨S8192x128, (W (Proc.devRef .tc main_v23))⟩] concatenates_S8192x129_S8192x128_S8192x257_d1) := by
  after_results <;> rfl

/-- Stretch C leaves the pair of second-branch outputs in `main_v29`. -/
theorem C_v29 (W : Valuation τ sig (Elt F)) :
    after opsC W (Proc.devRef .tc main_v29) = Stages.gpair (W (Proc.devRef .tc main_v7)) (W (Proc.devRef .tc main_v27)) := by
  after_results <;> rfl

/-- Stretch C leaves layer 3 under the first weight–bias pair in `main_v40`. -/
theorem C_v40 (W : Valuation τ sig (Elt F)) :
    after opsC W (Proc.devRef .tc main_v40)
      = addf (Host.dotGeneral dot_S8192x16641_S16641x128_S8192x128_1_0_0_1_n_n none
        (concatenate S8192x16641 1 [⟨S8192x257, (concatenate S8192x257 1 [⟨S8192x129, (W (Proc.devRef .tc main_v12))⟩, ⟨S8192x128, (W (Proc.devRef .tc main_v23))⟩] concatenates_S8192x129_S8192x128_S8192x257_d1)⟩, ⟨S8192x16384, Stages.outerArr (W (Proc.devRef .tc main_v11)) (W (Proc.devRef .tc main_v23))⟩] concatenates_S8192x257_S8192x16384_S8192x16641_d1) (W (Proc.devRef .tc main_arg10)))
      (Stages.bias128 (W (Proc.devRef .tc main_arg11))) := by
  after_results <;> rfl

set_option maxHeartbeats 1000000 in
/-- Stretch C leaves layer 3 under the second weight–bias pair in `main_v44`. -/
theorem C_v44 (W : Valuation τ sig (Elt F)) :
    after opsC W (Proc.devRef .tc main_v44)
      = addf (Host.dotGeneral dot_S8192x16641_S16641x128_S8192x128_1_0_0_1_n_n none
        (concatenate S8192x16641 1 [⟨S8192x257, (concatenate S8192x257 1 [⟨S8192x129, (W (Proc.devRef .tc main_v12))⟩, ⟨S8192x128, (W (Proc.devRef .tc main_v23))⟩] concatenates_S8192x129_S8192x128_S8192x257_d1)⟩, ⟨S8192x16384, Stages.outerArr (W (Proc.devRef .tc main_v11)) (W (Proc.devRef .tc main_v23))⟩] concatenates_S8192x257_S8192x16384_S8192x16641_d1) (W (Proc.devRef .tc main_arg12)))
      (Stages.bias128 (W (Proc.devRef .tc main_arg13))) := by
  after_results <;> rfl

/-- Stretch D leaves the projection of the two rows it assembles in `main_v51`. -/
theorem D_v51 (W : Valuation τ sig (Elt F)) :
    after opsD W (Proc.devRef .tc main_v51)
      = Stages.proj
          (concatenate S8192x385 1 [⟨S8192x257, (W (Proc.devRef .tc main_v28))⟩, ⟨S8192x128, (W (Proc.devRef .tc main_v40))⟩] concatenates_S8192x257_S8192x128_S8192x385_d1)
          (concatenate S8192x384 1 [⟨S8192x256, (W (Proc.devRef .tc main_v29))⟩, ⟨S8192x128, (W (Proc.devRef .tc main_v44))⟩] concatenates_S8192x256_S8192x128_S8192x384_d1)
          (W (Proc.devRef .tc main_arg14)) (W (Proc.devRef .tc main_arg15)) := by
  after_results <;> rfl

/-! ## The composition -/

/-- From any contents, the whole line leaves the stages' composition of the arguments in the result buffer: stretch D's
    projection of C's rows, C's layer 3 of B's head and layer-2 outputs, B's layer 2 of A's column and layer-1 outputs,
    each weight and bias read where the earlier stretches left it untouched. -/
theorem fold_v51 (V : Valuation τ sig (Elt F)) :
    after Ops.ops V (Proc.devRef .tc main_v51)
      = Stages.whole (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  rw [ops_split, after_append, after_append, after_append, D_v51,
    C_v28, C_v29, C_v40, C_v44, keepC (r := main_arg14) (by decide), keepC (r := main_arg15) (by decide),
    B_v12, B_v23, B_v27, keepB (r := main_v7) (by decide), keepB (r := main_v11) (by decide), keepB (r := main_arg10) (by decide), keepB (r := main_arg11) (by decide), keepB (r := main_arg12) (by decide), keepB (r := main_arg13) (by decide), keepB (r := main_arg14) (by decide), keepB (r := main_arg15) (by decide),
    A_v2, A_v7, A_v11, keepA (r := main_arg6) (by decide), keepA (r := main_arg7) (by decide), keepA (r := main_arg8) (by decide), keepA (r := main_arg9) (by decide), keepA (r := main_arg10) (by decide), keepA (r := main_arg11) (by decide), keepA (r := main_arg12) (by decide), keepA (r := main_arg13) (by decide), keepA (r := main_arg14) (by decide), keepA (r := main_arg15) (by decide)]
  rfl

/-- From any contents, the whole line leaves a buffer none of the four stretches writes as it found it. -/
theorem fold_keep {r : Ref sig .tc} (hA : r ∉ (wA : List (Ref sig .tc))) (hB : r ∉ (wB : List (Ref sig .tc)))
    (hC : r ∉ (wC : List (Ref sig .tc))) (hD : r ∉ (wD : List (Ref sig .tc))) (V : Valuation τ sig (Elt F)) :
    after Ops.ops V (Proc.devRef .tc r) = V (Proc.devRef .tc r) := by
  rw [ops_split, after_append, after_append, after_append, keepD hD, keepC hC, keepB hB, keepA hA]

set_option maxHeartbeats 2000000 in
set_option maxRecDepth 8192 in
/-- Every weakly fair execution of the reference terminates with its result at the stages' composition of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51) = Stages.whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v51).trans (fold_v51 _),
      (h c main_arg0).trans (fold_keep (by decide) (by decide) (by decide) (by decide) _),
      (h c main_arg1).trans (fold_keep (by decide) (by decide) (by decide) (by decide) _),
      (h c main_arg2).trans (fold_keep (by decide) (by decide) (by decide) (by decide) _),
      (h c main_arg3).trans (fold_keep (by decide) (by decide) (by decide) (by decide) _),
      (h c main_arg4).trans (fold_keep (by decide) (by decide) (by decide) (by decide) _),
      (h c main_arg5).trans (fold_keep (by decide) (by decide) (by decide) (by decide) _),
      (h c main_arg6).trans (fold_keep (by decide) (by decide) (by decide) (by decide) _),
      (h c main_arg7).trans (fold_keep (by decide) (by decide) (by decide) (by decide) _),
      (h c main_arg8).trans (fold_keep (by decide) (by decide) (by decide) (by decide) _),
      (h c main_arg9).trans (fold_keep (by decide) (by decide) (by decide) (by decide) _),
      (h c main_arg10).trans (fold_keep (by decide) (by decide) (by decide) (by decide) _),
      (h c main_arg11).trans (fold_keep (by decide) (by decide) (by decide) (by decide) _),
      (h c main_arg12).trans (fold_keep (by decide) (by decide) (by decide) (by decide) _),
      (h c main_arg13).trans (fold_keep (by decide) (by decide) (by decide) (by decide) _),
      (h c main_arg14).trans (fold_keep (by decide) (by decide) (by decide) (by decide) _),
      (h c main_arg15).trans (fold_keep (by decide) (by decide) (by decide) (by decide) _)⟩)
    (run_seq Ops.scopedRefs_eq Ops.scopedSems_eq defs main (fun _ => Ops.ops) Ops.main_eq (fun _ => Ops.ops_sub) m ρ)

end Cert.ReferenceIdeal.RefRun

end
-- ==== Proof.LibHostRows.lean ====
/-
  Row-wise readings of the host program's operations, at an index written with the coordinate constructors: a plain
  `dot_general` at `(p, q)` is the sum over the contracted coordinate; a sum (a maximum) over the second axis at row `p`
  is the initial value plus the row's sum (the fold of `max` from the initial value over the row); and the
  `broadcast_in_dim` forms a keepdims reduction and a bias need: a scalar spread over any shape, a vector made a column
  or a row, a column or a row spread over a matrix.
-/
import proofs.«133583_j90297392431134_1_alg».proof.Proof.LibRowOps
import Idealize.ShloMosaic.Lib.Pipeline.Value

namespace Cert.LibHostRows

open Idealize.ShloMosaic Idealize.ShloMosaic.ValueIdx

/-! ## The host's pointwise operations -/

section Pointwise
variable {s : Shape} {φ : FTy}

theorem hostDivf_apply (x y : FVec Ideal s φ) (i : s.Idx) : Host.divf x y i = Ideal.div (x i) (y i) := rfl
theorem hostSqrt_apply (x : FVec Ideal s φ) (i : s.Idx) : Host.sqrt x i = Ideal.sqrt (x i) := rfl
theorem hostExp_apply (x : FVec Ideal s φ) (i : s.Idx) : Host.exp x i = Ideal.exp (x i) := rfl
theorem hostLog_apply (x : FVec Ideal s φ) (i : s.Idx) : Host.log x i = Ideal.log (x i) := rfl

end Pointwise

/-! ## The host's matrix product -/

/-- A plain `dot_general` of an `[M, K]` by a `[K, N]` array, at `(p, q)`. -/
theorem dotGeneral_plain_apply (M K N : ℕ) {φ₁ φ₂ : FTy} (sched : HostSchedule) (l : FVec Ideal ⟨2, ![M, K]⟩ φ₁)
    (r : FVec Ideal ⟨2, ![K, N]⟩ φ₂) (p : Fin M) (q : Fin N) :
    FloatOps.dotGeneral (DotDims.plain M K N) none sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact LibRowOps.plain_lhs_row M K N _ _
      | ⟨1, _⟩ => exact (LibRowOps.plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (LibRowOps.plain_rhs_contr M K N _ _).trans hk
      | ⟨1, _⟩ => exact LibRowOps.plain_rhs_col M K N _ _)
  rw [el, er]

/-! ## The host's reductions along the rows of a matrix -/

section Rows
variable {a b : ℕ} {φ : FTy} {u : Shape}

/-- The host's sum over the second axis, at row `p`: the initial value plus the sum of the row's entries. -/
theorem hostRowSum_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (p : Fin a) :
    Host.reduceAdd x init h' hu (ix1 p) = init (Shape.Idx.first hu) + ∑ k : Fin b, x (ix2 p k) := by
  unfold Host.reduceAdd
  rw [Ideal.hostReduceAdd_def, Ideal.hostReduceAdd_single h' h]
  exact congrArg (_ + ·) (Finset.sum_congr rfl fun k _ => congrArg x (LibRowOps.lift_row h p k))

/-- The host's maximum over the second axis, at row `p`: the fold of `max` from the initial value over the row's entries. -/
theorem hostRowMax_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (p : Fin a) :
    Host.reduce (FloatOps.maximumf (F := Ideal) (φ := φ)) x init h' hu (ix1 p)
      = (Finset.univ : Finset (Fin b)).fold max (init (Shape.Idx.first hu)) (fun k => x (ix2 p k)) := by
  rw [Host.reduce_eq_fold_single (FloatOps.maximumf (F := Ideal) (φ := φ)) x init h' h hu (ix1 p)]
  exact congrArg (Finset.fold max (init (Shape.Idx.first hu)) · Finset.univ) (funext fun k => congrArg x (LibRowOps.lift_row h p k))

end Rows

/-! ## `broadcast_in_dim` -/

section Bcast
variable {α : Type} {a b : ℕ}

/-- A scalar spread over any shape reads the scalar everywhere. -/
theorem bcast_scalar_apply {t : Shape} (h : (⟨0, ![]⟩ : Shape).BroadcastsInDim t ![]) (v : (⟨0, ![]⟩ : Shape).Idx → α) (j : t.Idx) :
    broadcastInDim t ![] h v j = v ix0 :=
  broadcastInDim_apply ![] h v j ix0 fun ax => ax.elim0

/-- A vector `[a]` made a column `[a, 1]` reads, at `(p, u)`, the vector at `p`. -/
theorem bcast_vec_col_apply (h : (⟨1, ![a]⟩ : Shape).BroadcastsInDim ⟨2, ![a, 1]⟩ ![0]) (v : (⟨1, ![a]⟩ : Shape).Idx → α)
    (p : Fin a) (u : Fin 1) : broadcastInDim ⟨2, ![a, 1]⟩ ![0] h v (ix2 p u) = v (ix1 p) :=
  broadcastInDim_apply ![0] h v (ix2 p u) (ix1 p) fun ax => by
    match ax with
    | ⟨0, _⟩ =>
      show p.val = if a = 1 then 0 else p.val
      split
      · have := p.isLt; omega
      · rfl

/-- A vector `[b]` made a row `[1, b]` reads, at `(u, c)`, the vector at `c`. -/
theorem bcast_vec_row_apply (h : (⟨1, ![b]⟩ : Shape).BroadcastsInDim ⟨2, ![1, b]⟩ ![1]) (v : (⟨1, ![b]⟩ : Shape).Idx → α)
    (u : Fin 1) (c : Fin b) : broadcastInDim ⟨2, ![1, b]⟩ ![1] h v (ix2 u c) = v (ix1 c) :=
  broadcastInDim_apply ![1] h v (ix2 u c) (ix1 c) fun ax => by
    match ax with
    | ⟨0, _⟩ =>
      show c.val = if b = 1 then 0 else c.val
      split
      · have := c.isLt; omega
      · rfl

/-- A column `[a, 1]` spread over `[a, b]` reads, at `(p, c)`, the column's entry of row `p`. -/
theorem bcast_col_apply (h : (⟨2, ![a, 1]⟩ : Shape).BroadcastsInDim ⟨2, ![a, b]⟩ ![0, 1]) (v : (⟨2, ![a, 1]⟩ : Shape).Idx → α)
    (p : Fin a) (c : Fin b) : broadcastInDim ⟨2, ![a, b]⟩ ![0, 1] h v (ix2 p c) = v (ix2 p (0 : Fin 1)) :=
  broadcastInDim_apply ![0, 1] h v (ix2 p c) (ix2 p (0 : Fin 1)) fun ax => by
    match ax with
    | ⟨0, _⟩ =>
      show p.val = if a = 1 then 0 else p.val
      split
      · have := p.isLt; omega
      · rfl
    | ⟨1, _⟩ => rfl

/-- A row `[1, b]` spread over `[a, b]` reads, at `(p, c)`, the row's entry of column `c`. -/
theorem bcast_row_apply (h : (⟨2, ![1, b]⟩ : Shape).BroadcastsInDim ⟨2, ![a, b]⟩ ![0, 1]) (v : (⟨2, ![1, b]⟩ : Shape).Idx → α)
    (p : Fin a) (c : Fin b) : broadcastInDim ⟨2, ![a, b]⟩ ![0, 1] h v (ix2 p c) = v (ix2 (0 : Fin 1) c) :=
  broadcastInDim_apply ![0, 1] h v (ix2 p c) (ix2 (0 : Fin 1) c) fun ax => by
    match ax with
    | ⟨0, _⟩ => rfl
    | ⟨1, _⟩ =>
      show c.val = if b = 1 then 0 else c.val
      split
      · have := c.isLt; omega
      · rfl

end Bcast

end Cert.LibHostRows
-- ==== Proof.RefLayers.lean ====
/-
  The reference's first two layers and its outer product, read at one entry. The reference puts the constant input
  coordinate `1 * bias0` in front of each layer's input and multiplies by the whole weight matrix; splitting the sum at
  the joints of the concatenation and regrouping gives the layer of Proof/Spec.lean: the remaining rows' dot products
  plus the bias with `bias0 * W₀` folded in.
-/
import proofs.«133583_j90297392431134_1_alg».proof.Proof.RefStages
import proofs.«133583_j90297392431134_1_alg».proof.Proof.Spec
import proofs.«133583_j90297392431134_1_alg».proof.Proof.LibHostRows
import Idealize.ShloMosaic.Lib.Pipeline.Value
import Idealize.ShloMosaic.Lib.IdealHost

noncomputable section

namespace Cert.ReferenceIdeal.Layers

open Cert.ReferenceIdeal Cert.ReferenceIdeal.Gen Idealize.ShloMosaic Idealize.ShloMosaic.TcCoe Idealize.SL.Sem
  Idealize.ShloMosaic.StableHlo Idealize.ShloMosaic.ValueIdx

/-- The constant input column holds `bias0` at every index: `1 * bias0`. -/
private theorem ones_at (b₀ : FVec Ideal S_ .f32) (i : S8192x1.Idx) : Stages.ones (F := Ideal) b₀ i = b₀ ix0 := by
  unfold Stages.ones
  rw [mulf_apply, LibHostRows.bcast_scalar_apply, LibHostRows.bcast_scalar_apply, constant_apply,
    Ideal.ofBits_one_f32, one_mul]

/-- The constant input column holds `bias0` in every row: `1 * bias0`. -/
theorem ones_apply (b₀ : FVec Ideal S_ .f32) (r : Fin 8192) : Stages.ones (F := Ideal) b₀ (ix2 r 0) = b₀ ix0 :=
  ones_at b₀ _

/-- The head `[1 * bias0, u]` of every later layer's input, at column 0: `bias0`. -/
theorem head_zero (b₀ : FVec Ideal S_ .f32) (u : FVec Ideal S8192x128 .f32) (r : Fin 8192) (h : 0 < 129) :
    Stages.head (F := Ideal) b₀ u (ix2 r ⟨0, h⟩) = b₀ ix0 := by
  unfold Stages.head
  refine (concatenate_pair_apply_left (t := S8192x129) (s₁ := S8192x1) (s₂ := S8192x128) (1 : Fin 2) _ _ _
    (ix2 r ⟨0, h⟩) rfl (ix2 r (0 : Fin 1)) ?_).trans (ones_at b₀ _)
  intro b
  match b with
  | ⟨0, _⟩ => rfl
  | ⟨1, _⟩ => rfl

/-- The same head at column `1 + k`: `u` at `(r, k)`. -/
theorem head_succ (b₀ : FVec Ideal S_ .f32) (u : FVec Ideal S8192x128 .f32) (r : Fin 8192) (k : Fin 128)
    (h : 1 + k.val < 129) :
    Stages.head (F := Ideal) b₀ u (ix2 r ⟨1 + k.val, h⟩) = u (ix2 r k) := by
  unfold Stages.head
  refine concatenate_pair_apply_right (t := S8192x129) (s₁ := S8192x1) (s₂ := S8192x128) (1 : Fin 2) _ _ _
    (ix2 r ⟨1 + k.val, h⟩) rfl rfl (ix2 r k) ?_ ?_
  · intro b hb
    match b with
    | ⟨0, _⟩ => rfl
    | ⟨1, _⟩ => exact absurd rfl hb
  · show k.val + 1 = 1 + k.val
    omega

/-- A 128-vector spread over the batch reads the vector's entry of the column. -/
private theorem bias128_apply (b : FVec Ideal S128 .f32) (r : Fin 8192) (j : Fin 128) :
    Stages.bias128 (F := Ideal) b (ix2 r j) = b (ix1 j) := by
  unfold Stages.bias128
  rw [LibHostRows.bcast_row_apply, LibHostRows.bcast_vec_row_apply]

/-- The reference's three matrix products at `(r, j)`: the sum over the contracted coordinate. -/
private theorem dot65_apply (l : FVec Ideal S8192x65 .f32) (W : FVec Ideal S65x128 .f32) (r : Fin 8192) (j : Fin 128) :
    Host.dotGeneral (F := Ideal) dot_S8192x65_S65x128_S8192x128_1_0_0_1_n_n none l W (ix2 r j)
      = ∑ k : Fin 65, l (ix2 r k) * W (ix2 k j) :=
  LibHostRows.dotGeneral_plain_apply 8192 65 128 .single l W r j

private theorem dot16513_apply (l : FVec Ideal S8192x16513 .f32) (W : FVec Ideal S16513x128 .f32) (r : Fin 8192)
    (j : Fin 128) :
    Host.dotGeneral (F := Ideal) dot_S8192x16513_S16513x128_S8192x128_1_0_0_1_n_n none l W (ix2 r j)
      = ∑ k : Fin 16513, l (ix2 r k) * W (ix2 k j) :=
  LibHostRows.dotGeneral_plain_apply 8192 16513 128 .single l W r j

/-- Layer 1's input `[1 * bias0, X]` at column 0 and at column `1 + k`. -/
private theorem in1_zero (X : FVec Ideal S8192x64 .f32) (b₀ : FVec Ideal S_ .f32) (r : Fin 8192) (h : 0 < 65) :
    concatenate S8192x65 1 [⟨S8192x1, Stages.ones (F := Ideal) b₀⟩, ⟨S8192x64, X⟩]
      concatenates_S8192x1_S8192x64_S8192x65_d1 (ix2 r ⟨0, h⟩) = b₀ ix0 := by
  refine (concatenate_pair_apply_left (t := S8192x65) (s₁ := S8192x1) (s₂ := S8192x64) (1 : Fin 2) _ _ _
    (ix2 r ⟨0, h⟩) rfl (ix2 r (0 : Fin 1)) ?_).trans (ones_at b₀ _)
  intro b
  match b with
  | ⟨0, _⟩ => rfl
  | ⟨1, _⟩ => rfl

private theorem in1_succ (X : FVec Ideal S8192x64 .f32) (b₀ : FVec Ideal S_ .f32) (r : Fin 8192) (k : Fin 64)
    (h : 1 + k.val < 65) :
    concatenate S8192x65 1 [⟨S8192x1, Stages.ones (F := Ideal) b₀⟩, ⟨S8192x64, X⟩]
      concatenates_S8192x1_S8192x64_S8192x65_d1 (ix2 r ⟨1 + k.val, h⟩) = X (ix2 r k) := by
  refine concatenate_pair_apply_right (t := S8192x65) (s₁ := S8192x1) (s₂ := S8192x64) (1 : Fin 2) _ _ _
    (ix2 r ⟨1 + k.val, h⟩) rfl rfl (ix2 r k) ?_ ?_
  · intro b hb
    match b with
    | ⟨0, _⟩ => rfl
    | ⟨1, _⟩ => exact absurd rfl hb
  · show k.val + 1 = 1 + k.val
    omega

/-- Regrouping: the constant coordinate's term moves from the front of the sum into the bias. -/
private theorem regroup1 (a s c : EReal) : (a + s) + c = s + (c + a) := by
  rw [add_comm a s, add_assoc, add_comm a c]

/-- Layer 1 at `(r, j)`, for either branch's weights `W`, `b`. -/
theorem layer1_apply (X : FVec Ideal S8192x64 .f32) (b₀ : FVec Ideal S_ .f32) (W : FVec Ideal S65x128 .f32)
    (b : FVec Ideal S128 .f32) (r : Fin 8192) (j : Fin 128) :
    Stages.lay1 (F := Ideal) X b₀ W b (ix2 r j)
    = PolyNet.aff1 (fun k => X (ix2 r k)) (PolyNet.col (PolyNet.rowsFrom 1 64 (by norm_num) W) j)
        (PolyNet.foldBias (by norm_num) b₀ W b (ix2 0 j)) := by
  unfold Stages.lay1
  rw [addf_apply, bias128_apply, dot65_apply]
  -- the sum over the 65 input columns: column 0, then the 64 columns of `X`
  rw [PolyNet.dot_concat 1 64 (by norm_num) _ (fun k : Fin 65 => W (ix2 k j))
    (fun _ : Fin 1 => b₀ ix0) (fun _ : Fin 1 => W (ix2 ⟨0, by norm_num⟩ j))
    (fun k : Fin 64 => X (ix2 r k)) (fun k : Fin 64 => W (ix2 ⟨1 + k.val, by have := k.isLt; omega⟩ j))
    (fun k hk => by
      have hk0 : k = 0 := Subsingleton.elim _ _
      subst hk0
      exact in1_zero X b₀ r hk)
    (fun k hk => in1_succ X b₀ r k hk)
    (fun k hk => by
      have hk0 : k = 0 := Subsingleton.elim _ _
      subst hk0
      rfl)
    (fun k hk => rfl)]
  rw [Fin.sum_univ_one]
  exact regroup1 _ _ _

/-- The row factor of the outer product, spread over the third axis: at `(r, a, c)` it is `u (r, a)`. -/
private theorem outerL_apply (u : FVec Ideal S8192x128 .f32) (r : Fin 8192) (a c : Fin 128) :
    broadcastInDim S8192x128x128 ![0, 1, 2] bcast_S8192x128x1_S8192x128x128_0_1_2
      (broadcastInDim S8192x128x1 ![0, 1] bcast_S8192x128_S8192x128x1_0_1 u) (ix3 r a c) = u (ix2 r a) := by
  rw [broadcastInDim_apply (s := S8192x128x1) (t := S8192x128x128) ![0, 1, 2] _ _ (ix3 r a c) (ix3 r a (0 : Fin 1))
    (fun ax => by
      match ax with
      | ⟨0, _⟩ => rfl
      | ⟨1, _⟩ => rfl
      | ⟨2, _⟩ => rfl)]
  exact broadcastInDim_apply (s := S8192x128) (t := S8192x128x1) ![0, 1] _ u (ix3 r a (0 : Fin 1)) (ix2 r a)
    (fun ax => by
      match ax with
      | ⟨0, _⟩ => rfl
      | ⟨1, _⟩ => rfl)

/-- The column factor of the outer product, spread over the second axis: at `(r, a, c)` it is `v (r, c)`. -/
private theorem outerR_apply (v : FVec Ideal S8192x128 .f32) (r : Fin 8192) (a c : Fin 128) :
    broadcastInDim S8192x128x128 ![0, 1, 2] bcast_S8192x1x128_S8192x128x128_0_1_2
      (broadcastInDim S8192x1x128 ![0, 2] bcast_S8192x128_S8192x1x128_0_2 v) (ix3 r a c) = v (ix2 r c) := by
  rw [broadcastInDim_apply (s := S8192x1x128) (t := S8192x128x128) ![0, 1, 2] _ _ (ix3 r a c) (ix3 r (0 : Fin 1) c)
    (fun ax => by
      match ax with
      | ⟨0, _⟩ => rfl
      | ⟨1, _⟩ => rfl
      | ⟨2, _⟩ => rfl)]
  exact broadcastInDim_apply (s := S8192x128) (t := S8192x1x128) ![0, 2] _ v (ix3 r (0 : Fin 1) c) (ix2 r c)
    (fun ax => by
      match ax with
      | ⟨0, _⟩ => rfl
      | ⟨1, _⟩ => rfl)

/-- The flattened outer product of row `r` of `u` with row `r` of `v`, at `(r, q)`. -/
theorem outer_apply (u v : FVec Ideal S8192x128 .f32) (r : Fin 8192) (q : Fin 16384) :
    Stages.outerArr (F := Ideal) u v (ix2 r q) = PolyNet.outer (fun j => u (ix2 r j)) (fun j => v (ix2 r j)) q := by
  unfold Stages.outerArr
  -- position `r * 16384 + q` of the flat array is position `(r * 128 + q / 128) * 128 + q % 128` of the cube
  have hq := q.isLt
  rw [shapeCast_apply (s := S8192x128x128) (t := S8192x16384) _ _ (ix2 r q)
    (ix3 r (⟨q.val / 128, by omega⟩ : Fin 128) (⟨q.val % 128, Nat.mod_lt _ (by norm_num)⟩ : Fin 128))
    (by
      rw [Shape.rowMajor_val_three, Shape.rowMajor_val_two]
      show (r.val * 128 + q.val / 128) * 128 + q.val % 128 = r.val * 16384 + q.val
      omega)]
  rw [mulf_apply, outerL_apply, outerR_apply]
  rfl

/-- Layer 2's input `[[1 * bias0, u], o]` at a column of the head and at column `129 + q`. -/
private theorem in2_left (b₀ : FVec Ideal S_ .f32) (u : FVec Ideal S8192x128 .f32) (o : FVec Ideal S8192x16384 .f32)
    (r : Fin 8192) (k : Fin 129) (h : k.val < 16513) :
    concatenate S8192x16513 1 [⟨S8192x129, Stages.head (F := Ideal) b₀ u⟩, ⟨S8192x16384, o⟩]
      concatenates_S8192x129_S8192x16384_S8192x16513_d1 (ix2 r ⟨k.val, h⟩) = Stages.head (F := Ideal) b₀ u (ix2 r k) := by
  refine concatenate_pair_apply_left (t := S8192x16513) (s₁ := S8192x129) (s₂ := S8192x16384) (1 : Fin 2) _ _ _
    (ix2 r ⟨k.val, h⟩) rfl (ix2 r k) ?_
  intro b
  match b with
  | ⟨0, _⟩ => rfl
  | ⟨1, _⟩ => rfl

private theorem in2_right (b₀ : FVec Ideal S_ .f32) (u : FVec Ideal S8192x128 .f32) (o : FVec Ideal S8192x16384 .f32)
    (r : Fin 8192) (q : Fin 16384) (h : 129 + q.val < 16513) :
    concatenate S8192x16513 1 [⟨S8192x129, Stages.head (F := Ideal) b₀ u⟩, ⟨S8192x16384, o⟩]
      concatenates_S8192x129_S8192x16384_S8192x16513_d1 (ix2 r ⟨129 + q.val, h⟩) = o (ix2 r q) := by
  refine concatenate_pair_apply_right (t := S8192x16513) (s₁ := S8192x129) (s₂ := S8192x16384) (1 : Fin 2) _ _ _
    (ix2 r ⟨129 + q.val, h⟩) rfl rfl (ix2 r q) ?_ ?_
  · intro b hb
    match b with
    | ⟨0, _⟩ => rfl
    | ⟨1, _⟩ => exact absurd rfl hb
  · show q.val + 129 = 129 + q.val
    omega

/-- Regrouping: the constant coordinate's term moves from the front of the first sum into the bias. -/
private theorem regroup2 (a s t c : EReal) : ((a + s) + t) + c = (s + t) + (c + a) := by
  rw [add_comm a s, add_assoc s a t, add_comm a t, ← add_assoc s t a, add_assoc (s + t) a c, add_comm a c]

/-- Layer 2 at `(r, j)`, for either branch's weights: the input is `[1 * bias0, u, o]` (1 + 128 + 16384 columns). -/
theorem layer2_apply (b₀ : FVec Ideal S_ .f32) (u : FVec Ideal S8192x128 .f32) (o : FVec Ideal S8192x16384 .f32)
    (W : FVec Ideal S16513x128 .f32) (b : FVec Ideal S128 .f32) (r : Fin 8192) (j : Fin 128) :
    Stages.lay2 (F := Ideal) b₀ u o W b (ix2 r j)
    = PolyNet.aff2 (fun k => u (ix2 r k)) (PolyNet.col (PolyNet.rowsFrom 1 128 (by norm_num) W) j)
        (fun q => o (ix2 r q)) (PolyNet.col (PolyNet.rowsFrom 129 16384 (by norm_num) W) j)
        (PolyNet.foldBias (by norm_num) b₀ W b (ix2 0 j)) := by
  unfold Stages.lay2
  rw [addf_apply, bias128_apply, dot16513_apply]
  -- the sum over the 16513 input columns: the 129 of the head, then the 16384 of the outer product
  rw [PolyNet.dot_concat 129 16384 (by norm_num) _ (fun k : Fin 16513 => W (ix2 k j))
    (fun k : Fin 129 => Stages.head (F := Ideal) b₀ u (ix2 r k))
    (fun k : Fin 129 => W (ix2 ⟨k.val, by have := k.isLt; omega⟩ j))
    (fun q : Fin 16384 => o (ix2 r q)) (fun q : Fin 16384 => W (ix2 ⟨129 + q.val, by have := q.isLt; omega⟩ j))
    (fun k hk => in2_left b₀ u o r k hk)
    (fun q hq => in2_right b₀ u o r q hq)
    (fun k hk => rfl)
    (fun q hq => rfl)]
  -- the head's 129 columns: column 0, then the 128 columns of `u`
  rw [PolyNet.dot_concat 1 128 (by norm_num) (fun k : Fin 129 => Stages.head (F := Ideal) b₀ u (ix2 r k))
    (fun k : Fin 129 => W (ix2 ⟨k.val, by have := k.isLt; omega⟩ j))
    (fun _ : Fin 1 => b₀ ix0) (fun _ : Fin 1 => W (ix2 ⟨0, by norm_num⟩ j))
    (fun k : Fin 128 => u (ix2 r k)) (fun k : Fin 128 => W (ix2 ⟨1 + k.val, by have := k.isLt; omega⟩ j))
    (fun k hk => by
      have hk0 : k = 0 := Subsingleton.elim _ _
      subst hk0
      exact head_zero b₀ u r hk)
    (fun k hk => head_succ b₀ u r k hk)
    (fun k hk => by
      have hk0 : k = 0 := Subsingleton.elim _ _
      subst hk0
      rfl)
    (fun k hk => rfl)]
  rw [Fin.sum_univ_one]
  exact regroup2 _ _ _ _

end Cert.ReferenceIdeal.Layers

end
-- ==== Proof.RefTail.lean ====
/-
  The reference's third layer and its final projection, read at one entry: the sums over the concatenated inputs
  `[1 * bias0, u, v, o]` (1 + 128 + 128 + 16384 columns) and `[1 * bias0, f₁, f₂, f₃, g₁, g₂, g₃]` (1 + 6·128 columns)
  split at the joints and regrouped into the forms of Proof/Spec.lean.
-/
import proofs.«133583_j90297392431134_1_alg».proof.Proof.RefLayers
import Idealize.ShloMosaic.Lib.Pipeline.Value
import Idealize.ShloMosaic.Lib.IdealHost
import Mathlib.Tactic.Abel

noncomputable section

namespace Cert.ReferenceIdeal.Tail

open Cert.ReferenceIdeal Cert.ReferenceIdeal.Gen Idealize.ShloMosaic Idealize.ShloMosaic.TcCoe Idealize.SL.Sem
  Idealize.ShloMosaic.StableHlo Idealize.ShloMosaic.ValueIdx

/-! ## The concatenations, read at one entry -/

/-- `[1 * bias0, u, v]` at a column below 129: the head `[1 * bias0, u]` there. -/
private theorem head2_left (b₀ : FVec Ideal S_ .f32) (u v : FVec Ideal S8192x128 .f32) (r : Fin 8192) (c : Fin 129)
    (h : c.val < 257) :
    Stages.head2 (F := Ideal) b₀ u v (ix2 r ⟨c.val, h⟩) = Stages.head (F := Ideal) b₀ u (ix2 r c) := by
  unfold Stages.head2
  exact concatenate_pair_apply_left (s₁ := S8192x129) (s₂ := S8192x128) (1 : Fin 2) _ _ _ (ix2 r ⟨c.val, h⟩) rfl
    (ix2 r c) (fun b => by
    match b with
    | ⟨0, _⟩ => rfl
    | ⟨1, _⟩ => rfl)

/-- `[1 * bias0, u, v]` at column `129 + k`: `v` at `(r, k)`. -/
private theorem head2_right (b₀ : FVec Ideal S_ .f32) (u v : FVec Ideal S8192x128 .f32) (r : Fin 8192) (k : Fin 128)
    (h : 129 + k.val < 257) :
    Stages.head2 (F := Ideal) b₀ u v (ix2 r ⟨129 + k.val, h⟩) = v (ix2 r k) := by
  unfold Stages.head2
  exact concatenate_pair_apply_right (s₁ := S8192x129) (s₂ := S8192x128) (1 : Fin 2) _ _ _ (ix2 r ⟨129 + k.val, h⟩)
    rfl rfl (ix2 r k)
    (fun b hb => by
      match b with
      | ⟨0, _⟩ => rfl
      | ⟨1, _⟩ => exact absurd rfl hb)
    (by show k.val + 129 = 129 + k.val; omega)

/-- Layer 3's input `[[1 * bias0, u, v], o]` at a column below 257: its first piece there. -/
private theorem in3_left (x : FVec Ideal S8192x257 .f32) (o : FVec Ideal S8192x16384 .f32) (r : Fin 8192) (c : Fin 257)
    (h : c.val < 16641) :
    concatenate (α := Ideal .f32) S8192x16641 1 [⟨S8192x257, x⟩, ⟨S8192x16384, o⟩]
      concatenates_S8192x257_S8192x16384_S8192x16641_d1 (ix2 r ⟨c.val, h⟩) = x (ix2 r c) :=
  concatenate_pair_apply_left (s₁ := S8192x257) (s₂ := S8192x16384) (1 : Fin 2) _ _ _ (ix2 r ⟨c.val, h⟩) rfl
    (ix2 r c) (fun b => by
    match b with
    | ⟨0, _⟩ => rfl
    | ⟨1, _⟩ => rfl)

/-- Layer 3's input at column `257 + q`: `o` at `(r, q)`. -/
private theorem in3_right (x : FVec Ideal S8192x257 .f32) (o : FVec Ideal S8192x16384 .f32) (r : Fin 8192) (q : Fin 16384)
    (h : 257 + q.val < 16641) :
    concatenate (α := Ideal .f32) S8192x16641 1 [⟨S8192x257, x⟩, ⟨S8192x16384, o⟩]
      concatenates_S8192x257_S8192x16384_S8192x16641_d1 (ix2 r ⟨257 + q.val, h⟩) = o (ix2 r q) :=
  concatenate_pair_apply_right (s₁ := S8192x257) (s₂ := S8192x16384) (1 : Fin 2) _ _ _ (ix2 r ⟨257 + q.val, h⟩)
    rfl rfl (ix2 r q)
    (fun b hb => by
      match b with
      | ⟨0, _⟩ => rfl
      | ⟨1, _⟩ => exact absurd rfl hb)
    (by show q.val + 257 = 257 + q.val; omega)

/-! ## The matrix product, the bias and the regrouping -/

/-- Layer 3's product at `(r, j)`: the sum over the 16641 columns of its input. -/
private theorem dot3_apply (l : FVec Ideal S8192x16641 .f32) (W : FVec Ideal S16641x128 .f32) (r : Fin 8192) (j : Fin 128) :
    Host.dotGeneral (F := Ideal) dot_S8192x16641_S16641x128_S8192x128_1_0_0_1_n_n none l W (ix2 r j)
      = ∑ k : Fin 16641, l (ix2 r k) * W (ix2 k j) :=
  Cert.LibHostRows.dotGeneral_plain_apply 8192 16641 128 .single l W r j

/-- A 128-vector spread over the batch, at `(r, j)`: its entry `j`. -/
private theorem bias128_apply (b : FVec Ideal S128 .f32) (r : Fin 8192) (j : Fin 128) :
    Stages.bias128 (F := Ideal) b (ix2 r j) = b (ix1 j) := by
  unfold Stages.bias128
  exact (Cert.LibHostRows.bcast_row_apply _ _ r j).trans (Cert.LibHostRows.bcast_vec_row_apply _ b 0 j)

/-- The head `[1 * bias0, u]` against 129 weights: `bias0` times the first, plus `u`'s dot product with the rest. -/
private theorem head_dot (b₀ : FVec Ideal S_ .f32) (u : FVec Ideal S8192x128 .f32) (r : Fin 8192) (w : Fin 129 → EReal) :
    ∑ k : Fin 129, Stages.head (F := Ideal) b₀ u (ix2 r k) * w k
      = b₀ ix0 * w ⟨0, by norm_num⟩ + ∑ k : Fin 128, u (ix2 r k) * w ⟨1 + k.val, by have := k.isLt; omega⟩ := by
  rw [PolyNet.dot_concat 1 128 (by norm_num) (fun k : Fin 129 => Stages.head (F := Ideal) b₀ u (ix2 r k)) w
    (fun _ => b₀ ix0) (fun _ => w ⟨0, by norm_num⟩) (fun k => u (ix2 r k))
    (fun k => w ⟨1 + k.val, by have := k.isLt; omega⟩)
    (fun k hk => by
      have hk0 : k.val = 0 := by have := k.isLt; omega
      have e : (⟨k.val, hk⟩ : Fin 129) = ⟨0, by norm_num⟩ := Fin.ext hk0
      show Stages.head (F := Ideal) b₀ u (ix2 r ⟨k.val, hk⟩) = b₀ ix0
      rw [e]; exact Layers.head_zero b₀ u r _)
    (fun k hk => Layers.head_succ b₀ u r k hk)
    (fun k hk => by
      have hk0 : k.val = 0 := by have := k.isLt; omega
      exact congrArg w (Fin.ext hk0))
    (fun k hk => rfl)]
  rw [Fin.sum_univ_one]

/-- `[1 * bias0, u, v]` against 257 weights. -/
private theorem head2_dot (b₀ : FVec Ideal S_ .f32) (u v : FVec Ideal S8192x128 .f32) (r : Fin 8192) (w : Fin 257 → EReal) :
    ∑ k : Fin 257, Stages.head2 (F := Ideal) b₀ u v (ix2 r k) * w k
      = (b₀ ix0 * w ⟨0, by norm_num⟩ + ∑ k : Fin 128, u (ix2 r k) * w ⟨1 + k.val, by have := k.isLt; omega⟩)
        + ∑ k : Fin 128, v (ix2 r k) * w ⟨129 + k.val, by have := k.isLt; omega⟩ := by
  rw [PolyNet.dot_concat 129 128 (by norm_num) (fun k : Fin 257 => Stages.head2 (F := Ideal) b₀ u v (ix2 r k)) w
    (fun k => Stages.head (F := Ideal) b₀ u (ix2 r k)) (fun k => w ⟨k.val, by have := k.isLt; omega⟩)
    (fun k => v (ix2 r k)) (fun k => w ⟨129 + k.val, by have := k.isLt; omega⟩)
    (fun k hk => head2_left b₀ u v r k hk)
    (fun k hk => head2_right b₀ u v r k hk)
    (fun k hk => rfl)
    (fun k hk => rfl)]
  rw [head_dot b₀ u r (fun k => w ⟨k.val, by have := k.isLt; omega⟩)]

/-- The regrouping of layer 3: the constant coordinate's term moves from the front of the sum into the constant. -/
private theorem regroup3 (z a b c d : EReal) : (((z + a) + b) + c) + d = ((a + b) + c) + (d + z) := by
  abel

/-- Layer 3 at `(r, j)`, for either branch's weights. -/
theorem layer3_apply (b₀ : FVec Ideal S_ .f32) (u v : FVec Ideal S8192x128 .f32) (o : FVec Ideal S8192x16384 .f32)
    (W : FVec Ideal S16641x128 .f32) (b : FVec Ideal S128 .f32) (r : Fin 8192) (j : Fin 128) :
    Stages.lay3 (F := Ideal) b₀ u v o W b (ix2 r j)
    = PolyNet.aff3 (fun k => u (ix2 r k)) (PolyNet.col (PolyNet.rowsFrom 1 128 (by norm_num) W) j)
        (fun k => v (ix2 r k)) (PolyNet.col (PolyNet.rowsFrom 129 128 (by norm_num) W) j)
        (fun q => o (ix2 r q)) (PolyNet.col (PolyNet.rowsFrom 257 16384 (by norm_num) W) j)
        (PolyNet.foldBias (by norm_num) b₀ W b (ix2 0 j)) := by
  unfold Stages.lay3
  show Host.dotGeneral (F := Ideal) dot_S8192x16641_S16641x128_S8192x128_1_0_0_1_n_n none _ W (ix2 r j)
      + Stages.bias128 (F := Ideal) b (ix2 r j) = _
  rw [dot3_apply, bias128_apply]
  rw [PolyNet.dot_concat 257 16384 (by norm_num) _ (fun k : Fin 16641 => W (ix2 k j))
    (fun k => Stages.head2 (F := Ideal) b₀ u v (ix2 r k)) (fun k => W (ix2 ⟨k.val, by have := k.isLt; omega⟩ j))
    (fun q => o (ix2 r q)) (fun q => W (ix2 ⟨257 + q.val, by have := q.isLt; omega⟩ j))
    (fun k hk => in3_left _ o r k hk)
    (fun q hq => in3_right _ o r q hq)
    (fun k hk => rfl)
    (fun q hq => rfl)]
  rw [head2_dot b₀ u v r (fun k => W (ix2 ⟨k.val, by have := k.isLt; omega⟩ j))]
  exact regroup3 _ _ _ _ _

/-! ## The final projection -/

/-- `[[1 * bias0, f₁, f₂], f₃]` at a column below 257: its first piece there. -/
private theorem fcat_left (b₀ : FVec Ideal S_ .f32) (f₁ f₂ f₃ : FVec Ideal S8192x128 .f32) (r : Fin 8192) (c : Fin 257)
    (h : c.val < 385) :
    Stages.fcat (F := Ideal) b₀ f₁ f₂ f₃ (ix2 r ⟨c.val, h⟩) = Stages.head2 (F := Ideal) b₀ f₁ f₂ (ix2 r c) := by
  unfold Stages.fcat
  exact concatenate_pair_apply_left (s₁ := S8192x257) (s₂ := S8192x128) (1 : Fin 2) _ _ _ (ix2 r ⟨c.val, h⟩) rfl
    (ix2 r c) (fun b => by
    match b with
    | ⟨0, _⟩ => rfl
    | ⟨1, _⟩ => rfl)

/-- `[[1 * bias0, f₁, f₂], f₃]` at column `257 + k`: `f₃` at `(r, k)`. -/
private theorem fcat_right (b₀ : FVec Ideal S_ .f32) (f₁ f₂ f₃ : FVec Ideal S8192x128 .f32) (r : Fin 8192) (k : Fin 128)
    (h : 257 + k.val < 385) :
    Stages.fcat (F := Ideal) b₀ f₁ f₂ f₃ (ix2 r ⟨257 + k.val, h⟩) = f₃ (ix2 r k) := by
  unfold Stages.fcat
  exact concatenate_pair_apply_right (s₁ := S8192x257) (s₂ := S8192x128) (1 : Fin 2) _ _ _ (ix2 r ⟨257 + k.val, h⟩)
    rfl rfl (ix2 r k)
    (fun b hb => by
      match b with
      | ⟨0, _⟩ => rfl
      | ⟨1, _⟩ => exact absurd rfl hb)
    (by show k.val + 257 = 257 + k.val; omega)

/-- `[g₁, g₂]` at a column below 128: `g₁` there. -/
private theorem gpair_left (g₁ g₂ : FVec Ideal S8192x128 .f32) (r : Fin 8192) (k : Fin 128) (h : k.val < 256) :
    Stages.gpair (F := Ideal) g₁ g₂ (ix2 r ⟨k.val, h⟩) = g₁ (ix2 r k) := by
  unfold Stages.gpair
  exact concatenate_pair_apply_left (s₁ := S8192x128) (s₂ := S8192x128) (1 : Fin 2) _ _ _ (ix2 r ⟨k.val, h⟩) rfl
    (ix2 r k) (fun b => by
    match b with
    | ⟨0, _⟩ => rfl
    | ⟨1, _⟩ => rfl)

/-- `[g₁, g₂]` at column `128 + k`: `g₂` at `(r, k)`. -/
private theorem gpair_right (g₁ g₂ : FVec Ideal S8192x128 .f32) (r : Fin 8192) (k : Fin 128) (h : 128 + k.val < 256) :
    Stages.gpair (F := Ideal) g₁ g₂ (ix2 r ⟨128 + k.val, h⟩) = g₂ (ix2 r k) := by
  unfold Stages.gpair
  exact concatenate_pair_apply_right (s₁ := S8192x128) (s₂ := S8192x128) (1 : Fin 2) _ _ _ (ix2 r ⟨128 + k.val, h⟩)
    rfl rfl (ix2 r k)
    (fun b hb => by
      match b with
      | ⟨0, _⟩ => rfl
      | ⟨1, _⟩ => exact absurd rfl hb)
    (by show k.val + 128 = 128 + k.val; omega)

/-- `[[g₁, g₂], g₃]` at a column below 256: its first piece there. -/
private theorem gcat_left (g₁ g₂ g₃ : FVec Ideal S8192x128 .f32) (r : Fin 8192) (c : Fin 256) (h : c.val < 384) :
    Stages.gcat (F := Ideal) g₁ g₂ g₃ (ix2 r ⟨c.val, h⟩) = Stages.gpair (F := Ideal) g₁ g₂ (ix2 r c) := by
  unfold Stages.gcat
  exact concatenate_pair_apply_left (s₁ := S8192x256) (s₂ := S8192x128) (1 : Fin 2) _ _ _ (ix2 r ⟨c.val, h⟩) rfl
    (ix2 r c) (fun b => by
    match b with
    | ⟨0, _⟩ => rfl
    | ⟨1, _⟩ => rfl)

/-- `[[g₁, g₂], g₃]` at column `256 + k`: `g₃` at `(r, k)`. -/
private theorem gcat_right (g₁ g₂ g₃ : FVec Ideal S8192x128 .f32) (r : Fin 8192) (k : Fin 128) (h : 256 + k.val < 384) :
    Stages.gcat (F := Ideal) g₁ g₂ g₃ (ix2 r ⟨256 + k.val, h⟩) = g₃ (ix2 r k) := by
  unfold Stages.gcat
  exact concatenate_pair_apply_right (s₁ := S8192x256) (s₂ := S8192x128) (1 : Fin 2) _ _ _ (ix2 r ⟨256 + k.val, h⟩)
    rfl rfl (ix2 r k)
    (fun b hb => by
      match b with
      | ⟨0, _⟩ => rfl
      | ⟨1, _⟩ => exact absurd rfl hb)
    (by show k.val + 256 = 256 + k.val; omega)

/-- The projection's input `[fs, gs]` at a column below 385: `fs` there. -/
private theorem inP_left (fs : FVec Ideal S8192x385 .f32) (gs : FVec Ideal S8192x384 .f32) (r : Fin 8192) (c : Fin 385)
    (h : c.val < 769) :
    concatenate (α := Ideal .f32) S8192x769 1 [⟨S8192x385, fs⟩, ⟨S8192x384, gs⟩]
      concatenates_S8192x385_S8192x384_S8192x769_d1 (ix2 r ⟨c.val, h⟩) = fs (ix2 r c) :=
  concatenate_pair_apply_left (s₁ := S8192x385) (s₂ := S8192x384) (1 : Fin 2) _ _ _ (ix2 r ⟨c.val, h⟩) rfl
    (ix2 r c) (fun b => by
    match b with
    | ⟨0, _⟩ => rfl
    | ⟨1, _⟩ => rfl)

/-- The projection's input at column `385 + k`: `gs` at `(r, k)`. -/
private theorem inP_right (fs : FVec Ideal S8192x385 .f32) (gs : FVec Ideal S8192x384 .f32) (r : Fin 8192) (k : Fin 384)
    (h : 385 + k.val < 769) :
    concatenate (α := Ideal .f32) S8192x769 1 [⟨S8192x385, fs⟩, ⟨S8192x384, gs⟩]
      concatenates_S8192x385_S8192x384_S8192x769_d1 (ix2 r ⟨385 + k.val, h⟩) = gs (ix2 r k) :=
  concatenate_pair_apply_right (s₁ := S8192x385) (s₂ := S8192x384) (1 : Fin 2) _ _ _ (ix2 r ⟨385 + k.val, h⟩)
    rfl rfl (ix2 r k)
    (fun b hb => by
      match b with
      | ⟨0, _⟩ => rfl
      | ⟨1, _⟩ => exact absurd rfl hb)
    (by show k.val + 385 = 385 + k.val; omega)

/-- The projection's product at `(r, 0)`: the sum over the 769 columns of its input. -/
private theorem dotP_apply (l : FVec Ideal S8192x769 .f32) (W : FVec Ideal S769x1 .f32) (r : Fin 8192) (q : Fin 1) :
    Host.dotGeneral (F := Ideal) dot_S8192x769_S769x1_S8192x1_1_0_0_1_n_n none l W (ix2 r q)
      = ∑ k : Fin 769, l (ix2 r k) * W (ix2 k q) :=
  Cert.LibHostRows.dotGeneral_plain_apply 8192 769 1 .single l W r q

/-- The projection's one-entry bias spread over the batch, at `(r, 0)`: that entry. -/
private theorem biasP_apply (b : FVec Ideal S1 .f32) (r : Fin 8192) (q : Fin 1) :
    broadcastInDim (α := Ideal .f32) S8192x1 ![0, 1] bcast_S1x1_S8192x1_0_1
      (broadcastInDim S1x1 ![1] bcast_S1_S1x1_1 b) (ix2 r q) = b (ix1 q) :=
  (Cert.LibHostRows.bcast_row_apply _ _ r q).trans (Cert.LibHostRows.bcast_vec_row_apply _ b 0 q)

/-- `[1 * bias0, f₁, f₂, f₃]` against 385 weights. -/
private theorem fcat_dot (b₀ : FVec Ideal S_ .f32) (f₁ f₂ f₃ : FVec Ideal S8192x128 .f32) (r : Fin 8192)
    (w : Fin 385 → EReal) :
    ∑ k : Fin 385, Stages.fcat (F := Ideal) b₀ f₁ f₂ f₃ (ix2 r k) * w k
      = ((b₀ ix0 * w ⟨0, by norm_num⟩ + ∑ k : Fin 128, f₁ (ix2 r k) * w ⟨1 + k.val, by have := k.isLt; omega⟩)
          + ∑ k : Fin 128, f₂ (ix2 r k) * w ⟨129 + k.val, by have := k.isLt; omega⟩)
        + ∑ k : Fin 128, f₃ (ix2 r k) * w ⟨257 + k.val, by have := k.isLt; omega⟩ := by
  rw [PolyNet.dot_concat 257 128 (by norm_num) (fun k : Fin 385 => Stages.fcat (F := Ideal) b₀ f₁ f₂ f₃ (ix2 r k)) w
    (fun k => Stages.head2 (F := Ideal) b₀ f₁ f₂ (ix2 r k)) (fun k => w ⟨k.val, by have := k.isLt; omega⟩)
    (fun k => f₃ (ix2 r k)) (fun k => w ⟨257 + k.val, by have := k.isLt; omega⟩)
    (fun k hk => fcat_left b₀ f₁ f₂ f₃ r k hk)
    (fun k hk => fcat_right b₀ f₁ f₂ f₃ r k hk)
    (fun k hk => rfl)
    (fun k hk => rfl)]
  rw [head2_dot b₀ f₁ f₂ r (fun k => w ⟨k.val, by have := k.isLt; omega⟩)]

/-- `[g₁, g₂]` against 256 weights. -/
private theorem gpair_dot (g₁ g₂ : FVec Ideal S8192x128 .f32) (r : Fin 8192) (w : Fin 256 → EReal) :
    ∑ k : Fin 256, Stages.gpair (F := Ideal) g₁ g₂ (ix2 r k) * w k
      = (∑ k : Fin 128, g₁ (ix2 r k) * w ⟨k.val, by have := k.isLt; omega⟩)
        + ∑ k : Fin 128, g₂ (ix2 r k) * w ⟨128 + k.val, by have := k.isLt; omega⟩ :=
  PolyNet.dot_concat 128 128 (by norm_num) (fun k : Fin 256 => Stages.gpair (F := Ideal) g₁ g₂ (ix2 r k)) w
    (fun k => g₁ (ix2 r k)) (fun k => w ⟨k.val, by have := k.isLt; omega⟩)
    (fun k => g₂ (ix2 r k)) (fun k => w ⟨128 + k.val, by have := k.isLt; omega⟩)
    (fun k hk => gpair_left g₁ g₂ r k hk)
    (fun k hk => gpair_right g₁ g₂ r k hk)
    (fun k hk => rfl)
    (fun k hk => rfl)

/-- `[g₁, g₂, g₃]` against 384 weights. -/
private theorem gcat_dot (g₁ g₂ g₃ : FVec Ideal S8192x128 .f32) (r : Fin 8192) (w : Fin 384 → EReal) :
    ∑ k : Fin 384, Stages.gcat (F := Ideal) g₁ g₂ g₃ (ix2 r k) * w k
      = ((∑ k : Fin 128, g₁ (ix2 r k) * w ⟨k.val, by have := k.isLt; omega⟩)
          + ∑ k : Fin 128, g₂ (ix2 r k) * w ⟨128 + k.val, by have := k.isLt; omega⟩)
        + ∑ k : Fin 128, g₃ (ix2 r k) * w ⟨256 + k.val, by have := k.isLt; omega⟩ := by
  rw [PolyNet.dot_concat 256 128 (by norm_num) (fun k : Fin 384 => Stages.gcat (F := Ideal) g₁ g₂ g₃ (ix2 r k)) w
    (fun k => Stages.gpair (F := Ideal) g₁ g₂ (ix2 r k)) (fun k => w ⟨k.val, by have := k.isLt; omega⟩)
    (fun k => g₃ (ix2 r k)) (fun k => w ⟨256 + k.val, by have := k.isLt; omega⟩)
    (fun k hk => gcat_left g₁ g₂ g₃ r k hk)
    (fun k hk => gcat_right g₁ g₂ g₃ r k hk)
    (fun k hk => rfl)
    (fun k hk => rfl)]
  rw [gpair_dot g₁ g₂ r (fun k => w ⟨k.val, by have := k.isLt; omega⟩)]

/-- Row `m` of the projection's weights is row `n` of its rows from 1 on, when `m = 1 + n`. -/
private theorem wrow (W : FVec Ideal S769x1 .f32) (m n : ℕ) (hm : m < 769) (hn : n < 768) (e : m = 1 + n) :
    W (ix2 ⟨m, hm⟩ 0) = PolyNet.col (PolyNet.rowsFrom 1 768 (by norm_num) W) 0 ⟨n, hn⟩ := by
  subst e
  rfl

/-- The regrouping of the projection: the two halves' sums into one left-nested sum, the constant coordinate's term
    into the constant. -/
private theorem regroupP (z a₁ a₂ a₃ c₁ c₂ c₃ d : EReal) :
    ((((z + a₁) + a₂) + a₃) + ((c₁ + c₂) + c₃)) + d = ((((((a₁ + a₂) + a₃) + c₁) + c₂) + c₃)) + (d + z) := by
  abel

/-- The final projection at row `r`. -/
theorem final_apply (b₀ : FVec Ideal S_ .f32) (f₁ f₂ f₃ g₁ g₂ g₃ : FVec Ideal S8192x128 .f32)
    (W : FVec Ideal S769x1 .f32) (b : FVec Ideal S1 .f32) (r : Fin 8192) :
    Stages.proj (F := Ideal) (Stages.fcat b₀ f₁ f₂ f₃) (Stages.gcat g₁ g₂ g₃) W b (ix2 r 0)
    = PolyNet.proj6 (fun k => f₁ (ix2 r k)) (fun k => f₂ (ix2 r k)) (fun k => f₃ (ix2 r k))
        (fun k => g₁ (ix2 r k)) (fun k => g₂ (ix2 r k)) (fun k => g₃ (ix2 r k))
        (PolyNet.col (PolyNet.rowsFrom 1 768 (by norm_num) W) 0) (PolyNet.foldBias (by norm_num) b₀ W b (ix2 0 0)) := by
  unfold Stages.proj
  show Host.dotGeneral (F := Ideal) dot_S8192x769_S769x1_S8192x1_1_0_0_1_n_n none _ W (ix2 r 0)
      + broadcastInDim (α := Ideal .f32) S8192x1 ![0, 1] bcast_S1x1_S8192x1_0_1
          (broadcastInDim S1x1 ![1] bcast_S1_S1x1_1 b) (ix2 r 0) = _
  rw [dotP_apply, biasP_apply]
  rw [PolyNet.dot_concat 385 384 (by norm_num) _ (fun k : Fin 769 => W (ix2 k 0))
    (fun k => Stages.fcat (F := Ideal) b₀ f₁ f₂ f₃ (ix2 r k)) (fun k => W (ix2 ⟨k.val, by have := k.isLt; omega⟩ 0))
    (fun k => Stages.gcat (F := Ideal) g₁ g₂ g₃ (ix2 r k)) (fun k => W (ix2 ⟨385 + k.val, by have := k.isLt; omega⟩ 0))
    (fun k hk => inP_left _ _ r k hk)
    (fun k hk => inP_right _ _ r k hk)
    (fun k hk => rfl)
    (fun k hk => rfl)]
  rw [fcat_dot b₀ f₁ f₂ f₃ r (fun k => W (ix2 ⟨k.val, by have := k.isLt; omega⟩ 0)),
    gcat_dot g₁ g₂ g₃ r (fun k => W (ix2 ⟨385 + k.val, by have := k.isLt; omega⟩ 0))]
  refine (regroupP _ _ _ _ _ _ _ _).trans ?_
  unfold PolyNet.proj6
  refine congrArg₂ (· + ·) (congrArg₂ (· + ·) (congrArg₂ (· + ·) (congrArg₂ (· + ·) (congrArg₂ (· + ·)
    (congrArg₂ (· + ·) ?_ ?_) ?_) ?_) ?_) ?_) ?_
  · rfl
  · exact Finset.sum_congr rfl fun k _ => congrArg (f₂ (ix2 r k) * ·)
      (wrow W _ _ _ _ (by show 129 + k.val = 1 + (128 + k.val); omega))
  · exact Finset.sum_congr rfl fun k _ => congrArg (f₃ (ix2 r k) * ·)
      (wrow W _ _ _ _ (by show 257 + k.val = 1 + (256 + k.val); omega))
  · exact Finset.sum_congr rfl fun k _ => congrArg (g₁ (ix2 r k) * ·)
      (wrow W _ _ _ _ (by show 385 + k.val = 1 + (384 + k.val); omega))
  · exact Finset.sum_congr rfl fun k _ => congrArg (g₂ (ix2 r k) * ·)
      (wrow W _ _ _ _ (by show 385 + (128 + k.val) = 1 + (512 + k.val); omega))
  · exact Finset.sum_congr rfl fun k _ => congrArg (g₃ (ix2 r k) * ·)
      (wrow W _ _ _ _ (by show 385 + (256 + k.val) = 1 + (640 + k.val); omega))
  · rfl

end Cert.ReferenceIdeal.Tail

end
-- ==== Proof.RefValue.lean ====
/-
  The reference's result array is the network of Proof/Spec.lean of its arguments: its layers read one entry at a time
  (Proof/RefLayers.lean, Proof/RefTail.lean), each layer's input the rows of the layers before it.
-/
import proofs.«133583_j90297392431134_1_alg».proof.Proof.RefLayers
import proofs.«133583_j90297392431134_1_alg».proof.Proof.RefTail

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- The reference's result, as one function of the argument arrays: row `r` of each stage's array is the network's
    vector of that name on row `r` of the first argument, layer by layer, and the projection joins the six. -/
theorem whole_eq (X : FVec Ideal S8192x64 .f32) (b₀ : FVec Ideal S_ .f32) (Wf₁ : FVec Ideal S65x128 .f32) (bf₁ : FVec Ideal S128 .f32) (Wg₁ : FVec Ideal S65x128 .f32) (bg₁ : FVec Ideal S128 .f32) (Wf₂ : FVec Ideal S16513x128 .f32) (bf₂ : FVec Ideal S128 .f32) (Wg₂ : FVec Ideal S16513x128 .f32) (bg₂ : FVec Ideal S128 .f32) (Wf₃ : FVec Ideal S16641x128 .f32) (bf₃ : FVec Ideal S128 .f32) (Wg₃ : FVec Ideal S16641x128 .f32) (bg₃ : FVec Ideal S128 .f32) (Wfc : FVec Ideal S769x1 .f32) (bfc : FVec Ideal S1 .f32) :
    Stages.whole (F := Ideal) X b₀ Wf₁ bf₁ Wg₁ bg₁ Wf₂ bf₂ Wg₂ bg₂ Wf₃ bf₃ Wg₃ bg₃ Wfc bfc = PolyNet.net X b₀ Wf₁ bf₁ Wg₁ bg₁ Wf₂ bf₂ Wg₂ bg₂ Wf₃ bf₃ Wg₃ bg₃ Wfc bfc := by
  funext i
  have hi : i = ix2 (i 0) (0 : Fin 1) := by
    funext a
    match a with
    | ⟨0, _⟩ => rfl
    | ⟨1, _⟩ => exact Fin.ext (by have h1 : (i 1).val < 1 := (i 1).isLt; show (i 1).val = 0; omega)
  rw [hi]
  generalize i 0 = r
  -- the stage arrays
  let F1 := Stages.lay1 (F := Ideal) X b₀ Wf₁ bf₁
  let G1 := Stages.lay1 (F := Ideal) X b₀ Wg₁ bg₁
  let F2 := Stages.lay2 (F := Ideal) b₀ F1 (Stages.outerArr F1 F1) Wf₂ bf₂
  let G2 := Stages.lay2 (F := Ideal) b₀ F1 (Stages.outerArr F1 F1) Wg₂ bg₂
  let F3 := Stages.lay3 (F := Ideal) b₀ F1 F2 (Stages.outerArr F1 F2) Wf₃ bf₃
  let G3 := Stages.lay3 (F := Ideal) b₀ F1 F2 (Stages.outerArr F1 F2) Wg₃ bg₃
  -- the network's vectors on row r
  let x : Fin 64 → EReal := fun k => X (ix2 r k)
  let f₁ : Fin 128 → EReal := fun j => PolyNet.aff1 x (PolyNet.col (PolyNet.rowsFrom 1 64 (by norm_num) Wf₁) j) (PolyNet.foldBias (by norm_num) b₀ Wf₁ bf₁ (ix2 0 j))
  let g₁ : Fin 128 → EReal := fun j => PolyNet.aff1 x (PolyNet.col (PolyNet.rowsFrom 1 64 (by norm_num) Wg₁) j) (PolyNet.foldBias (by norm_num) b₀ Wg₁ bg₁ (ix2 0 j))
  let f₂ : Fin 128 → EReal := fun j => PolyNet.aff2 f₁ (PolyNet.col (PolyNet.rowsFrom 1 128 (by norm_num) Wf₂) j) (PolyNet.outer f₁ f₁) (PolyNet.col (PolyNet.rowsFrom 129 16384 (by norm_num) Wf₂) j) (PolyNet.foldBias (by norm_num) b₀ Wf₂ bf₂ (ix2 0 j))
  let g₂ : Fin 128 → EReal := fun j => PolyNet.aff2 f₁ (PolyNet.col (PolyNet.rowsFrom 1 128 (by norm_num) Wg₂) j) (PolyNet.outer f₁ f₁) (PolyNet.col (PolyNet.rowsFrom 129 16384 (by norm_num) Wg₂) j) (PolyNet.foldBias (by norm_num) b₀ Wg₂ bg₂ (ix2 0 j))
  let f₃ : Fin 128 → EReal := fun j => PolyNet.aff3 f₁ (PolyNet.col (PolyNet.rowsFrom 1 128 (by norm_num) Wf₃) j) f₂ (PolyNet.col (PolyNet.rowsFrom 129 128 (by norm_num) Wf₃) j) (PolyNet.outer f₁ f₂) (PolyNet.col (PolyNet.rowsFrom 257 16384 (by norm_num) Wf₃) j) (PolyNet.foldBias (by norm_num) b₀ Wf₃ bf₃ (ix2 0 j))
  let g₃ : Fin 128 → EReal := fun j => PolyNet.aff3 f₁ (PolyNet.col (PolyNet.rowsFrom 1 128 (by norm_num) Wg₃) j) f₂ (PolyNet.col (PolyNet.rowsFrom 129 128 (by norm_num) Wg₃) j) (PolyNet.outer f₁ f₂) (PolyNet.col (PolyNet.rowsFrom 257 16384 (by norm_num) Wg₃) j) (PolyNet.foldBias (by norm_num) b₀ Wg₃ bg₃ (ix2 0 j))
  have e1 : (fun k => F1 (ix2 r k)) = f₁ := funext fun j => Layers.layer1_apply X b₀ Wf₁ bf₁ r j
  have e1g : (fun k => G1 (ix2 r k)) = g₁ := funext fun j => Layers.layer1_apply X b₀ Wg₁ bg₁ r j
  have eo2 : (fun q => Stages.outerArr F1 F1 (ix2 r q)) = PolyNet.outer f₁ f₁ :=
    funext fun q => (Layers.outer_apply F1 F1 r q).trans (by rw [e1])
  have e2 : (fun k => F2 (ix2 r k)) = f₂ :=
    funext fun j => (Layers.layer2_apply b₀ F1 (Stages.outerArr F1 F1) Wf₂ bf₂ r j).trans (by rw [e1, eo2])
  have e2g : (fun k => G2 (ix2 r k)) = g₂ :=
    funext fun j => (Layers.layer2_apply b₀ F1 (Stages.outerArr F1 F1) Wg₂ bg₂ r j).trans (by rw [e1, eo2])
  have eo3 : (fun q => Stages.outerArr F1 F2 (ix2 r q)) = PolyNet.outer f₁ f₂ :=
    funext fun q => (Layers.outer_apply F1 F2 r q).trans (by rw [e1, e2])
  have e3 : (fun k => F3 (ix2 r k)) = f₃ :=
    funext fun j => (Tail.layer3_apply b₀ F1 F2 (Stages.outerArr F1 F2) Wf₃ bf₃ r j).trans (by rw [e1, e2, eo3])
  have e3g : (fun k => G3 (ix2 r k)) = g₃ :=
    funext fun j => (Tail.layer3_apply b₀ F1 F2 (Stages.outerArr F1 F2) Wg₃ bg₃ r j).trans (by rw [e1, e2, eo3])
  refine (Tail.final_apply b₀ F1 F2 F3 G1 G2 G3 Wfc bfc r).trans ?_
  rw [e1, e2, e3, e1g, e2g, e3g]
  rfl

end Cert.ReferenceIdeal.RefValue

end
-- ==== Proof.lean ====
/-
  Both programs compute one polynomial network (Proof/Spec.lean), row by row of the batch: three layers with a
  nonvanishing and a vanishing branch, each layer's input the earlier layers' outputs and an outer product of two of them,
  then a projection of the six feature vectors to one number.

  The reference carries a constant input coordinate `1 * bias0` at the head of every layer's input and multiplies the
  concatenated input by the whole weight matrix. The kernel drops that coordinate: outside the grid it folds
  `bias0 * W₀` (the weight matrix's first row) into each bias, cuts the remaining rows of each weight matrix into the
  blocks that meet the pieces of the concatenated input, and inside the grid adds one matrix product per piece; grid
  point `t` computes rows `128 t … 128 t + 127`. On the extended reals the two agree by splitting each sum over a
  concatenation at its joints, `1 * a = a`, and regrouping the terms of a sum: no product is distributed, so the
  inputs' finiteness is not used. Changes of float format are the identity on extended reals.

  Kernel side: Proof/KernelBody.lean (the body on one block), Proof/KernelOperands.lean (the operands the host
  prologue makes), Proof/KernelValue.lean (the blocks cover the result array). Reference side: Proof/RefStages.lean (its stages named), Proof/RefRun.lean (its run, stretch by stretch),
  Proof/RefLayers.lean, Proof/RefTail.lean (one layer at one entry), Proof/RefValue.lean (the whole array).
-/
import proofs.«133583_j90297392431134_1_alg».proof.Defs
import proofs.«133583_j90297392431134_1_alg».proof.Proof.Gen.Kernel
import proofs.«133583_j90297392431134_1_alg».proof.Proof.Gen.Kernel.Skeleton
import proofs.«133583_j90297392431134_1_alg».proof.Proof.Gen.Kernel.Launch
import proofs.«133583_j90297392431134_1_alg».proof.Proof.Gen.Kernel.Points
import proofs.«133583_j90297392431134_1_alg».proof.Proof.Gen.Kernel.Frame
import proofs.«133583_j90297392431134_1_alg».proof.Proof.Gen.KernelIdeal
import proofs.«133583_j90297392431134_1_alg».proof.Proof.Gen.KernelIdeal.Skeleton
import proofs.«133583_j90297392431134_1_alg».proof.Proof.Gen.KernelIdeal.Launch
import proofs.«133583_j90297392431134_1_alg».proof.Proof.Gen.KernelIdeal.Points
import proofs.«133583_j90297392431134_1_alg».proof.Proof.Gen.KernelIdeal.Frame
import proofs.«133583_j90297392431134_1_alg».proof.Proof.Gen.ReferenceIdeal
import proofs.«133583_j90297392431134_1_alg».proof.Proof.Gen.Pre_finite_inputs
import proofs.«133583_j90297392431134_1_alg».proof.Proof.Gen.KernelIdeal.Value
import proofs.«133583_j90297392431134_1_alg».proof.Proof.KernelValue
import proofs.«133583_j90297392431134_1_alg».proof.Proof.RefRun
import proofs.«133583_j90297392431134_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both runs end with the result array at the network of the argument arrays, and the arguments agree. -/
theorem algebraic : Cert.algebraic_KernelIdeal_ReferenceIdeal := by
  intro m ρ m' ρ' _ hagree
  refine ⟨_, Cert.KernelIdeal.NetValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.whole_eq]
  obtain ⟨h0, h1, h2, h3, h4, h5, h6, h7, h8, h9, h10, h11, h12, h13, h14, h15⟩ := hagree c
  rw [h0, h1, h2, h3, h4, h5, h6, h7, h8, h9, h10, h11, h12, h13, h14, h15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
